-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S64x2 .f32) (main_arg8 : FVec F S2 .f32) (main_v33 : IVec S_ 1) : IVec S_ 1 :=
  let main_v34 : FVec F S64x2 .f32 := Host.absf main_arg7
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S1024 .f32) (main_arg5 : FVec F S1024x64 .f32) (main_arg6 : FVec F S64 .f32) (main_arg7 : FVec F S64x2 .f32) (main_arg8 : FVec F S2 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x4096 .f32) (main_arg1 : FVec F S4096x4096 .f32) (main_arg2 : FVec F S4096x4096 .f32) (main_arg3 : FVec F S4096x1024 .f32) (main_arg4 : FVec F S1024 .f32) (main_arg5 : FVec F S1024x64 .f32) (main_arg6 : FVec F S64 .f32) (main_arg7 : FVec F S64x2 .f32) (main_arg8 : FVec F S2 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x4096 : Shape := ⟨2, ![4096, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x2 : Shape := ⟨2, ![64, 2]⟩
abbrev S2 : Shape := ⟨1, ![2]⟩
abbrev S_ : Shape := ⟨0, ![]⟩
abbrev S1x1024 : Shape := ⟨2, ![1, 1024]⟩
abbrev S1x64 : Shape := ⟨2, ![1, 64]⟩
abbrev S1x2 : Shape := ⟨2, ![1, 2]⟩
abbrev S4096x2 : Shape := ⟨2, ![4096, 2]⟩
abbrev S512x4096 : Shape := ⟨2, ![512, 4096]⟩
abbrev S512x2 : Shape := ⟨2, ![512, 2]⟩
abbrev S1x4096 : Shape := ⟨2, ![1, 4096]⟩
abbrev S512 : Shape := ⟨1, ![512]⟩
abbrev S512x1 : Shape := ⟨2, ![512, 1]⟩
abbrev S512x1024 : Shape := ⟨2, ![512, 1024]⟩
abbrev S512x64 : Shape := ⟨2, ![512, 64]⟩
abbrev S256x4096 : Shape := ⟨2, ![256, 4096]⟩
abbrev S256x2 : Shape := ⟨2, ![256, 2]⟩
abbrev S256x1 : Shape := ⟨2, ![256, 1]⟩

abbrev nBuf : Space → Nat
  | .hbm => 23
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S2, .f32⟩
  | .hbm, ⟨10, _⟩ => ⟨S_, .f32⟩
  | .hbm, ⟨11, _⟩ => ⟨S64x2, .f32⟩
  | .hbm, ⟨12, _⟩ => ⟨S64x2, .f32⟩
  | .hbm, ⟨13, _⟩ => ⟨S_, .f32⟩
  | .hbm, ⟨14, _⟩ => ⟨S2, .f32⟩
  | .hbm, ⟨15, _⟩ => ⟨S2, .f32⟩
  | .hbm, ⟨16, _⟩ => ⟨S2, .f32⟩
  | .hbm, ⟨17, _⟩ => ⟨S1x1024, .f32⟩
  | .hbm, ⟨18, _⟩ => ⟨S1x64, .f32⟩
  | .hbm, ⟨19, _⟩ => ⟨S1x2, .f32⟩
  | .hbm, ⟨20, _⟩ => ⟨S4096x2, .f32⟩
  | .hbm, ⟨21, _⟩ => ⟨S4096x4096, .f32⟩
  | .hbm, ⟨22, _⟩ => ⟨S4096x2, .f32⟩
  | .local _ .vmem, ⟨0, _⟩ => ⟨S512x4096, .f32⟩
  | .local _ .vmem, ⟨1, _⟩ => ⟨S512x4096, .f32⟩
  | .local _ .vmem, ⟨2, _⟩ => ⟨S4096x1024, .f32⟩
  | .local _ .vmem, ⟨3, _⟩ => ⟨S1x1024, .f32⟩
  | .local _ .vmem, ⟨4, _⟩ => ⟨S1024x64, .f32⟩
  | .local _ .vmem, ⟨5, _⟩ => ⟨S1x64, .f32⟩
  | .local _ .vmem, ⟨6, _⟩ => ⟨S64x2, .f32⟩
  | .local _ .vmem, ⟨7, _⟩ => ⟨S1x2, .f32⟩
  | .local _ .vmem, ⟨8, _⟩ => ⟨S512x2, .f32⟩
  | .local _ .vmem, ⟨9, _⟩ => ⟨S512x2, .f32⟩
  | .local _ .vmem, ⟨10, _⟩ => ⟨S4096x1024, .bf16⟩
  | .local _ .vmem, ⟨11, _⟩ => ⟨S1x1024, .f32⟩
  | .local _ .vmem, ⟨12, _⟩ => ⟨S256x4096, .f32⟩
  | .local _ .vmem, ⟨13, _⟩ => ⟨S256x4096, .f32⟩
  | .local _ .vmem, ⟨14, _⟩ => ⟨S256x4096, .f32⟩
  | .local _ .vmem, ⟨15, _⟩ => ⟨S256x4096, .f32⟩
  | .local _ .vmem, ⟨16, _⟩ => ⟨S4096x2, .f32⟩
  | .local _ .vmem, ⟨17, _⟩ => ⟨S256x2, .f32⟩
  | .local _ .vmem, ⟨18, _⟩ => ⟨S256x2, .f32⟩
  | .local _ .vmem, ⟨19, _⟩ => ⟨S256x4096, .f32⟩
  | .local _ .vmem, ⟨20, _⟩ => ⟨S256x4096, .f32⟩
  | .local _ .vmem, ⟨21, _⟩ => ⟨S256x2, .f32⟩
  | .local _ .vmem, ⟨22, _⟩ => ⟨S256x2, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S64x2 : S_.BroadcastsInDim S64x2 (![] : Fin 0 → Fin S64x2.rank)
  bcast_S_S2 : S_.BroadcastsInDim S2 (![] : Fin 0 → Fin S2.rank)
  shapeCasts_S1024_S1x1024 : S1024.ShapeCasts S1x1024
  shapeCasts_S64_S1x64 : S64.ShapeCasts S1x64
  shapeCasts_S2_S1x2 : S2.ShapeCasts S1x2
  inb_S4096x1024_S4096x1024_0_0 : ∀ a, (![0, 0] : Fin 2 → Nat) a + S4096x1024.size a ≤ S4096x1024.size a
  h_S4096x1024 : 0 < S4096x1024.numel
  bitsLt_bf16_f32 : FTy.bits .bf16 < FTy.bits .f32
  shapeCasts_S4096x1024_S4096x1024 : S4096x1024.ShapeCasts S4096x1024
  packedbf16_S4096x1024_S4096x1024_0_0 : (Rect.unit (s := S4096x1024) ![0, 0] S4096x1024.size inb_S4096x1024_S4096x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x1024 : S512x1.Broadcasts S512x1024
  broadcasts_S1x1024_S512x1024 : S1x1024.Broadcasts S512x1024
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  reduces_S512x2_S512 : S512x2.Reduces [1] S512
  broadcasts_S512x1_S512x2 : S512x1.Broadcasts S512x2
  inb_S512x2_S512x2_0_0 : ∀ a, (![0, 0] : Fin 2 → Nat) a + S512x2.size a ≤ S512x2.size a
  h_S512x2 : 0 < S512x2.numel
  inb_S256x4096_S256x4096_0_0 : ∀ a, (![0, 0] : Fin 2 → Nat) a + S256x4096.size a ≤ S256x4096.size a
  h_S256x4096 : 0 < S256x4096.numel
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S256x2_S256x2_0_0 : ∀ a, (![0, 0] : Fin 2 → Nat) a + S256x2.size a ≤ S256x2.size a
  h_S256x2 : 0 < S256x2.numel
  shapeCasts_S256x2_S256x2 : S256x2.ShapeCasts S256x2
  slices_S256x2_o0_0_S256x1 : S256x2.Slices ![0, 0] S256x1
  broadcasts_S256x1_S256x4096 : S256x1.Broadcasts S256x4096
  slices_S256x2_o0_1_S256x1 : S256x2.Slices ![0, 1] S256x1
  dot_S1x4096_S4096x1024_S1x1024_1_0_0_1_n_n_wf : DotDims.WF S1x4096 S4096x1024 S1x1024 [1] [0] [0] [1] [] []
  dot_S512x4096_S4096x1024_S512x1024_1_0_0_1_n_n_wf : DotDims.WF S512x4096 S4096x1024 S512x1024 [1] [0] [0] [1] [] []
  dot_S512x1024_S1024x64_S512x64_1_0_0_1_n_n_wf : DotDims.WF S512x1024 S1024x64 S512x64 [1] [0] [0] [1] [] []
  dot_S512x64_S64x2_S512x2_1_0_0_1_n_n_wf : DotDims.WF S512x64 S64x2 S512x2 [1] [0] [0] [1] [] []
  dot_S256x4096_S4096x2_S256x2_1_0_0_1_n_n_wf : DotDims.WF S256x4096 S4096x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .f32 = 32 ∨ (Rect.block (s := S4096x1024) S4096x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x2.size a ≤ S64x2.size a
  hwx0_5 : ∀ i : grid0.Coords, EltTy.bits .f32 = 32 ∨ (Rect.block (s := S64x2) S64x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2.size a ≤ S4096x2.size a
  hwx0_7 : ∀ i : grid0.Coords, EltTy.bits .f32 = 32 ∨ (Rect.block (s := S4096x2) S512x2.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2.size a ≤ S4096x2.size a
  hwx1_2 : ∀ i : grid1.Coords, EltTy.bits .f32 = 32 ∨ (Rect.block (s := S4096x2) S4096x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S4096x2.size a
  hwx1_3 : ∀ i : grid1.Coords, EltTy.bits .f32 = 32 ∨ (Rect.block (s := S4096x2) S256x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S4096x4096.size a
  hwx1_4 : ∀ i : grid1.Coords, EltTy.bits .f32 = 32 ∨ (Rect.block (s := S4096x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2.size a ≤ S4096x2.size a
  hwx1_5 : ∀ i : grid1.Coords, EltTy.bits .f32 = 32 ∨ (Rect.block (s := S4096x2) S256x2.size (cc1_transform_5 i) (hinb1_5 i)).WholeWords (EltTy.packing .f32)

variable [Facts₀]

def dot_S1x4096_S4096x1024_S1x1024_1_0_0_1_n_n : DotDims S1x4096 S4096x1024 S1x1024 where
  lhsContracting := [1]
  rhsContracting := [0]
  lhsNonContracting := [0]
  rhsNonContracting := [1]
  lhsBatch := []
  rhsBatch := []
  wf := dot_S1x4096_S4096x1024_S1x1024_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf
def dot_S256x4096_S4096x2_S256x2_1_0_0_1_n_n : DotDims S256x4096 S4096x2 S256x2 where
  lhsContracting := [1]
  rhsContracting := [0]
  lhsNonContracting := [0]
  rhsNonContracting := [1]
  lhsBatch := []
  rhsBatch := []
  wf := dot_S256x4096_S4096x2_S256x2_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4096x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_0) S256x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_1) S256x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x1024 : Shape := ⟨2, ![4096, 1024]⟩
abbrev S1024 : Shape := ⟨1, ![1024]⟩
abbrev S1024x64 : Shape := ⟨2, ![1024, 64]⟩
abbrev S64 : Shape := ⟨1, ![64]⟩
abbrev S64x2 : Shape := ⟨2, ![64, 2]⟩
abbrev S2 : Shape := ⟨1, ![2]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x64 : Shape := ⟨2, ![4096, 64]⟩
abbrev S1x64 : Shape := ⟨2, ![1, 64]⟩
abbrev S4096x2 : Shape := ⟨2, ![4096, 2]⟩
abbrev S1x2 : Shape := ⟨2, ![1, 2]⟩
abbrev S4096x4096x1 : Shape := ⟨3, ![4096, 4096, 1]⟩
abbrev S4096x4096x2 : Shape := ⟨3, ![4096, 4096, 2]⟩
abbrev S4096x1x2 : Shape := ⟨3, ![4096, 1, 2]⟩

abbrev nBuf : Space → Nat
  | .hbm => 107
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x1024, .f32⟩
  | .hbm, ⟨4, _⟩ => ⟨S1024, .f32⟩
  | .hbm, ⟨5, _⟩ => ⟨S1024x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S2, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .i32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x64, .f32⟩
  | .hbm, ⟨56, _⟩ => ⟨S1x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S_, .f32⟩
  | .hbm, ⟨61, _⟩ => ⟨S4096x64, .f32⟩
  | .hbm, ⟨62, _⟩ => ⟨S4096x64, .i1⟩
  | .hbm, ⟨63, _⟩ => ⟨S_, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x2, .f32⟩
  | .hbm, ⟨68, _⟩ => ⟨S1x2, .f32⟩
  | .hbm, ⟨69, _⟩ => ⟨S4096x2, .f32⟩
  | .hbm, ⟨70, _⟩ => ⟨S4096x2, .f32⟩
  | .hbm, ⟨71, _⟩ => ⟨S_, .f32⟩
  | .hbm, ⟨72, _⟩ => ⟨S4096x2, .f32⟩
  | .hbm, ⟨73, _⟩ => ⟨S4096x2, .f32⟩
  | .hbm, ⟨74, _⟩ => ⟨S1x2, .f32⟩
  | .hbm, ⟨75, _⟩ => ⟨S4096x2, .f32⟩
  | .hbm, ⟨76, _⟩ => ⟨S4096x2, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x2, .f32⟩
  | .hbm, ⟨84, _⟩ => ⟨S4096x2, .f32⟩
  | .hbm, ⟨85, _⟩ => ⟨S4096x2, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x2, .f32⟩
  | .hbm, ⟨90, _⟩ => ⟨S4096x2, .f32⟩
  | .hbm, ⟨91, _⟩ => ⟨S_, .f32⟩
  | .hbm, ⟨92, _⟩ => ⟨S4096x2, .f32⟩
  | .hbm, ⟨93, _⟩ => ⟨S4096x2, .f32⟩
  | .hbm, ⟨94, _⟩ => ⟨S4096x2, .f32⟩
  | .hbm, ⟨95, _⟩ => ⟨S_, .f32⟩
  | .hbm, ⟨96, _⟩ => ⟨S4096x2, .f32⟩
  | .hbm, ⟨97, _⟩ => ⟨S4096x2, .f32⟩
  | .hbm, ⟨98, _⟩ => ⟨S4096x2, .f32⟩
  | .hbm, ⟨99, _⟩ => ⟨S4096x4096x1, .f32⟩
  | .hbm, ⟨100, _⟩ => ⟨S4096x4096x1, .f32⟩
  | .hbm, ⟨101, _⟩ => ⟨S4096x4096x2, .f32⟩
  | .hbm, ⟨102, _⟩ => ⟨S4096x1x2, .f32⟩
  | .hbm, ⟨103, _⟩ => ⟨S4096x4096x2, .f32⟩
  | .hbm, ⟨104, _⟩ => ⟨S4096x4096x2, .f32⟩
  | .hbm, ⟨105, _⟩ => ⟨S_, .f32⟩
  | .hbm, ⟨106, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_2 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call1_cst : Ref sig .tc := ⟨.hbm, 52, rfl⟩
abbrev main_call1_v0 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_3 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_cst_5 : Ref sig .tc := ⟨.hbm, 77, rfl⟩
abbrev main_v31 : Ref sig .tc := ⟨.hbm, 78, rfl⟩
abbrev main_cst_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_7 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_9 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_10 : Ref sig .tc := ⟨.hbm, 105, rfl⟩
abbrev main_v54 : Ref sig .tc := ⟨.hbm, 106, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S4096x2 : S_.BroadcastsInDim S4096x2 (![] : Fin 0 → Fin S4096x2.rank)
  reducesTo_S4096x2_S4096_d1 : S4096x2.ReducesTo [1] S4096
  bcast_S_S4096 : S_.BroadcastsInDim S4096 (![] : Fin 0 → Fin S4096.rank)
  bcast_S4096x1_S4096x2_0_1 : S4096x1.BroadcastsInDim S4096x2 (![0, 1] : Fin 2 → Fin S4096x2.rank)
  bcast_S4096x4096_S4096x4096x1_0_1 : S4096x4096.BroadcastsInDim S4096x4096x1 (![0, 1] : Fin 2 → Fin S4096x4096x1.rank)
  concatenates_S4096x4096x1_S4096x4096x1_S4096x4096x2_d2 : Shape.Concatenates [S4096x4096x1, S4096x4096x1] S4096x4096x2 2
  bcast_S4096x2_S4096x1x2_0_2 : S4096x2.BroadcastsInDim S4096x1x2 (![0, 2] : Fin 2 → Fin S4096x1x2.rank)
  bcast_S4096x1x2_S4096x4096x2_0_1_2 : S4096x1x2.BroadcastsInDim S4096x4096x2 (![0, 1, 2] : Fin 3 → Fin S4096x4096x2.rank)
  reducesTo_S4096x4096x2_S4096x4096_d2 : S4096x4096x2.ReducesTo [2] S4096x4096
  dot_S4096x4096_S4096x1024_S4096x1024_1_0_0_1_n_n_wf : DotDims.WF S4096x4096 S4096x1024 S4096x1024 [1] [0] [0] [1] [] []
  dot_S4096x1024_S1024x64_S4096x64_1_0_0_1_n_n_wf : DotDims.WF S4096x1024 S1024x64 S4096x64 [1] [0] [0] [1] [] []
  dot_S4096x64_S64x2_S4096x2_1_0_0_1_n_n_wf : DotDims.WF S4096x64 S64x2 S4096x2 [1] [0] [0] [1] [] []
  dot_S4096x4096_S4096x2_S4096x2_1_0_0_1_n_n_wf : DotDims.WF S4096x4096 S4096x2 S4096x2 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x2_S4096x2_1_0_0_1_n_n : DotDims S4096x64 S64x2 S4096x2 where
  lhsContracting := [1]
  rhsContracting := [0]
  lhsNonContracting := [0]
  rhsNonContracting := [1]
  lhsBatch := []
  rhsBatch := []
  wf := dot_S4096x64_S64x2_S4096x2_1_0_0_1_n_n_wf
def dot_S4096x4096_S4096x2_S4096x2_1_0_0_1_n_n : DotDims S4096x4096 S4096x2 S4096x2 where
  lhsContracting := [1]
  rhsContracting := [0]
  lhsNonContracting := [0]
  rhsNonContracting := [1]
  lhsBatch := []
  rhsBatch := []
  wf := dot_S4096x4096_S4096x2_S4096x2_1_0_0_1_n_n_wf

class Facts : Prop extends Facts₀ where

variable [Facts]
-- ==== Proof.KBody0.lean ====
import proofs.«138674_g11373073400015_week1_w4_273_26_alg».proof.Proof.Gen.Kernel.Launch
import proofs.«138674_g11373073400015_week1_w4_273_26_alg».proof.Proof.Gen.Kernel.Skeleton
import proofs.«138674_g11373073400015_week1_w4_273_26_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The gating body on whole staging memrefs, at the first grid point (where it also fills its two scratch
    buffers: the first weight matrix narrowed, and its column sums) and at the later points (where it reads them). -/

/-- The branch condition of the gating body: the grid coordinate is zero. -/
abbrev condFirst (i : grid0.Coords) : Prop :=
  (Scalar.cmpi .ne (Scalar.extui (Scalar.cmpi .eq (BitVec.ofNat 32 (i 0).val) 0#32)) 0#32) = 1#1

/-- It holds at the first point only. -/
theorem hcondFirst : ∀ t : Fin cfg0.N, condFirst (grid0.coords t) ↔ t.val = 0 :=
  (by decide +kernel : ∀ t : Fin grid0.N, condFirst (grid0.coords t) ↔ t.val = 0)

/-- The block of gate weights the body stores: the softmax over the three layers, from the row block, the narrowed
    first weight matrix, its column sums and the remaining parameters. -/
def gateOut (z : Vec F S512x4096 .f32) (w1a : Vec F S4096x1024 .bf16) (cs b1 : Vec F S1x1024 .f32) (w2 : Vec F S1024x64 .f32) (b2 : Vec F S1x64 .f32) (w3 : Vec F S64x2 .f32) (b3 : Vec F S1x2 .f32) : Vec F S512x2 .f32 :=
  k0_pay1 (k0_pay4 z w1a cs b1 w2) b2 w3 b3

theorem hz : (![0, 0] : Fin 2 → Nat) = fun _ => 0 := funext fun a => by fin_cases a <;> rfl

set_option maxHeartbeats 4000000 in
/-- At a later point: the scratch buffers are read and kept, the output block is the gate weights over them. -/
theorem sound_gate_rest (c : Dev nD) (E : Set ℕ) (i : grid0.Coords) (arg1 : Memref sig .tc .vmem S512x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S4096x1024 .bf16) (harg9 : arg9.IsWhole) (arg10 : Memref sig .tc .vmem S1x1024 .f32) (harg10 : arg10.IsWhole) (hc : ¬condFirst i)
    (x1 : Vec F S512x4096 .f32) (x2 : Vec F S4096x1024 .f32) (x3 : Vec F S1x1024 .f32) (x4 : Vec F S1024x64 .f32) (x5 : Vec F S1x64 .f32) (x6 : Vec F S64x2 .f32) (x7 : Vec F S1x2 .f32)
    (xs9 : Vec F S4096x1024 .bf16) (xs10 : Vec F S1x1024 .f32) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ owns (c : Thread nD τ) arg9 fullShare xs9 ∗ owns (c : Thread nD τ) arg10 fullShare xs10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare (gateOut x1 xs9 xs10 x3 x4 x5 x6 x7) ∗ owns (c : Thread nD τ) arg9 fullShare xs9 ∗ owns (c : Thread nD τ) arg10 fullShare xs10) -∗ K ⟨⟩))
          ⊢ wp frame (wpE (defs₀ (F := F)) Variants.none c none) E (cc0__gate_body i arg1 harg1 arg2 harg2 arg3 harg3 arg4 harg4 arg5 harg5 arg6 harg6 arg7 harg7 arg8 harg8 arg9 harg9 arg10 harg10) K := by
    simp only [cc0__gate_body_eq_skeleton]; unfold cc0__gate_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap; · iexact H8
      ipureintro
      sl_unfold_words
      rw [View.read_writes_eq_canon _ _ _ (fun y => ⟨_, List.mem_singleton_self _, View.mem_set_unit_zero hz inb_S512x2_S512x2_0_0 y⟩)]
      rw [View.canon_unit_zero hz]
      unfold gateOut
      simp only [View.readAt_eq_ld, harg1.read_unread, harg2.read_unread, harg3.read_unread, harg4.read_unread, harg5.read_unread, harg6.read_unread, harg7.read_unread, harg9.read_unread, harg10.read_unread,
        View.readCov_unit_zero (S := S4096x1024) _ hz, View.readCov_unit_zero (S := S1x1024) _ hz,
        View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]
    isplitl [H9]
    · iexists _; isplitr; · ipureintro; exact harg9.read_unread _
      iexact H9
    iexists _; isplitr; · ipureintro; exact harg10.read_unread _
    iexact H10

set_option maxHeartbeats 4000000 in
/-- At the first point: the scratch buffers are filled from the first weight matrix, then read back; the output block is
    the gate weights over what was just stored. -/
theorem sound_gate_first (c : Dev nD) (E : Set ℕ) (i : grid0.Coords) (arg1 : Memref sig .tc .vmem S512x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S4096x1024 .bf16) (harg9 : arg9.IsWhole) (arg10 : Memref sig .tc .vmem S1x1024 .f32) (harg10 : arg10.IsWhole) (hc : condFirst i)
    (x1 : Vec F S512x4096 .f32) (x2 : Vec F S4096x1024 .f32) (x3 : Vec F S1x1024 .f32) (x4 : Vec F S1024x64 .f32) (x5 : Vec F S1x64 .f32) (x6 : Vec F S64x2 .f32) (x7 : Vec F S1x2 .f32)
    (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare (gateOut x1 (k0_pay2 x2) (k0_pay3 x2) x3 x4 x5 x6 x7) ∗ owns (c : Thread nD τ) arg9 fullShare (k0_pay2 x2) ∗ owns (c : Thread nD τ) arg10 fullShare (k0_pay3 x2)) -∗ K ⟨⟩))
          ⊢ wp frame (wpE (defs₀ (F := F)) Variants.none c none) E (cc0__gate_body i arg1 harg1 arg2 harg2 arg3 harg3 arg4 harg4 arg5 harg5 arg6 harg6 arg7 harg7 arg8 harg8 arg9 harg9 arg10 harg10) K := by
    simp only [cc0__gate_body_eq_skeleton]; unfold cc0__gate_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap; · iexact H8
      ipureintro
      sl_unfold_words
      rw [View.read_writes_eq_canon _ _ _ (fun y => ⟨_, List.mem_singleton_self _, View.mem_set_unit_zero hz inb_S512x2_S512x2_0_0 y⟩)]
      rw [View.canon_unit_zero hz]
      unfold gateOut
      simp only [View.readAt_eq_ld, harg1.read_unread, harg2.read_unread, harg3.read_unread, harg4.read_unread, harg5.read_unread, harg6.read_unread, harg7.read_unread,
        View.readCov_unit_zero (S := S4096x1024) _ hz, View.readCov_unit_zero (S := S1x1024) _ hz,
        View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]
    isplitl [H9]
    · iexists _; isplitr
      swap; · iexact H9
      ipureintro
      sl_unfold_words
      rw [View.read_writes_eq_canon _ _ _ (fun y => ⟨_, List.mem_singleton_self _, View.mem_set_unit_zero hz inb_S4096x1024_S4096x1024_0_0 y⟩)]
      rw [View.canon_unit_zero hz]

      simp only [View.readAt_eq_ld, harg1.read_unread, harg2.read_unread, harg3.read_unread, harg4.read_unread, harg5.read_unread, harg6.read_unread, harg7.read_unread,
        View.readCov_unit_zero (S := S4096x1024) _ hz, View.readCov_unit_zero (S := S1x1024) _ hz,
        View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]
    iexists _; isplitr
    swap; · iexact H10
    ipureintro
    sl_unfold_words
    rw [View.read_writes_eq_canon _ _ _ (fun y => ⟨_, List.mem_singleton_self _, View.mem_set_unit_zero hz inb_S1x1024_S1x1024_0_0 y⟩)]
    rw [View.canon_unit_zero hz]

    simp only [View.readAt_eq_ld, harg1.read_unread, harg2.read_unread, harg3.read_unread, harg4.read_unread, harg5.read_unread, harg6.read_unread, harg7.read_unread,
      View.readCov_unit_zero (S := S4096x1024) _ hz, View.readCov_unit_zero (S := S1x1024) _ hz,
      View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]

end Cert.Kernel.Hand

end
-- ==== Proof.KData0.lean ====
import proofs.«138674_g11373073400015_week1_w4_273_26_alg».proof.Proof.Gen.Kernel.Launch
import proofs.«138674_g11373073400015_week1_w4_273_26_alg».proof.Proof.Gen.Kernel.Skeleton
import proofs.«138674_g11373073400015_week1_w4_273_26_alg».proof.Proof.Gen.Kernel.Points
import proofs.«138674_g11373073400015_week1_w4_273_26_alg».proof.Proof.KBody0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The gating region's proof data over the contents V the region is entered with: each input window's block,
    the two scratch buffers' contents after the first point (the first weight matrix narrowed, and its column sums),
    the output block after each point, and the body obligation. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The scratch operands: whole scoped buffers of the kernel's own. -/
abbrev scM9 : Memref sig .tc .vmem S4096x1024 .bf16 := Memref.whole cc0_scratch0
abbrev scM10 : Memref sig .tc .vmem S1x1024 .f32 := Memref.whole cc0_scratch1

/-- The first weight matrix as the first point's window holds it. -/
def w1blk (c : Dev nD) : Vec F S4096x1024 .f32 := iblk0 V c 1 t0_0

/-- What the region's invariant holds before the first point: the scoped buffers no window stages, at any contents,
    and the generator register. -/
def PhiA0 (c : Dev nD) : sProp 𝕄 :=
  iprop(Pipeline.scopedRest (Ix := Unit) (Name := ℕ) (U := UR sig nD τ) (Lvl := ℕ) (Val := Elt F) spec0 c ∗ ∃ r, prngReg c r)

/-- The same with the two scratch buffers NAMED: the narrowed first weight matrix and its column sums; the rest comes
    back whenever the two are handed in at any contents. -/
def PhiS0 (c : Dev nD) : sProp 𝕄 :=
  iprop(owns (c : Thread nD τ) scM9 fullShare (k0_pay2 (w1blk V c)) ∗ owns (c : Thread nD τ) scM10 fullShare (k0_pay3 (w1blk V c))
    ∗ (iprop((∃ d, owns (c : Thread nD τ) scM9 fullShare d) ∗ (∃ d, owns (c : Thread nD τ) scM10 fullShare d)) -∗ PhiA0 (F := F) c))

/-- The invariant before position n: anything before the first point, the named scratch contents afterwards. -/
def PhiG (c : Dev nD) (n : ℕ) : sProp 𝕄 := if n = 0 then PhiA0 (F := F) c else PhiS0 V c

/-- The unnamed invariant hands out the two scratch buffers and takes them back. -/
theorem PhiA0_open (c : Dev nD) :
    (PhiA0 (F := F) c) ⊢ iprop((∃ d, owns (c : Thread nD τ) scM9 fullShare d) ∗ (∃ d, owns (c : Thread nD τ) scM10 fullShare d)
      ∗ (iprop((∃ d, owns (c : Thread nD τ) scM9 fullShare d) ∗ (∃ d, owns (c : Thread nD τ) scM10 fullShare d)) -∗ PhiA0 (F := F) c)) := by
  unfold PhiA0; rw [scopedRest0_eq]; simp only [scM9, scM10, owns_whole]
  iintro ⟨⟨H9, H10, Hr⟩, Hp⟩
  isplitl [H9]; · iexact H9
  isplitl [H10]; · iexact H10
  iintro ⟨H9, H10⟩
  isplitr [Hp]
  · isplitl [H9]; · iexact H9
    isplitl [H10]; · iexact H10
    iexact Hr
  iexact Hp

/-- The named invariant gives the unnamed one back. -/
theorem PhiS0_close (c : Dev nD) : PhiS0 V c ⊢ (PhiA0 (F := F) c) := by
  unfold PhiS0
  iintro ⟨H9, H10, Hw⟩
  iapply Hw
  isplitl [H9]; · iexists _; iexact H9
  iexists _; iexact H10

/-- The proof data of the gating pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => gateOut (iblk0 V c 0 t) (k0_pay2 (w1blk V c)) (k0_pay3 (w1blk V c)) (iblk0 V c 2 t) (iblk0 V c 3 t) (iblk0 V c 4 t) (iblk0 V c 5 t) (iblk0 V c 6 t)
  Φ t := PhiG V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = gateOut (iblk0 V c 0 t) (k0_pay2 (w1blk V c)) (k0_pay3 (w1blk V c)) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: at the first the scratch buffers are filled, at the others read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7,
    show (dat0 V c).Φ t.castSucc = PhiG V c t.val from rfl, show (dat0 V c).Φ t.succ = PhiG V c (t.val + 1) from rfl]
  rw [show PhiG V c (t.val + 1) = PhiS0 V c from if_neg (Nat.succ_ne_zero _)]
  by_cases hz0 : t.val = 0
  · have ht : t = t0_0 := Fin.ext hz0
    subst ht
    rw [show PhiG V c (t0_0 : Fin cfg0.N).val = PhiA0 (F := F) c from if_pos rfl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA0_open (F := F) c) $$ HΦ
    icases HΦ' with ⟨H9, H10, Hw⟩
    iapply (sound_gate_first c Set.univ _ _ _ _ _ _ _ _ _ _ _ _ _ _ _ _ _ _ _ _ _ ((hcondFirst t0_0).mpr rfl)
      (iblk0 V c 0 t0_0) (iblk0 V c 1 t0_0) (iblk0 V c 2 t0_0) (iblk0 V c 3 t0_0) (iblk0 V c 4 t0_0) (iblk0 V c 5 t0_0) (iblk0 V c 6 t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    iintro ⟨H0, H1, H2, H3, H4, H5, H6, H7, H9, H10⟩
    isplitl [H9 H10 Hw]
    · unfold PhiS0 w1blk
      isplitl [H9]; · iexact H9
      isplitl [H10]; · iexact H10
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold w1blk
    iexact H7
  · rw [show PhiG V c t.val = PhiS0 V c from if_neg hz0]
    unfold PhiS0
    iintro ⟨⟨H9, H10, Hw⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_gate_rest c Set.univ _ _ _ _ _ _ _ _ _ _ _ _ _ _ _ _ _ _ _ _ _ (fun h => hz0 ((hcondFirst t).mp h))
      (iblk0 V c 0 t) (iblk0 V c 1 t) (iblk0 V c 2 t) (iblk0 V c 3 t) (iblk0 V c 4 t) (iblk0 V c 5 t) (iblk0 V c 6 t) (k0_pay2 (w1blk V c)) (k0_pay3 (w1blk V c)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    iintro ⟨H0, H1, H2, H3, H4, H5, H6, H7, H9, H10⟩
    isplitl [H9 H10 Hw]
    · isplitl [H9]; · iexact H9
      isplitl [H10]; · iexact H10
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
import proofs.«138674_g11373073400015_week1_w4_273_26_alg».proof.Proof.Gen.Kernel.Launch
import proofs.«138674_g11373073400015_week1_w4_273_26_alg».proof.Proof.Gen.Kernel.Skeleton
import proofs.«138674_g11373073400015_week1_w4_273_26_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The fusion body: one stripe of the two graphs against the gate weights. -/

abbrev rA : Rect S256x4096 := Rect.unit (s := S256x4096) ![0, 0] S256x4096.size inb_S256x4096_S256x4096_0_0
abbrev rG : Rect S4096x2 := Rect.unit (s := S4096x2) ![0, 0] S4096x2.size inb_S4096x2_S4096x2_0_0
abbrev rW : Rect S256x2 := Rect.unit (s := S256x2) ![0, 0] S256x2.size inb_S256x2_S256x2_0_0

/-- The stripe of smoothed gate weights the body leaves: its one store, as a piece. -/
def fuseGw (x1 : Vec F S256x4096 .f32) (x3 : Vec F S4096x2 .f32) (x4 : Vec F S256x2 .f32) : Vec F S256x2 .f32 :=
  View.canon [⟨rW, k1_pay1 (View.ld x1 rA) (View.ld x3 rG) (View.ld x4 rW)⟩]

/-- The stripe of the fused graph the body leaves: its one store, as a piece. -/
def fuseGf (x1 x2 : Vec F S256x4096 .f32) (x3 : Vec F S4096x2 .f32) (x4 : Vec F S256x2 .f32) : Vec F S256x4096 .f32 :=
  View.canon [⟨rA, k1_pay2 (View.ld x1 rA) (View.ld x3 rG) (View.ld x4 rW) (View.ld x2 rA)⟩]

theorem coverGw (p0 : Vec F S256x2 .f32) (y : S256x2.Idx) :
    ∃ pc ∈ ([⟨rW, p0⟩] : List (View.Piece (Elt F) S256x2 .f32)), y ∈ pc.1.set :=
  View.cover_of_tiled [⟨rW, p0⟩] S256x2.size (by rfl) y

theorem coverGf (p0 : Vec F S256x4096 .f32) (y : S256x4096.Idx) :
    ∃ pc ∈ ([⟨rA, p0⟩] : List (View.Piece (Elt F) S256x4096 .f32)), y ∈ pc.1.set :=
  View.cover_of_tiled [⟨rA, p0⟩] S256x4096.size (by rfl) y

set_option maxHeartbeats 4000000 in
/-- The body on whole staging memrefs: the four inputs kept, the two outputs at the stripes above. -/
theorem sound_fuse (c : Dev nD) (E : Set ℕ) (i : grid1.Coords) (arg1 : Memref sig .tc .vmem S256x4096 .f32) (harg1 : arg1.IsWhole) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S256x4096 .f32) (harg5 : arg5.IsWhole) (arg6 : Memref sig .tc .vmem S256x2 .f32) (harg6 : arg6.IsWhole)
    (x1 x2 : Vec F S256x4096 .f32) (x3 : Vec F S4096x2 .f32) (x4 : Vec F S256x2 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (fuseGf x1 x2 x3 x4) ∗ owns (c : Thread nD τ) arg6 fullShare (fuseGw x1 x3 x4)) -∗ K ⟨⟩))
      ⊢ wp frame (wpE (defs₀ (F := F)) Variants.none c none) E (cc1__fuse_body i arg1 harg1 arg2 harg2 arg3 harg3 arg4 harg4 arg5 harg5 arg6 harg6) K := by
  simp only [cc1__fuse_body_eq_skeleton]; unfold cc1__fuse_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverGf _)
  iexists _; isplitr
  swap; · iexact H6
  ipureintro
  exact View.read_writes_eq_canon _ _ _ (coverGw _)

end Cert.Kernel.Hand

end
-- ==== Proof.KData1.lean ====
import proofs.«138674_g11373073400015_week1_w4_273_26_alg».proof.Proof.Gen.Kernel.Launch
import proofs.«138674_g11373073400015_week1_w4_273_26_alg».proof.Proof.Gen.Kernel.Skeleton
import proofs.«138674_g11373073400015_week1_w4_273_26_alg».proof.Proof.Gen.Kernel.Points
import proofs.«138674_g11373073400015_week1_w4_273_26_alg».proof.Proof.KBody1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The fusion region's proof data over the contents V the region is entered with: each input window's block, the
    two output blocks after each point, and the body obligation. Two input windows read one array (the gate weights:
    whole through one window, stripe by stripe through the other); each holds half of it. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the fusion pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fuseGf (iblk1 V c 0 t) (iblk1 V c 1 t) (iblk1 V c 2 t) (iblk1 V c 3 t)
    | ⟨5, _⟩ => fuseGw (iblk1 V c 0 t) (iblk1 V c 2 t) (iblk1 V c 3 t)
  Φ _ := Pipeline.ΦA spec1 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fuseGf (iblk1 V c 0 t) (iblk1 V c 1 t) (iblk1 V c 2 t) (iblk1 V c 3 t) := by dsimp only [dat1]
theorem after1_5 (c : Dev nD) (t : Fin cfg1.N) : (dat1 V c).after 5 t = fuseGw (iblk1 V c 0 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_fuse c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KSeg1.lean ====
/-
  The fusion region's arrays among a core's unscoped buffers. Two of the region's input windows read one array
  (the gate weights), so the array's full share is dealt between them: the left half to the window that reads it
  whole, the right half to the window that reads it stripe by stripe. Entering the region splits that array's
  points-to along the two halves; leaving it joins the halves back, the two windows holding the same contents.
-/
import proofs.«138674_g11373073400015_week1_w4_273_26_alg».proof.Proof.KData1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the six windows' arrays are five, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_arg2) ↦{fullShare} W main_arg2)
        ∗ (((c : Thread nD τ).loc main_v8) ↦{fullShare} W main_v8) ∗ (((c : Thread nD τ).loc main_v9_0) ↦{fullShare} W main_v9_0)
        ∗ (((c : Thread nD τ).loc main_v9_1) ↦{fullShare} W main_v9_1)) := by
  unfold Pipeline.arrBufs
  exact bigSep_eq_bigSepL_of_eq [main_arg1, main_arg2, main_v8, main_v9_0, main_v9_1] (by decide) (by decide) _

/-- The region's arrays window by window: every array a whole buffer, the shared one held at the left half by
    window 2 and at the right half by window 3, every other at the full share. -/
theorem arrays1_eq (c : Dev nD) (Fa : (w : Fin cfg1.W) → Buf (Elt F) (((cfg1.win w).arr.view.loc (c : Thread nD τ)))) :
    ((dat1 V c).arrays Fa : sProp 𝕄)
      = iprop((((c : Thread nD τ).loc main_arg1) ↦{fullShare} Fa 0) ∗ (((c : Thread nD τ).loc main_arg2) ↦{fullShare} Fa 1)
        ∗ (((c : Thread nD τ).loc main_v8) ↦{fullShare.left} Fa 2) ∗ (((c : Thread nD τ).loc main_v8) ↦{fullShare.right} Fa 3)
        ∗ (((c : Thread nD τ).loc main_v9_0) ↦{fullShare} Fa 4) ∗ (((c : Thread nD τ).loc main_v9_1) ↦{fullShare} Fa 5)) := by
  unfold Dat.arrays
  rw [bigSep_W1]
  rw [(arr_whole1 0).set_eq_univ, (arr_whole1 1).set_eq_univ, (arr_whole1 2).set_eq_univ, (arr_whole1 4).set_eq_univ, (arr_whole1 5).set_eq_univ]
  rfl

/-- ENTRY: a core's unscoped buffers at contents W are the fusion pipeline's arrays at W (the shared array dealt in halves) and the unscoped rest. -/
theorem arrays1_entry (c : Dev nD) (W : (b : Ref sig .tc) → Buf (Elt F) ((c : Thread nD τ).loc b)) :
    (unscopedBufs c W : sProp 𝕄) ⊢ iprop((dat1 V c).arrays (fun w => W (Pipeline.arrRef spec1 w)) ∗ Pipeline.unscopedRest (Ix := Unit) (Name := ℕ) (U := UR sig nD τ) (Lvl := ℕ) spec1 c W) := by
  rw [Pipeline.unscopedBufs_split₀ (fun _ : Unit => cfg1) () winFacts₀1.arr_unscoped c W]
  refine sep_mono ?_ .rfl
  rw [arrBufs1_eq, arrays1_eq]
  iintro ⟨H1, H2, H8, H90, H91⟩
  ihave H8' := (pointsTo_share (PosShare.mem_left_op_right fullShare)).1 $$ H8
  icases H8' with ⟨H8l, H8r⟩
  isplitl [H1]; · iexact H1
  isplitl [H2]; · iexact H2
  isplitl [H8l]; · iexact H8l
  isplitl [H8r]; · iexact H8r
  isplitl [H90]; · iexact H90
  iexact H91

/-- EXIT: the arrays at contents F (the two windows on the shared array holding the same contents) and the unscoped rest at W are the core's unscoped buffers at any W' that has the arrays at F and agrees with W off them. -/
theorem arrays1_exit (c : Dev nD) (W W' : (b : Ref sig .tc) → Buf (Elt F) ((c : Thread nD τ).loc b))
    (Fa : (w : Fin cfg1.W) → Buf (Elt F) (((cfg1.win w).arr.view.loc (c : Thread nD τ))))
    (hF : ∀ w, Fa w = W' (Pipeline.arrRef spec1 w))
    (hrest : ∀ b, b ∉ Finset.univ.image (Pipeline.arrRef spec1) → W' b = W b) :
    iprop((dat1 V c).arrays Fa ∗ Pipeline.unscopedRest (Ix := Unit) (Name := ℕ) (U := UR sig nD τ) (Lvl := ℕ) spec1 c W) ⊢ (unscopedBufs c W' : sProp 𝕄) := by
  rw [Pipeline.unscopedBufs_split₀ (fun _ : Unit => cfg1) () winFacts₀1.arr_unscoped c W']
  refine sep_mono ?_ (Entails.of_eq ?_)
  · rw [arrBufs1_eq, arrays1_eq, hF 0, hF 1, hF 2, hF 3, hF 4, hF 5]
    iintro ⟨H1, H2, H8l, H8r, H90, H91⟩
    ihave H8 := (pointsTo_share (PosShare.mem_left_op_right fullShare)).2 $$ [H8l H8r]
    · isplitl [H8l]; · iexact H8l
      iexact H8r
    isplitl [H1]; · iexact H1
    isplitl [H2]; · iexact H2
    isplitl [H8]; · iexact H8
    isplitl [H90]; · iexact H90
    iexact H91
  · unfold Pipeline.unscopedRest
    exact bigSep_congr fun b hb => by rw [hrest b (Finset.mem_sdiff.mp hb).2]

end Cert.Kernel.Hand

end
-- ==== Proof.KRun.lean ====
import proofs.«138674_g11373073400015_week1_w4_273_26_alg».proof.Proof.Gen.Kernel.Launch
import proofs.«138674_g11373073400015_week1_w4_273_26_alg».proof.Proof.Gen.Kernel.Skeleton
import proofs.«138674_g11373073400015_week1_w4_273_26_alg».proof.Proof.Gen.Kernel.Points
import proofs.«138674_g11373073400015_week1_w4_273_26_alg».proof.Proof.Gen.Kernel.Regions
import proofs.«138674_g11373073400015_week1_w4_273_26_alg».proof.Proof.KData0
import proofs.«138674_g11373073400015_week1_w4_273_26_alg».proof.Proof.KData1
import proofs.«138674_g11373073400015_week1_w4_273_26_alg».proof.Proof.KSeg1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The run of the kernel program: a stretch of host operations, the gating region, the fusion region. The contents of
    the unscoped buffers at each boundary are a fold from the launch memory; each region's arrays end at what its
    write-backs leave; the two results are read off the last boundary, the arguments walk back to the launch memory. -/

variable (m : (ℓ : Loc nD τ sig) → Buf (Elt F) ℓ) (ρ : Dev nD → PrngReg)

/-! ## The contents at each boundary -/

/-- At launch. -/
abbrev W0 : Dev nD → Valuation τ sig (Elt F) := fun c => Gen.V0 m c
/-- After the host stretch: the gating region's entry. -/
abbrev W1 : Dev nD → Valuation τ sig (Elt F) := fun c => Gen.V1 m c
/-- The same read at the TensorCore's references. -/
abbrev E1 : (c : Dev nD) → (b : Ref sig .tc) → Buf (Elt F) ((c : Thread nD τ).loc b) := fun c b => W1 m c b
/-- At the gating region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: the fusion region's entry. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the fusion region's exit: its two results at what the pipeline leaves, every other buffer as entered. -/
def W3 (c : Dev nD) : Valuation τ sig (Elt F) :=
  Function.update (Function.update (W2 m c) main_v9_0 ((dat1 (E2 m) c).arrAt 4 cfg1.N)) main_v9_1 ((dat1 (E2 m) c).arrAt 5 cfg1.N)
abbrev E3 : (c : Dev nD) → (b : Ref sig .tc) → Buf (Elt F) ((c : Thread nD τ).loc b) := fun c b => W3 m c b

theorem W3_v9_1 (c : Dev nD) : W3 m c (Proc.devRef .tc main_v9_1) = (dat1 (E2 m) c).arrAt 5 cfg1.N := by
  unfold W3; exact Function.update_self ..
theorem W3_v9_0 (c : Dev nD) : W3 m c (Proc.devRef .tc main_v9_0) = (dat1 (E2 m) c).arrAt 4 cfg1.N := by
  unfold W3
  rw [Function.update_of_ne (StableHlo.devRef_ne_of_ne (by decide) : (Proc.devRef .tc main_v9_0 : DevRef τ sig) ≠ Proc.devRef .tc main_v9_1)]
  exact Function.update_self ..
theorem W3_of_ne (c : Dev nD) (b : Ref sig .tc) (h0 : b ≠ main_v9_0) (h1 : b ≠ main_v9_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]

theorem hF1 (c : Dev nD) : ∀ w : Fin cfg1.W, (dat1 (E2 m) c).arrAt w cfg1.N = E3 m c (Pipeline.arrRef spec1 w)
  | ⟨0, _⟩ => ((dat1 (E2 m) c).arrAt_in 0 rfl _).trans ((A_eq1 (E2 m) c 0).trans (W3_of_ne m c main_arg1 (by decide) (by decide)).symm)
  | ⟨1, _⟩ => ((dat1 (E2 m) c).arrAt_in 1 rfl _).trans ((A_eq1 (E2 m) c 1).trans (W3_of_ne m c main_arg2 (by decide) (by decide)).symm)
  | ⟨2, _⟩ => ((dat1 (E2 m) c).arrAt_in 2 rfl _).trans ((A_eq1 (E2 m) c 2).trans (W3_of_ne m c main_v8 (by decide) (by decide)).symm)
  | ⟨3, _⟩ => ((dat1 (E2 m) c).arrAt_in 3 rfl _).trans ((A_eq1 (E2 m) c 3).trans (W3_of_ne m c main_v8 (by decide) (by decide)).symm)
  | ⟨4, _⟩ => (W3_v9_0 m c).symm
  | ⟨5, _⟩ => (W3_v9_1 m c).symm
theorem hrest1 (c : Dev nD) : ∀ b, b ∉ Finset.univ.image (Pipeline.arrRef spec1) → E3 m c b = E2 m c b :=
  fun b hb => W3_of_ne m c b (fun e => hb (Finset.mem_image.mpr ⟨4, Finset.mem_univ _, e.symm⟩)) (fun e => hb (Finset.mem_image.mpr ⟨5, Finset.mem_univ _, e.symm⟩))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's owes, at nothing. -/
abbrev R (c : Dev nD) : sProp 𝕄 := iprop((∃ r, prngReg c r) ∗ ∃ W, owes (c : Thread nD τ) (0 : CellTallies nD τ sig Unit) W)
/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gating region: entered from every unscoped buffer at W1, left at W2. Its arrays split out of the unscoped
    buffers and put back at the exit contents; the generator register into the invariant and out; the scratch buffers
    reach the invariant unnamed and come back unnamed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (pdats m 0 c).Φ 0 = PhiA0 (F := F) c := by
      show PhiG (E1 m) c 0 = _
      unfold PhiG; rw [if_pos rfl]
    rw [h0]; unfold PhiA0
    iintro ⟨Hp, -, Hr⟩
    isplitl [Hr]; · iexact Hr
    iexact Hp
  hout c := by
    have hl : (pdats m 0 c).Φ (Fin.last _) = PhiS0 (E1 m) c := by
      show PhiG (E1 m) c (Fin.last cfg0.N).val = _
      unfold PhiG; rw [if_neg (by rw [Fin.val_last]; have : cfg0.N = 8 := N_0; omega)]
    rw [Pipeline.ownSems0_none, hl]
    refine (PhiS0_close (E1 m) c).trans ?_
    unfold PhiA0
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fusion region: entered from every unscoped buffer at W2, left at W3. The array two of its windows read is
    dealt between them in halves at the entry and joined at the exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_entry (E2 m) c (E2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit (E2 m) c (E2 m c) (E3 m c) ((dat1 (E2 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution terminates, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- A buffer the host stretch does not write and no region's output: as launched. -/
theorem W3_kept (c : Dev nD) (b : Ref sig .tc) (h0 : b ≠ main_v9_0) (h1 : b ≠ main_v9_1) (h8 : b ≠ main_v8) (hW : b ∉ Gen.hostOps0_W) :
    W3 m c (Proc.devRef .tc b) = m ((c : Thread nD τ).loc b) := by
  rw [W3_of_ne m c b h0 h1]
  by_cases hb : ∀ w, Pipeline.arrRef spec0 w ≠ b
  · rw [W2_of_ne m c b hb]; exact Gen.V1_of m c b hW
  · obtain ⟨w, hw⟩ := not_forall.mp hb
    have hw' : Pipeline.arrRef spec0 w = b := not_not.mp hw
    subst hw'
    rw [W2_arr m c w]
    have hin : (cfg0.win w).isOut = false := by
      revert h8; revert w; decide
    exact ((dat0 (E1 m) c).arrAt_in w hin _).trans ((A_eq0 (E1 m) c w).trans (Gen.V1_of m c _ hW))

/-- The run with the two results named and the arguments kept. -/
theorem run_values : θ_run defs (onTc (τ := τ) (main (F := F))) ⟨m, fun _ => 0, ρ⟩ (fun r => ∀ c : Dev nD,
      r.2.mem ((c.tc : Thread nD τ).loc main_v9_0) = (dat1 (E2 m) c).arrAt 4 cfg1.N
      ∧ r.2.mem ((c.tc : Thread nD τ).loc main_v9_1) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v9_0 (by decide))).trans (W3_v9_0 m c),
      (h c _ (mem_uc main_v9_1 (by decide))).trans (W3_v9_1 m c),
      (h c _ (mem_uc main_arg0 (by decide))).trans (W3_kept m c main_arg0 (by decide) (by decide) (by decide) (by decide)),
      (h c _ (mem_uc main_arg1 (by decide))).trans (W3_kept m c main_arg1 (by decide) (by decide) (by decide) (by decide)),
      (h c _ (mem_uc main_arg2 (by decide))).trans (W3_kept m c main_arg2 (by decide) (by decide) (by decide) (by decide)),
      (h c _ (mem_uc main_arg3 (by decide))).trans (W3_kept m c main_arg3 (by decide) (by decide) (by decide) (by decide)),
      (h c _ (mem_uc main_arg4 (by decide))).trans (W3_kept m c main_arg4 (by decide) (by decide) (by decide) (by decide)),
      (h c _ (mem_uc main_arg5 (by decide))).trans (W3_kept m c main_arg5 (by decide) (by decide) (by decide) (by decide)),
      (h c _ (mem_uc main_arg6 (by decide))).trans (W3_kept m c main_arg6 (by decide) (by decide) (by decide) (by decide)),
      (h c _ (mem_uc main_arg7 (by decide))).trans (W3_kept m c main_arg7 (by decide) (by decide) (by decide) (by decide)),
      (h c _ (mem_uc main_arg8 (by decide))).trans (W3_kept m c main_arg8 (by decide) (by decide) (by decide) (by decide))⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2.2) (run_values m ρ)

/-! ## What the regions were entered with -/

/-- The gating region's result is what the fusion region reads. -/
theorem E2_v8 (c : Dev nD) : E2 m c main_v8 = (dat0 (E1 m) c).arrAt 7 cfg0.N := W2_arr m c 7
/-- The fusion region finds the two graphs as launched. -/
theorem E2_arg1 (c : Dev nD) : E2 m c main_arg1 = m ((c : Thread nD τ).loc main_arg1) :=
  (W2_of_ne m c main_arg1 (by decide)).trans (Gen.V1_of m c main_arg1 (by decide))
theorem E2_arg2 (c : Dev nD) : E2 m c main_arg2 = m ((c : Thread nD τ).loc main_arg2) :=
  (W2_of_ne m c main_arg2 (by decide)).trans (Gen.V1_of m c main_arg2 (by decide))
/-- The gating region finds the arguments it stages as launched. -/
theorem E1_arg0 (c : Dev nD) : E1 m c main_arg0 = m ((c : Thread nD τ).loc main_arg0) := Gen.V1_of m c main_arg0 (by decide)
theorem E1_arg3 (c : Dev nD) : E1 m c main_arg3 = m ((c : Thread nD τ).loc main_arg3) := Gen.V1_of m c main_arg3 (by decide)
theorem E1_arg5 (c : Dev nD) : E1 m c main_arg5 = m ((c : Thread nD τ).loc main_arg5) := Gen.V1_of m c main_arg5 (by decide)

end Cert.Kernel.Hand

end
-- ==== Proof.Body0.lean ====
import proofs.«138674_g11373073400015_week1_w4_273_26_alg».proof.Proof.Gen.KernelIdeal.Launch
import proofs.«138674_g11373073400015_week1_w4_273_26_alg».proof.Proof.Gen.KernelIdeal.Skeleton
import proofs.«138674_g11373073400015_week1_w4_273_26_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The gating body on whole staging memrefs, at the first grid point (where it also fills its two scratch
    buffers: the first weight matrix narrowed, and its column sums) and at the later points (where it reads them). -/

/-- The branch condition of the gating body: the grid coordinate is zero. -/
abbrev condFirst (i : grid0.Coords) : Prop :=
  (Scalar.cmpi .ne (Scalar.extui (Scalar.cmpi .eq (BitVec.ofNat 32 (i 0).val) 0#32)) 0#32) = 1#1

/-- It holds at the first point only. -/
theorem hcondFirst : ∀ t : Fin cfg0.N, condFirst (grid0.coords t) ↔ t.val = 0 :=
  (by decide +kernel : ∀ t : Fin grid0.N, condFirst (grid0.coords t) ↔ t.val = 0)

/-- The block of gate weights the body stores: the softmax over the three layers, from the row block, the narrowed
    first weight matrix, its column sums and the remaining parameters. -/
def gateOut (z : Vec F S512x4096 .f32) (w1a : Vec F S4096x1024 .bf16) (cs b1 : Vec F S1x1024 .f32) (w2 : Vec F S1024x64 .f32) (b2 : Vec F S1x64 .f32) (w3 : Vec F S64x2 .f32) (b3 : Vec F S1x2 .f32) : Vec F S512x2 .f32 :=
  k0_pay1 (k0_pay4 z w1a cs b1 w2) b2 w3 b3

theorem hz : (![0, 0] : Fin 2 → Nat) = fun _ => 0 := funext fun a => by fin_cases a <;> rfl

set_option maxHeartbeats 4000000 in
/-- At a later point: the scratch buffers are read and kept, the output block is the gate weights over them. -/
theorem sound_gate_rest (c : Dev nD) (E : Set ℕ) (i : grid0.Coords) (arg1 : Memref sig .tc .vmem S512x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S4096x1024 .bf16) (harg9 : arg9.IsWhole) (arg10 : Memref sig .tc .vmem S1x1024 .f32) (harg10 : arg10.IsWhole) (hc : ¬condFirst i)
    (x1 : Vec F S512x4096 .f32) (x2 : Vec F S4096x1024 .f32) (x3 : Vec F S1x1024 .f32) (x4 : Vec F S1024x64 .f32) (x5 : Vec F S1x64 .f32) (x6 : Vec F S64x2 .f32) (x7 : Vec F S1x2 .f32)
    (xs9 : Vec F S4096x1024 .bf16) (xs10 : Vec F S1x1024 .f32) (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ owns (c : Thread nD τ) arg9 fullShare xs9 ∗ owns (c : Thread nD τ) arg10 fullShare xs10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare (gateOut x1 xs9 xs10 x3 x4 x5 x6 x7) ∗ owns (c : Thread nD τ) arg9 fullShare xs9 ∗ owns (c : Thread nD τ) arg10 fullShare xs10) -∗ K ⟨⟩))
          ⊢ wp frame (wpE (defs₀ (F := F)) Variants.none c none) E (cc0__gate_body i arg1 harg1 arg2 harg2 arg3 harg3 arg4 harg4 arg5 harg5 arg6 harg6 arg7 harg7 arg8 harg8 arg9 harg9 arg10 harg10) K := by
    simp only [cc0__gate_body_eq_skeleton]; unfold cc0__gate_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap; · iexact H8
      ipureintro
      sl_unfold_words
      rw [View.read_writes_eq_canon _ _ _ (fun y => ⟨_, List.mem_singleton_self _, View.mem_set_unit_zero hz inb_S512x2_S512x2_0_0 y⟩)]
      rw [View.canon_unit_zero hz]
      unfold gateOut
      simp only [View.readAt_eq_ld, harg1.read_unread, harg2.read_unread, harg3.read_unread, harg4.read_unread, harg5.read_unread, harg6.read_unread, harg7.read_unread, harg9.read_unread, harg10.read_unread,
        View.readCov_unit_zero (S := S4096x1024) _ hz, View.readCov_unit_zero (S := S1x1024) _ hz,
        View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]
    isplitl [H9]
    · iexists _; isplitr; · ipureintro; exact harg9.read_unread _
      iexact H9
    iexists _; isplitr; · ipureintro; exact harg10.read_unread _
    iexact H10

set_option maxHeartbeats 4000000 in
/-- At the first point: the scratch buffers are filled from the first weight matrix, then read back; the output block is
    the gate weights over what was just stored. -/
theorem sound_gate_first (c : Dev nD) (E : Set ℕ) (i : grid0.Coords) (arg1 : Memref sig .tc .vmem S512x4096 .f32) (harg1 : arg1.IsWhole) (arg2 : Memref sig .tc .vmem S4096x1024 .f32) (harg2 : arg2.IsWhole) (arg3 : Memref sig .tc .vmem S1x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2 .f32) (harg6 : arg6.IsWhole) (arg7 : Memref sig .tc .vmem S1x2 .f32) (harg7 : arg7.IsWhole) (arg8 : Memref sig .tc .vmem S512x2 .f32) (harg8 : arg8.IsWhole) (arg9 : Memref sig .tc .vmem S4096x1024 .bf16) (harg9 : arg9.IsWhole) (arg10 : Memref sig .tc .vmem S1x1024 .f32) (harg10 : arg10.IsWhole) (hc : condFirst i)
    (x1 : Vec F S512x4096 .f32) (x2 : Vec F S4096x1024 .f32) (x3 : Vec F S1x1024 .f32) (x4 : Vec F S1024x64 .f32) (x5 : Vec F S1x64 .f32) (x6 : Vec F S64x2 .f32) (x7 : Vec F S1x2 .f32)
    (K : PUnit → sProp 𝕄) :
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ owns (c : Thread nD τ) arg8 fullShare (gateOut x1 (k0_pay2 x2) (k0_pay3 x2) x3 x4 x5 x6 x7) ∗ owns (c : Thread nD τ) arg9 fullShare (k0_pay2 x2) ∗ owns (c : Thread nD τ) arg10 fullShare (k0_pay3 x2)) -∗ K ⟨⟩))
          ⊢ wp frame (wpE (defs₀ (F := F)) Variants.none c none) E (cc0__gate_body i arg1 harg1 arg2 harg2 arg3 harg3 arg4 harg4 arg5 harg5 arg6 harg6 arg7 harg7 arg8 harg8 arg9 harg9 arg10 harg10) K := by
    simp only [cc0__gate_body_eq_skeleton]; unfold cc0__gate_body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr
      swap; · iexact H8
      ipureintro
      sl_unfold_words
      rw [View.read_writes_eq_canon _ _ _ (fun y => ⟨_, List.mem_singleton_self _, View.mem_set_unit_zero hz inb_S512x2_S512x2_0_0 y⟩)]
      rw [View.canon_unit_zero hz]
      unfold gateOut
      simp only [View.readAt_eq_ld, harg1.read_unread, harg2.read_unread, harg3.read_unread, harg4.read_unread, harg5.read_unread, harg6.read_unread, harg7.read_unread,
        View.readCov_unit_zero (S := S4096x1024) _ hz, View.readCov_unit_zero (S := S1x1024) _ hz,
        View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]
    isplitl [H9]
    · iexists _; isplitr
      swap; · iexact H9
      ipureintro
      sl_unfold_words
      rw [View.read_writes_eq_canon _ _ _ (fun y => ⟨_, List.mem_singleton_self _, View.mem_set_unit_zero hz inb_S4096x1024_S4096x1024_0_0 y⟩)]
      rw [View.canon_unit_zero hz]

      simp only [View.readAt_eq_ld, harg1.read_unread, harg2.read_unread, harg3.read_unread, harg4.read_unread, harg5.read_unread, harg6.read_unread, harg7.read_unread,
        View.readCov_unit_zero (S := S4096x1024) _ hz, View.readCov_unit_zero (S := S1x1024) _ hz,
        View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]
    iexists _; isplitr
    swap; · iexact H10
    ipureintro
    sl_unfold_words
    rw [View.read_writes_eq_canon _ _ _ (fun y => ⟨_, List.mem_singleton_self _, View.mem_set_unit_zero hz inb_S1x1024_S1x1024_0_0 y⟩)]
    rw [View.canon_unit_zero hz]

    simp only [View.readAt_eq_ld, harg1.read_unread, harg2.read_unread, harg3.read_unread, harg4.read_unread, harg5.read_unread, harg6.read_unread, harg7.read_unread,
      View.readCov_unit_zero (S := S4096x1024) _ hz, View.readCov_unit_zero (S := S1x1024) _ hz,
      View.ld_unit_zero (S := S512x4096) hz, View.ld_unit_zero (S := S1x1024) hz, View.ld_unit_zero (S := S1024x64) hz, View.ld_unit_zero (S := S1x64) hz, View.ld_unit_zero (S := S64x2) hz, View.ld_unit_zero (S := S1x2) hz, View.ld_unit_zero (S := S4096x1024) hz]

end Cert.KernelIdeal.Hand

end
-- ==== Proof.Data0.lean ====
import proofs.«138674_g11373073400015_week1_w4_273_26_alg».proof.Proof.Gen.KernelIdeal.Launch
import proofs.«138674_g11373073400015_week1_w4_273_26_alg».proof.Proof.Gen.KernelIdeal.Skeleton
import proofs.«138674_g11373073400015_week1_w4_273_26_alg».proof.Proof.Gen.KernelIdeal.Points
import proofs.«138674_g11373073400015_week1_w4_273_26_alg».proof.Proof.Body0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The gating region's proof data over the contents V the region is entered with: each input window's block,
    the two scratch buffers' contents after the first point (the first weight matrix narrowed, and its column sums),
    the output block after each point, and the body obligation. -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The scratch operands: whole scoped buffers of the kernel's own. -/
abbrev scM9 : Memref sig .tc .vmem S4096x1024 .bf16 := Memref.whole cc0_scratch0
abbrev scM10 : Memref sig .tc .vmem S1x1024 .f32 := Memref.whole cc0_scratch1

/-- The first weight matrix as the first point's window holds it. -/
def w1blk (c : Dev nD) : Vec F S4096x1024 .f32 := iblk0 V c 1 t0_0

/-- What the region's invariant holds before the first point: the scoped buffers no window stages, at any contents,
    and the generator register. -/
def PhiA0 (c : Dev nD) : sProp 𝕄 :=
  iprop(Pipeline.scopedRest (Ix := Unit) (Name := ℕ) (U := UR sig nD τ) (Lvl := ℕ) (Val := Elt F) spec0 c ∗ ∃ r, prngReg c r)

/-- The same with the two scratch buffers NAMED: the narrowed first weight matrix and its column sums; the rest comes
    back whenever the two are handed in at any contents. -/
def PhiS0 (c : Dev nD) : sProp 𝕄 :=
  iprop(owns (c : Thread nD τ) scM9 fullShare (k0_pay2 (w1blk V c)) ∗ owns (c : Thread nD τ) scM10 fullShare (k0_pay3 (w1blk V c))
    ∗ (iprop((∃ d, owns (c : Thread nD τ) scM9 fullShare d) ∗ (∃ d, owns (c : Thread nD τ) scM10 fullShare d)) -∗ PhiA0 (F := F) c))

/-- The invariant before position n: anything before the first point, the named scratch contents afterwards. -/
def PhiG (c : Dev nD) (n : ℕ) : sProp 𝕄 := if n = 0 then PhiA0 (F := F) c else PhiS0 V c

/-- The unnamed invariant hands out the two scratch buffers and takes them back. -/
theorem PhiA0_open (c : Dev nD) :
    (PhiA0 (F := F) c) ⊢ iprop((∃ d, owns (c : Thread nD τ) scM9 fullShare d) ∗ (∃ d, owns (c : Thread nD τ) scM10 fullShare d)
      ∗ (iprop((∃ d, owns (c : Thread nD τ) scM9 fullShare d) ∗ (∃ d, owns (c : Thread nD τ) scM10 fullShare d)) -∗ PhiA0 (F := F) c)) := by
  unfold PhiA0; rw [scopedRest0_eq]; simp only [scM9, scM10, owns_whole]
  iintro ⟨⟨H9, H10, Hr⟩, Hp⟩
  isplitl [H9]; · iexact H9
  isplitl [H10]; · iexact H10
  iintro ⟨H9, H10⟩
  isplitr [Hp]
  · isplitl [H9]; · iexact H9
    isplitl [H10]; · iexact H10
    iexact Hr
  iexact Hp

/-- The named invariant gives the unnamed one back. -/
theorem PhiS0_close (c : Dev nD) : PhiS0 V c ⊢ (PhiA0 (F := F) c) := by
  unfold PhiS0
  iintro ⟨H9, H10, Hw⟩
  iapply Hw
  isplitl [H9]; · iexists _; iexact H9
  iexists _; iexact H10

/-- The proof data of the gating pipeline on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => gateOut (iblk0 V c 0 t) (k0_pay2 (w1blk V c)) (k0_pay3 (w1blk V c)) (iblk0 V c 2 t) (iblk0 V c 3 t) (iblk0 V c 4 t) (iblk0 V c 5 t) (iblk0 V c 6 t)
  Φ t := PhiG V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t
    = gateOut (iblk0 V c 0 t) (k0_pay2 (w1blk V c)) (k0_pay3 (w1blk V c)) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: at the first the scratch buffers are filled, at the others read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7,
    show (dat0 V c).Φ t.castSucc = PhiG V c t.val from rfl, show (dat0 V c).Φ t.succ = PhiG V c (t.val + 1) from rfl]
  rw [show PhiG V c (t.val + 1) = PhiS0 V c from if_neg (Nat.succ_ne_zero _)]
  by_cases hz0 : t.val = 0
  · have ht : t = t0_0 := Fin.ext hz0
    subst ht
    rw [show PhiG V c (t0_0 : Fin cfg0.N).val = PhiA0 (F := F) c from if_pos rfl]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HΦ' := (PhiA0_open (F := F) c) $$ HΦ
    icases HΦ' with ⟨H9, H10, Hw⟩
    iapply (sound_gate_first c Set.univ _ _ _ _ _ _ _ _ _ _ _ _ _ _ _ _ _ _ _ _ _ ((hcondFirst t0_0).mpr rfl)
      (iblk0 V c 0 t0_0) (iblk0 V c 1 t0_0) (iblk0 V c 2 t0_0) (iblk0 V c 3 t0_0) (iblk0 V c 4 t0_0) (iblk0 V c 5 t0_0) (iblk0 V c 6 t0_0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    iintro ⟨H0, H1, H2, H3, H4, H5, H6, H7, H9, H10⟩
    isplitl [H9 H10 Hw]
    · unfold PhiS0 w1blk
      isplitl [H9]; · iexact H9
      isplitl [H10]; · iexact H10
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold w1blk
    iexact H7
  · rw [show PhiG V c t.val = PhiS0 V c from if_neg hz0]
    unfold PhiS0
    iintro ⟨⟨H9, H10, Hw⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_gate_rest c Set.univ _ _ _ _ _ _ _ _ _ _ _ _ _ _ _ _ _ _ _ _ _ (fun h => hz0 ((hcondFirst t).mp h))
      (iblk0 V c 0 t) (iblk0 V c 1 t) (iblk0 V c 2 t) (iblk0 V c 3 t) (iblk0 V c 4 t) (iblk0 V c 5 t) (iblk0 V c 6 t) (k0_pay2 (w1blk V c)) (k0_pay3 (w1blk V c)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexact H9
    isplitl [H10]; · iexact H10
    iintro ⟨H0, H1, H2, H3, H4, H5, H6, H7, H9, H10⟩
    isplitl [H9 H10 Hw]
    · isplitl [H9]; · iexact H9
      isplitl [H10]; · iexact H10
      iexact Hw
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Body1.lean ====
import proofs.«138674_g11373073400015_week1_w4_273_26_alg».proof.Proof.Gen.KernelIdeal.Launch
import proofs.«138674_g11373073400015_week1_w4_273_26_alg».proof.Proof.Gen.KernelIdeal.Skeleton
import proofs.«138674_g11373073400015_week1_w4_273_26_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The fusion body: one stripe of the two graphs against the gate weights. -/

abbrev rA : Rect S256x4096 := Rect.unit (s := S256x4096) ![0, 0] S256x4096.size inb_S256x4096_S256x4096_0_0
abbrev rG : Rect S4096x2 := Rect.unit (s := S4096x2) ![0, 0] S4096x2.size inb_S4096x2_S4096x2_0_0
abbrev rW : Rect S256x2 := Rect.unit (s := S256x2) ![0, 0] S256x2.size inb_S256x2_S256x2_0_0

/-- The stripe of smoothed gate weights the body leaves: its one store, as a piece. -/
def fuseGw (x1 : Vec F S256x4096 .f32) (x3 : Vec F S4096x2 .f32) (x4 : Vec F S256x2 .f32) : Vec F S256x2 .f32 :=
  View.canon [⟨rW, k1_pay1 (View.ld x1 rA) (View.ld x3 rG) (View.ld x4 rW)⟩]

/-- The stripe of the fused graph the body leaves: its one store, as a piece. -/
def fuseGf (x1 x2 : Vec F S256x4096 .f32) (x3 : Vec F S4096x2 .f32) (x4 : Vec F S256x2 .f32) : Vec F S256x4096 .f32 :=
  View.canon [⟨rA, k1_pay2 (View.ld x1 rA) (View.ld x3 rG) (View.ld x4 rW) (View.ld x2 rA)⟩]

theorem coverGw (p0 : Vec F S256x2 .f32) (y : S256x2.Idx) :
    ∃ pc ∈ ([⟨rW, p0⟩] : List (View.Piece (Elt F) S256x2 .f32)), y ∈ pc.1.set :=
  View.cover_of_tiled [⟨rW, p0⟩] S256x2.size (by rfl) y

theorem coverGf (p0 : Vec F S256x4096 .f32) (y : S256x4096.Idx) :
    ∃ pc ∈ ([⟨rA, p0⟩] : List (View.Piece (Elt F) S256x4096 .f32)), y ∈ pc.1.set :=
  View.cover_of_tiled [⟨rA, p0⟩] S256x4096.size (by rfl) y

set_option maxHeartbeats 4000000 in
/-- The body on whole staging memrefs: the four inputs kept, the two outputs at the stripes above. -/
theorem sound_fuse (c : Dev nD) (E : Set ℕ) (i : grid1.Coords) (arg1 : Memref sig .tc .vmem S256x4096 .f32) (harg1 : arg1.IsWhole) (arg2 : Memref sig .tc .vmem S256x4096 .f32) (harg2 : arg2.IsWhole) (arg3 : Memref sig .tc .vmem S4096x2 .f32) (harg3 : arg3.IsWhole) (arg4 : Memref sig .tc .vmem S256x2 .f32) (harg4 : arg4.IsWhole) (arg5 : Memref sig .tc .vmem S256x4096 .f32) (harg5 : arg5.IsWhole) (arg6 : Memref sig .tc .vmem S256x2 .f32) (harg6 : arg6.IsWhole)
    (x1 x2 : Vec F S256x4096 .f32) (x3 : Vec F S4096x2 .f32) (x4 : Vec F S256x2 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (fuseGf x1 x2 x3 x4) ∗ owns (c : Thread nD τ) arg6 fullShare (fuseGw x1 x3 x4)) -∗ K ⟨⟩))
      ⊢ wp frame (wpE (defs₀ (F := F)) Variants.none c none) E (cc1__fuse_body i arg1 harg1 arg2 harg2 arg3 harg3 arg4 harg4 arg5 harg5 arg6 harg6) K := by
  simp only [cc1__fuse_body_eq_skeleton]; unfold cc1__fuse_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverGf _)
  iexists _; isplitr
  swap; · iexact H6
  ipureintro
  exact View.read_writes_eq_canon _ _ _ (coverGw _)

end Cert.KernelIdeal.Hand

end
-- ==== Proof.Data1.lean ====
import proofs.«138674_g11373073400015_week1_w4_273_26_alg».proof.Proof.Gen.KernelIdeal.Launch
import proofs.«138674_g11373073400015_week1_w4_273_26_alg».proof.Proof.Gen.KernelIdeal.Skeleton
import proofs.«138674_g11373073400015_week1_w4_273_26_alg».proof.Proof.Gen.KernelIdeal.Points
import proofs.«138674_g11373073400015_week1_w4_273_26_alg».proof.Proof.Body1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The fusion region's proof data over the contents V the region is entered with: each input window's block, the
    two output blocks after each point, and the body obligation. Two input windows read one array (the gate weights:
    whole through one window, stripe by stripe through the other); each holds half of it. -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the fusion pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fuseGf (iblk1 V c 0 t) (iblk1 V c 1 t) (iblk1 V c 2 t) (iblk1 V c 3 t)
    | ⟨5, _⟩ => fuseGw (iblk1 V c 0 t) (iblk1 V c 2 t) (iblk1 V c 3 t)
  Φ _ := Pipeline.ΦA spec1 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = fuseGf (iblk1 V c 0 t) (iblk1 V c 1 t) (iblk1 V c 2 t) (iblk1 V c 3 t) := by dsimp only [dat1]
theorem after1_5 (c : Dev nD) (t : Fin cfg1.N) : (dat1 V c).after 5 t = fuseGw (iblk1 V c 0 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4000000 in
/-- The body at any point: the inputs' memrefs hold their blocks, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_fuse c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Seg1.lean ====
/-
  The fusion region's arrays among a core's unscoped buffers. Two of the region's input windows read one array
  (the gate weights), so the array's full share is dealt between them: the left half to the window that reads it
  whole, the right half to the window that reads it stripe by stripe. Entering the region splits that array's
  points-to along the two halves; leaving it joins the halves back, the two windows holding the same contents.
-/
import proofs.«138674_g11373073400015_week1_w4_273_26_alg».proof.Proof.Data1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the six windows' arrays are five, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_arg2) ↦{fullShare} W main_arg2)
        ∗ (((c : Thread nD τ).loc main_v8) ↦{fullShare} W main_v8) ∗ (((c : Thread nD τ).loc main_v9_0) ↦{fullShare} W main_v9_0)
        ∗ (((c : Thread nD τ).loc main_v9_1) ↦{fullShare} W main_v9_1)) := by
  unfold Pipeline.arrBufs
  exact bigSep_eq_bigSepL_of_eq [main_arg1, main_arg2, main_v8, main_v9_0, main_v9_1] (by decide) (by decide) _

/-- The region's arrays window by window: every array a whole buffer, the shared one held at the left half by
    window 2 and at the right half by window 3, every other at the full share. -/
theorem arrays1_eq (c : Dev nD) (Fa : (w : Fin cfg1.W) → Buf (Elt F) (((cfg1.win w).arr.view.loc (c : Thread nD τ)))) :
    ((dat1 V c).arrays Fa : sProp 𝕄)
      = iprop((((c : Thread nD τ).loc main_arg1) ↦{fullShare} Fa 0) ∗ (((c : Thread nD τ).loc main_arg2) ↦{fullShare} Fa 1)
        ∗ (((c : Thread nD τ).loc main_v8) ↦{fullShare.left} Fa 2) ∗ (((c : Thread nD τ).loc main_v8) ↦{fullShare.right} Fa 3)
        ∗ (((c : Thread nD τ).loc main_v9_0) ↦{fullShare} Fa 4) ∗ (((c : Thread nD τ).loc main_v9_1) ↦{fullShare} Fa 5)) := by
  unfold Dat.arrays
  rw [bigSep_W1]
  rw [(arr_whole1 0).set_eq_univ, (arr_whole1 1).set_eq_univ, (arr_whole1 2).set_eq_univ, (arr_whole1 4).set_eq_univ, (arr_whole1 5).set_eq_univ]
  rfl

/-- ENTRY: a core's unscoped buffers at contents W are the fusion pipeline's arrays at W (the shared array dealt in halves) and the unscoped rest. -/
theorem arrays1_entry (c : Dev nD) (W : (b : Ref sig .tc) → Buf (Elt F) ((c : Thread nD τ).loc b)) :
    (unscopedBufs c W : sProp 𝕄) ⊢ iprop((dat1 V c).arrays (fun w => W (Pipeline.arrRef spec1 w)) ∗ Pipeline.unscopedRest (Ix := Unit) (Name := ℕ) (U := UR sig nD τ) (Lvl := ℕ) spec1 c W) := by
  rw [Pipeline.unscopedBufs_split₀ (fun _ : Unit => cfg1) () winFacts₀1.arr_unscoped c W]
  refine sep_mono ?_ .rfl
  rw [arrBufs1_eq, arrays1_eq]
  iintro ⟨H1, H2, H8, H90, H91⟩
  ihave H8' := (pointsTo_share (PosShare.mem_left_op_right fullShare)).1 $$ H8
  icases H8' with ⟨H8l, H8r⟩
  isplitl [H1]; · iexact H1
  isplitl [H2]; · iexact H2
  isplitl [H8l]; · iexact H8l
  isplitl [H8r]; · iexact H8r
  isplitl [H90]; · iexact H90
  iexact H91

/-- EXIT: the arrays at contents F (the two windows on the shared array holding the same contents) and the unscoped rest at W are the core's unscoped buffers at any W' that has the arrays at F and agrees with W off them. -/
theorem arrays1_exit (c : Dev nD) (W W' : (b : Ref sig .tc) → Buf (Elt F) ((c : Thread nD τ).loc b))
    (Fa : (w : Fin cfg1.W) → Buf (Elt F) (((cfg1.win w).arr.view.loc (c : Thread nD τ))))
    (hF : ∀ w, Fa w = W' (Pipeline.arrRef spec1 w))
    (hrest : ∀ b, b ∉ Finset.univ.image (Pipeline.arrRef spec1) → W' b = W b) :
    iprop((dat1 V c).arrays Fa ∗ Pipeline.unscopedRest (Ix := Unit) (Name := ℕ) (U := UR sig nD τ) (Lvl := ℕ) spec1 c W) ⊢ (unscopedBufs c W' : sProp 𝕄) := by
  rw [Pipeline.unscopedBufs_split₀ (fun _ : Unit => cfg1) () winFacts₀1.arr_unscoped c W']
  refine sep_mono ?_ (Entails.of_eq ?_)
  · rw [arrBufs1_eq, arrays1_eq, hF 0, hF 1, hF 2, hF 3, hF 4, hF 5]
    iintro ⟨H1, H2, H8l, H8r, H90, H91⟩
    ihave H8 := (pointsTo_share (PosShare.mem_left_op_right fullShare)).2 $$ [H8l H8r]
    · isplitl [H8l]; · iexact H8l
      iexact H8r
    isplitl [H1]; · iexact H1
    isplitl [H2]; · iexact H2
    isplitl [H8]; · iexact H8
    isplitl [H90]; · iexact H90
    iexact H91
  · unfold Pipeline.unscopedRest
    exact bigSep_congr fun b hb => by rw [hrest b (Finset.mem_sdiff.mp hb).2]

end Cert.KernelIdeal.Hand

end
-- ==== Proof.Run.lean ====
import proofs.«138674_g11373073400015_week1_w4_273_26_alg».proof.Proof.Gen.KernelIdeal.Launch
import proofs.«138674_g11373073400015_week1_w4_273_26_alg».proof.Proof.Gen.KernelIdeal.Skeleton
import proofs.«138674_g11373073400015_week1_w4_273_26_alg».proof.Proof.Gen.KernelIdeal.Points
import proofs.«138674_g11373073400015_week1_w4_273_26_alg».proof.Proof.Gen.KernelIdeal.Regions
import proofs.«138674_g11373073400015_week1_w4_273_26_alg».proof.Proof.Data0
import proofs.«138674_g11373073400015_week1_w4_273_26_alg».proof.Proof.Data1
import proofs.«138674_g11373073400015_week1_w4_273_26_alg».proof.Proof.Seg1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The run of the kernel program: a stretch of host operations, the gating region, the fusion region. The contents of
    the unscoped buffers at each boundary are a fold from the launch memory; each region's arrays end at what its
    write-backs leave; the two results are read off the last boundary, the arguments walk back to the launch memory. -/

variable (m : (ℓ : Loc nD τ sig) → Buf (Elt F) ℓ) (ρ : Dev nD → PrngReg)

/-! ## The contents at each boundary -/

/-- At launch. -/
abbrev W0 : Dev nD → Valuation τ sig (Elt F) := fun c => Gen.V0 m c
/-- After the host stretch: the gating region's entry. -/
abbrev W1 : Dev nD → Valuation τ sig (Elt F) := fun c => Gen.V1 m c
/-- The same read at the TensorCore's references. -/
abbrev E1 : (c : Dev nD) → (b : Ref sig .tc) → Buf (Elt F) ((c : Thread nD τ).loc b) := fun c b => W1 m c b
/-- At the gating region's exit: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references: the fusion region's entry. -/
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At the fusion region's exit: its two results at what the pipeline leaves, every other buffer as entered. -/
def W3 (c : Dev nD) : Valuation τ sig (Elt F) :=
  Function.update (Function.update (W2 m c) main_v9_0 ((dat1 (E2 m) c).arrAt 4 cfg1.N)) main_v9_1 ((dat1 (E2 m) c).arrAt 5 cfg1.N)
abbrev E3 : (c : Dev nD) → (b : Ref sig .tc) → Buf (Elt F) ((c : Thread nD τ).loc b) := fun c b => W3 m c b

theorem W3_v9_1 (c : Dev nD) : W3 m c (Proc.devRef .tc main_v9_1) = (dat1 (E2 m) c).arrAt 5 cfg1.N := by
  unfold W3; exact Function.update_self ..
theorem W3_v9_0 (c : Dev nD) : W3 m c (Proc.devRef .tc main_v9_0) = (dat1 (E2 m) c).arrAt 4 cfg1.N := by
  unfold W3
  rw [Function.update_of_ne (StableHlo.devRef_ne_of_ne (by decide) : (Proc.devRef .tc main_v9_0 : DevRef τ sig) ≠ Proc.devRef .tc main_v9_1)]
  exact Function.update_self ..
theorem W3_of_ne (c : Dev nD) (b : Ref sig .tc) (h0 : b ≠ main_v9_0) (h1 : b ≠ main_v9_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]

theorem hF1 (c : Dev nD) : ∀ w : Fin cfg1.W, (dat1 (E2 m) c).arrAt w cfg1.N = E3 m c (Pipeline.arrRef spec1 w)
  | ⟨0, _⟩ => ((dat1 (E2 m) c).arrAt_in 0 rfl _).trans ((A_eq1 (E2 m) c 0).trans (W3_of_ne m c main_arg1 (by decide) (by decide)).symm)
  | ⟨1, _⟩ => ((dat1 (E2 m) c).arrAt_in 1 rfl _).trans ((A_eq1 (E2 m) c 1).trans (W3_of_ne m c main_arg2 (by decide) (by decide)).symm)
  | ⟨2, _⟩ => ((dat1 (E2 m) c).arrAt_in 2 rfl _).trans ((A_eq1 (E2 m) c 2).trans (W3_of_ne m c main_v8 (by decide) (by decide)).symm)
  | ⟨3, _⟩ => ((dat1 (E2 m) c).arrAt_in 3 rfl _).trans ((A_eq1 (E2 m) c 3).trans (W3_of_ne m c main_v8 (by decide) (by decide)).symm)
  | ⟨4, _⟩ => (W3_v9_0 m c).symm
  | ⟨5, _⟩ => (W3_v9_1 m c).symm
theorem hrest1 (c : Dev nD) : ∀ b, b ∉ Finset.univ.image (Pipeline.arrRef spec1) → E3 m c b = E2 m c b :=
  fun b hb => W3_of_ne m c b (fun e => hb (Finset.mem_image.mpr ⟨4, Finset.mem_univ _, e.symm⟩)) (fun e => hb (Finset.mem_image.mpr ⟨5, Finset.mem_univ _, e.symm⟩))

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's owes, at nothing. -/
abbrev R (c : Dev nD) : sProp 𝕄 := iprop((∃ r, prngReg c r) ∗ ∃ W, owes (c : Thread nD τ) (0 : CellTallies nD τ sig Unit) W)
/-- The host stretch as a segment. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Gen.hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gating region: entered from every unscoped buffer at W1, left at W2. Its arrays split out of the unscoped
    buffers and put back at the exit contents; the generator register into the invariant and out; the scratch buffers
    reach the invariant unnamed and come back unnamed. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h0 : (pdats m 0 c).Φ 0 = PhiA0 (F := F) c := by
      show PhiG (E1 m) c 0 = _
      unfold PhiG; rw [if_pos rfl]
    rw [h0]; unfold PhiA0
    iintro ⟨Hp, -, Hr⟩
    isplitl [Hr]; · iexact Hr
    iexact Hp
  hout c := by
    have hl : (pdats m 0 c).Φ (Fin.last _) = PhiS0 (E1 m) c := by
      show PhiG (E1 m) c (Fin.last cfg0.N).val = _
      unfold PhiG; rw [if_neg (by rw [Fin.val_last]; have : cfg0.N = 8 := N_0; omega)]
    rw [Pipeline.ownSems0_none, hl]
    refine (PhiS0_close (E1 m) c).trans ?_
    unfold PhiA0
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fusion region: entered from every unscoped buffer at W2, left at W3. The array two of its windows read is
    dealt between them in halves at the entry and joined at the exit. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_entry (E2 m) c (E2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := arrays1_exit (E2 m) c (E2 m c) (E3 m c) ((dat1 (E2 m) c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- Every weakly fair execution terminates, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- A buffer the host stretch does not write and no region's output: as launched. -/
theorem W3_kept (c : Dev nD) (b : Ref sig .tc) (h0 : b ≠ main_v9_0) (h1 : b ≠ main_v9_1) (h8 : b ≠ main_v8) (hW : b ∉ Gen.hostOps0_W) :
    W3 m c (Proc.devRef .tc b) = m ((c : Thread nD τ).loc b) := by
  rw [W3_of_ne m c b h0 h1]
  by_cases hb : ∀ w, Pipeline.arrRef spec0 w ≠ b
  · rw [W2_of_ne m c b hb]; exact Gen.V1_of m c b hW
  · obtain ⟨w, hw⟩ := not_forall.mp hb
    have hw' : Pipeline.arrRef spec0 w = b := not_not.mp hw
    subst hw'
    rw [W2_arr m c w]
    have hin : (cfg0.win w).isOut = false := by
      revert h8; revert w; decide
    exact ((dat0 (E1 m) c).arrAt_in w hin _).trans ((A_eq0 (E1 m) c w).trans (Gen.V1_of m c _ hW))

/-- The run with the two results named and the arguments kept. -/
theorem run_values : θ_run defs (onTc (τ := τ) (main (F := F))) ⟨m, fun _ => 0, ρ⟩ (fun r => ∀ c : Dev nD,
      r.2.mem ((c.tc : Thread nD τ).loc main_v9_0) = (dat1 (E2 m) c).arrAt 4 cfg1.N
      ∧ r.2.mem ((c.tc : Thread nD τ).loc main_v9_1) = (dat1 (E2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v9_0 (by decide))).trans (W3_v9_0 m c),
      (h c _ (mem_uc main_v9_1 (by decide))).trans (W3_v9_1 m c),
      (h c _ (mem_uc main_arg0 (by decide))).trans (W3_kept m c main_arg0 (by decide) (by decide) (by decide) (by decide)),
      (h c _ (mem_uc main_arg1 (by decide))).trans (W3_kept m c main_arg1 (by decide) (by decide) (by decide) (by decide)),
      (h c _ (mem_uc main_arg2 (by decide))).trans (W3_kept m c main_arg2 (by decide) (by decide) (by decide) (by decide)),
      (h c _ (mem_uc main_arg3 (by decide))).trans (W3_kept m c main_arg3 (by decide) (by decide) (by decide) (by decide)),
      (h c _ (mem_uc main_arg4 (by decide))).trans (W3_kept m c main_arg4 (by decide) (by decide) (by decide) (by decide)),
      (h c _ (mem_uc main_arg5 (by decide))).trans (W3_kept m c main_arg5 (by decide) (by decide) (by decide) (by decide)),
      (h c _ (mem_uc main_arg6 (by decide))).trans (W3_kept m c main_arg6 (by decide) (by decide) (by decide) (by decide)),
      (h c _ (mem_uc main_arg7 (by decide))).trans (W3_kept m c main_arg7 (by decide) (by decide) (by decide) (by decide)),
      (h c _ (mem_uc main_arg8 (by decide))).trans (W3_kept m c main_arg8 (by decide) (by decide) (by decide) (by decide))⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2.2) (run_values m ρ)

/-! ## What the regions were entered with -/

/-- The gating region's result is what the fusion region reads. -/
theorem E2_v8 (c : Dev nD) : E2 m c main_v8 = (dat0 (E1 m) c).arrAt 7 cfg0.N := W2_arr m c 7
/-- The fusion region finds the two graphs as launched. -/
theorem E2_arg1 (c : Dev nD) : E2 m c main_arg1 = m ((c : Thread nD τ).loc main_arg1) :=
  (W2_of_ne m c main_arg1 (by decide)).trans (Gen.V1_of m c main_arg1 (by decide))
theorem E2_arg2 (c : Dev nD) : E2 m c main_arg2 = m ((c : Thread nD τ).loc main_arg2) :=
  (W2_of_ne m c main_arg2 (by decide)).trans (Gen.V1_of m c main_arg2 (by decide))
/-- The gating region finds the arguments it stages as launched. -/
theorem E1_arg0 (c : Dev nD) : E1 m c main_arg0 = m ((c : Thread nD τ).loc main_arg0) := Gen.V1_of m c main_arg0 (by decide)
theorem E1_arg3 (c : Dev nD) : E1 m c main_arg3 = m ((c : Thread nD τ).loc main_arg3) := Gen.V1_of m c main_arg3 (by decide)
theorem E1_arg5 (c : Dev nD) : E1 m c main_arg5 = m ((c : Thread nD τ).loc main_arg5) := Gen.V1_of m c main_arg5 (by decide)

end Cert.KernelIdeal.Hand

end
-- ==== Proof.Spec.lean ====
/-
  The mathematics of the certificate, one row of the gating network at a time, on the extended reals.

  A row x of the 4096 features is normalised, sent through three dense layers (widths 1024, 64, 2; a rectifier,
  a leaky rectifier of slope 0.01) and a two-way softmax at temperature 8 with the expert bias (5, 0). The kernel
  folds the normalisation into the first product's epilogue (the product of the raw row, the row's mean and inverse
  deviation, the column sums of the first weight matrix) and the temperature and bias into the last layer's
  parameters; the reference normalises first and scales last. kernelRow and refRow are the two spellings; the
  smoothing of the gate weights by the first graph and the fusion of the two graphs follow, shared by both.
-/
import Idealize.ShloMosaic.PureOps.Ideal
import Idealize.ShloMosaic.Lib.ValueIdx

noncomputable section

open scoped BigOperators

namespace Cert.Spec

open Idealize.ShloMosaic Idealize.ShloMosaic.ValueIdx

/-- The extended real an f32 word denotes. -/
abbrev lit (b : BitVec 32) : EReal := Ideal.ofBits .f32 b

/-- 4096, the row length. -/
abbrev cN : EReal := lit 0x45800000#32
/-- The variance's guard, 1e-5 as an f32. -/
abbrev cEps : EReal := lit 0x3727C5AC#32
/-- The leaky rectifier's slope, 0.01 as an f32. -/
abbrev cSlope : EReal := lit 0x3C23D70A#32
/-- The softmax temperature, 8. -/
abbrev c8 : EReal := lit 0x41000000#32
/-- The smoothing weights, 0.7 and 0.3 as f32s. -/
abbrev c07 : EReal := lit 0x3F333333#32
abbrev c03 : EReal := lit 0x3E99999A#32
/-- One. -/
abbrev cOne : EReal := lit 0x3F800000#32
/-- Zero, as the word. -/
abbrev cZero : EReal := lit 0x00000000#32
/-- Minus infinity, as the word. -/
abbrev cNegInf : EReal := lit 0xFF800000#32

/-- The expert bias (5, 0). -/
def bias (q : Fin 2) : EReal := match q with | ⟨0, _⟩ => lit 0x40A00000#32 | ⟨1, _⟩ => lit 0x00000000#32

/-- The larger of the two logits, from minus infinity. -/
def rowMax (l : Fin 2 → EReal) : EReal := (Finset.univ : Finset (Fin 2)).fold max cNegInf l

/-- The two-way softmax, shifted by the larger logit. -/
def softmax2 (l : Fin 2 → EReal) (q : Fin 2) : EReal :=
  Ideal.div (Ideal.exp (l q - rowMax l)) (∑ k : Fin 2, Ideal.exp (l k - rowMax l))

/-- The column sums of the first weight matrix, as a product with a row of ones. -/
def colSum (w1 : Fin 4096 → Fin 1024 → EReal) (j : Fin 1024) : EReal := ∑ k : Fin 4096, cOne * w1 k j

/-- The rectifier. -/
def relu (a : EReal) : EReal := max a cZero

/-- The leaky rectifier, as the kernel selects it (strictly positive keeps). -/
def lreluK (a : EReal) : EReal := Scalar.select (Ideal.cmp .ogt a cZero) a (cSlope * a)
/-- The leaky rectifier, as the reference selects it (non-negative keeps). -/
def lreluR (a : EReal) : EReal := Scalar.select (Ideal.cmp .oge a cZero) a (cSlope * a)

section Kernel
variable (x : Fin 4096 → EReal) (w1 : Fin 4096 → Fin 1024 → EReal) (cs : Fin 1024 → EReal) (b1 : Fin 1024 → EReal)
  (w2 : Fin 1024 → Fin 64 → EReal) (b2 : Fin 64 → EReal) (w3s : Fin 64 → Fin 2 → EReal) (b3s : Fin 2 → EReal)

/-- The row's mean. -/
def kMu : EReal := Ideal.div (∑ k : Fin 4096, x k) cN
/-- The row's mean square. -/
def kMs : EReal := Ideal.div (∑ k : Fin 4096, x k * x k) cN
/-- The inverse deviation, from the mean square less the squared mean. -/
def kInv : EReal := Ideal.rsqrt (kMs x - kMu x * kMu x + cEps)
/-- The first layer with the normalisation folded into its epilogue, over given column sums cs. -/
def kH1 (j : Fin 1024) : EReal :=
  relu ((∑ k : Fin 4096, x k * w1 k j) * kInv x - (kMu x * kInv x) * cs j + b1 j)
/-- The second layer. -/
def kH2 (n : Fin 64) : EReal := lreluK ((∑ j : Fin 1024, kH1 x w1 cs b1 j * w2 j n) + b2 n)
/-- The logits, from the pre-scaled last layer. -/
def kLogit (q : Fin 2) : EReal := (∑ n : Fin 64, kH2 x w1 cs b1 w2 b2 n * w3s n q) + b3s q
/-- The kernel's gate weights of one row, over given column sums. -/
def kernelRowC (q : Fin 2) : EReal := softmax2 (kLogit x w1 cs b1 w2 b2 w3s b3s) q
end Kernel

/-- The kernel's gate weights of one row: the column sums are the first weight matrix's. -/
def kernelRow (x : Fin 4096 → EReal) (w1 : Fin 4096 → Fin 1024 → EReal) (b1 : Fin 1024 → EReal)
    (w2 : Fin 1024 → Fin 64 → EReal) (b2 : Fin 64 → EReal) (w3s : Fin 64 → Fin 2 → EReal) (b3s : Fin 2 → EReal) (q : Fin 2) : EReal :=
  kernelRowC x w1 (colSum w1) b1 w2 b2 w3s b3s q

section Reference
variable (x : Fin 4096 → EReal) (w1 : Fin 4096 → Fin 1024 → EReal) (b1 : Fin 1024 → EReal)
  (w2 : Fin 1024 → Fin 64 → EReal) (b2 : Fin 64 → EReal) (w3 : Fin 64 → Fin 2 → EReal) (b3 : Fin 2 → EReal)

/-- The row's mean. -/
def rMu : EReal := Ideal.div (∑ k : Fin 4096, x k) cN
/-- The row's variance: the mean of the squared deviations. -/
def rVar : EReal := Ideal.div (∑ k : Fin 4096, (x k - rMu x) * (x k - rMu x)) cN
/-- The normalised row. -/
def rZ (k : Fin 4096) : EReal := Ideal.div (x k - rMu x) (Ideal.sqrt (rVar x + cEps))
/-- The first layer. -/
def rH1 (j : Fin 1024) : EReal := relu ((∑ k : Fin 4096, rZ x k * w1 k j) + b1 j)
/-- The second layer. -/
def rH2 (n : Fin 64) : EReal := lreluR ((∑ j : Fin 1024, rH1 x w1 b1 j * w2 j n) + b2 n)
/-- The logits, scaled by the temperature and shifted by the expert bias. -/
def rLogit (q : Fin 2) : EReal := ((∑ n : Fin 64, rH2 x w1 b1 w2 b2 n * w3 n q) + b3 q) * c8 + bias q
/-- The reference's gate weights of one row. -/
def refRow (q : Fin 2) : EReal := softmax2 (rLogit x w1 b1 w2 b2 w3 b3) q
end Reference

/-- The gate weights smoothed by the first graph: 0.7 of the row's own and 0.3 of its neighbours'. -/
def smooth (g0 : Fin 4096 → Fin 2 → EReal) (G1 : Fin 4096 → Fin 4096 → EReal) (r : Fin 4096) (q : Fin 2) : EReal :=
  c07 * g0 r q + c03 * ∑ k : Fin 4096, G1 r k * g0 k q

/-- The two graphs fused entry by entry with the row's smoothed gate weights. -/
def fuse (G1 G2 : Fin 4096 → Fin 4096 → EReal) (gw : Fin 4096 → Fin 2 → EReal) (r col : Fin 4096) : EReal :=
  G1 r col * gw r 0 + G2 r col * gw r 1

/-- A rank-2 array from a function of its two coordinates. -/
def arr2 {n0 n1 : Nat} (f : Fin n0 → Fin n1 → EReal) : (⟨2, ![n0, n1]⟩ : Shape).Idx → EReal :=
  fun i => f ⟨(i 0).val, idx2_lt0 i⟩ ⟨(i 1).val, idx2_lt1 i⟩

@[simp] theorem arr2_ix2 {n0 n1 : Nat} (f : Fin n0 → Fin n1 → EReal) (a : Fin n0) (b : Fin n1) : arr2 f (ix2 a b) = f a b := rfl

/-- The coordinates of a rank-2 array as a function of two coordinates. -/
def co2 {n0 n1 : Nat} (A : (⟨2, ![n0, n1]⟩ : Shape).Idx → EReal) : Fin n0 → Fin n1 → EReal := fun a b => A (ix2 a b)
/-- The coordinates of a rank-1 array. -/
def co1 {n : Nat} (A : (⟨1, ![n]⟩ : Shape).Idx → EReal) : Fin n → EReal := fun a => A (ix1 a)

/-- The gate weights of every row, as the reference spells them, from the argument arrays. -/
def gateR (z : (⟨2, ![4096, 4096]⟩ : Shape).Idx → EReal) (W1 : (⟨2, ![4096, 1024]⟩ : Shape).Idx → EReal) (b1 : (⟨1, ![1024]⟩ : Shape).Idx → EReal)
    (W2 : (⟨2, ![1024, 64]⟩ : Shape).Idx → EReal) (b2 : (⟨1, ![64]⟩ : Shape).Idx → EReal) (W3 : (⟨2, ![64, 2]⟩ : Shape).Idx → EReal)
    (b3 : (⟨1, ![2]⟩ : Shape).Idx → EReal) (r : Fin 4096) (q : Fin 2) : EReal :=
  refRow (co2 z r) (co2 W1) (co1 b1) (co2 W2) (co1 b2) (co2 W3) (co1 b3) q

/-- The same as the kernel spells them: the last layer pre-scaled by the temperature, its bias shifted by the expert bias. -/
def gateK (z : (⟨2, ![4096, 4096]⟩ : Shape).Idx → EReal) (W1 : (⟨2, ![4096, 1024]⟩ : Shape).Idx → EReal) (b1 : (⟨1, ![1024]⟩ : Shape).Idx → EReal)
    (W2 : (⟨2, ![1024, 64]⟩ : Shape).Idx → EReal) (b2 : (⟨1, ![64]⟩ : Shape).Idx → EReal) (W3 : (⟨2, ![64, 2]⟩ : Shape).Idx → EReal)
    (b3 : (⟨1, ![2]⟩ : Shape).Idx → EReal) (r : Fin 4096) (q : Fin 2) : EReal :=
  kernelRow (co2 z r) (co2 W1) (co1 b1) (co2 W2) (co1 b2) (fun n q => co2 W3 n q * c8) (fun q => co1 b3 q * c8 + bias q) q

end Cert.Spec

end
-- ==== Proof.GateVal.lean ====
/-
  The first kernel's arithmetic read at one entry, on the extended reals.

  The stored copy of the first weight matrix is the matrix itself, entry by entry; the stored row of column sums is,
  at column j, the sum over k of one times the entry (k, j); and the gate weights the kernel writes for row p and
  expert q are the two-way softmax of the row's logits, where the row passes through the folded normalisation (mean,
  mean square and inverse deviation of the row, applied after the first product), the rectifier, the second product,
  the leaky rectifier and the last product, exactly as the row functions of the specification spell them.

  The steps: an array operation that moves data (a vector cast to a column, a column or a row repeated across a
  matrix, a sum or a maximum along the rows, a product of matrices) is read at an entry given by its coordinates;
  every other operation acts entry by entry.
-/
import proofs.«138674_g11373073400015_week1_w4_273_26_alg».proof.Proof.Gen.KernelIdeal.Skeleton
import proofs.«138674_g11373073400015_week1_w4_273_26_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

namespace GateVal

/-! ## Operations that move data, read at an index given by coordinates -/

section Layout
variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Reductions
variable {φ : FTy}

/-- The sum along the rows of an [a, b] array, at row p, is the sum over the row's entries. -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction (F := Ideal) .add [1] ⟨1, ![a]⟩ src acc h hφ hacc (ix1 p) = ∑ k : Fin b, src (ix2 p k) := by
  rw [Ideal.multiReduction_add_single]
  refine Finset.sum_congr rfl fun k _ => congrArg src ?_
  funext ax
  match ax with
  | ⟨0, _⟩ => rfl
  | ⟨1, _⟩ => rfl

/-- The maximum along the rows of an [a, b] array, at row p, is the fold of max over the row's entries from the
    accumulator's value. -/
theorem rowMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction (F := Ideal) .maximumf [1] ⟨1, ![a]⟩ src acc h hφ hacc (ix1 p)
      = (Finset.univ : Finset (Fin b)).fold max (Ideal.ofBits φ acc) (fun k => src (ix2 p k)) := by
  rw [Ideal.multiReduction_maximumf_single]
  have e : (src ∘ h.lift (ix1 p)) = fun k : Fin b => src (ix2 p k) := by
    funext k
    refine congrArg src ?_
    funext ax
    match ax with
    | ⟨0, _⟩ => rfl
    | ⟨1, _⟩ => rfl
  rw [e]
  rfl

end Reductions

/-! ## A product of matrices read at an index -/

/-- The product of an m by k and a k by n matrix into the zero accumulator, at (a, b), is the sum over the contracted
    coordinate of the products of the entries. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single (cl := 1) rfl _ _).trans hc
  have hr : (DotDims.plain m k n).rhsIdx (ix2 a b) ((contrEquiv1 (DotDims.plain m k n) k rfl rfl).symm c) = ix2 c b := by
    funext ax; apply Fin.ext
    match ax with
    | ⟨0, _⟩ => exact ((DotDims.plain m k n).rhsIdx_val_of_single (cr := 0) rfl _ _).trans hc
    | ⟨1, _⟩ => simp [DotDims.rhsIdx, DotDims.plain]; rfl
  rw [hl, hr]

/-! ## The row reductions at the single-precision accumulators the kernel passes -/

theorem rowSum_f32 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) :=
  rowSum_apply src _ h hφ hacc p

theorem rowMax_f32 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max (Ideal.ofBits .f32 0xFF800000#32) (fun k => src (ix2 p k)) :=
  rowMax_apply src _ h hφ hacc p

/-! ## The generated contraction records are the plain ones -/

theorem dot_1_4096_1024 : dot_S1x4096_S4096x1024_S1x1024_1_0_0_1_n_n = DotDims.plain 1 4096 1024 := rfl
theorem dot_512_4096_1024 : dot_S512x4096_S4096x1024_S512x1024_1_0_0_1_n_n = DotDims.plain 512 4096 1024 := rfl
theorem dot_512_1024_64 : dot_S512x1024_S1024x64_S512x64_1_0_0_1_n_n = DotDims.plain 512 1024 64 := rfl
theorem dot_512_64_2 : dot_S512x64_S64x2_S512x2_1_0_0_1_n_n = DotDims.plain 512 64 2 := rfl

/-! ## The inverse square root and the exponential at an index -/

theorem rsqrt_apply {s : Shape} {φ : FTy} (v : FVec Ideal s φ) (i : s.Idx) : rsqrt v i = Ideal.rsqrt (v i) := rfl
theorem exp_apply {s : Shape} {φ : FTy} (v : FVec Ideal s φ) (i : s.Idx) : exp v i = Ideal.exp (v i) := rfl

/-! ## The first two layers -/

theorem pay4_apply (z : FVec Ideal S512x4096 .f32) (w1a : FVec Ideal S4096x1024 .bf16) (cs b1 : FVec Ideal S1x1024 .f32)
    (w2 : FVec Ideal S1024x64 .f32) (p : Fin 512) (n : Fin 64) :
    (k0_pay4 (F := Ideal) z w1a cs b1 w2) (ix2 p n)
      = ∑ j : Fin 1024, Cert.Spec.kH1 (Cert.Spec.co2 z p) (Cert.Spec.co2 w1a) (fun j => cs (ix2 (0 : Fin 1) j))
          (fun j => b1 (ix2 (0 : Fin 1) j)) j * w2 (ix2 j n) := by
  unfold k0_pay4
  simp only [dot_512_1024_64, dot_512_4096_1024, shapeCast_self]
  rw [matmul_plain_apply]
  refine Finset.sum_congr rfl fun j _ => ?_
  congr 1
  simp only [maximumf_apply, addf_apply, subf_apply, mulf_apply, divf_apply, broadcast_apply, truncf_apply, rsqrt_apply,
    broadcastTo_a1_ab_apply, broadcastTo_1b_ab_apply, shapeCast_a_a1_apply, matmul_plain_apply]
  rw [rowSum_f32, rowSum_f32]
  simp only [mulf_apply]
  rfl

end GateVal

open GateVal
/-! ## The stored weight matrix and its column sums -/

theorem pay2_apply (v : FVec Ideal S4096x1024 .f32) (k : Fin 4096) (j : Fin 1024) :
    (k0_pay2 (F := Ideal) v) (ix2 k j) = v (ix2 k j) := by
  unfold k0_pay2
  simp only [shapeCast_self]
  rfl

theorem pay3_apply (v : FVec Ideal S4096x1024 .f32) (j : Fin 1024) :
    (k0_pay3 (F := Ideal) v) (ix2 (0 : Fin 1) j) = Cert.Spec.colSum (Cert.Spec.co2 v) j := by
  unfold k0_pay3
  simp only [shapeCast_self, dot_1_4096_1024]
  rw [matmul_plain_apply]
  rfl

/-! ## The last layer and the softmax -/

theorem gate_apply (z : FVec Ideal S512x4096 .f32) (w1a : FVec Ideal S4096x1024 .bf16) (cs b1 : FVec Ideal S1x1024 .f32)
    (w2 : FVec Ideal S1024x64 .f32) (b2 : FVec Ideal S1x64 .f32) (w3s : FVec Ideal S64x2 .f32) (b3s : FVec Ideal S1x2 .f32) (p : Fin 512) (q : Fin 2) :
    (k0_pay1 (F := Ideal) (k0_pay4 (F := Ideal) z w1a cs b1 w2) b2 w3s b3s) (ix2 p q)
      = Cert.Spec.kernelRowC (Cert.Spec.co2 z p) (Cert.Spec.co2 w1a) (fun j => cs (ix2 (0 : Fin 1) j)) (fun j => b1 (ix2 (0 : Fin 1) j))
          (Cert.Spec.co2 w2) (fun n => b2 (ix2 (0 : Fin 1) n)) (Cert.Spec.co2 w3s) (fun q => b3s (ix2 (0 : Fin 1) q)) q := by
  unfold k0_pay1
  simp only [dot_512_64_2, shapeCast_self, divf_apply, exp_apply, subf_apply, addf_apply, mulf_apply, select_apply, cmpf_apply,
    broadcast_apply, broadcastTo_a1_ab_apply, broadcastTo_1b_ab_apply, shapeCast_a_a1_apply, matmul_plain_apply]
  rw [rowMax_f32, rowSum_f32]
  simp only [divf_apply, exp_apply, subf_apply, addf_apply, mulf_apply, select_apply, cmpf_apply,
    broadcast_apply, broadcastTo_a1_ab_apply, broadcastTo_1b_ab_apply, shapeCast_a_a1_apply, matmul_plain_apply]
  rw [rowMax_f32]
  simp only [addf_apply, mulf_apply, select_apply, cmpf_apply,
    broadcast_apply, broadcastTo_1b_ab_apply, matmul_plain_apply, pay4_apply, Ideal.cmpf_def, Ideal.ofBits_def]
  simp only [Cert.Spec.kernelRowC, Cert.Spec.softmax2, Cert.Spec.rowMax, Cert.Spec.kLogit, Cert.Spec.kH2, Cert.Spec.lreluK]
  rfl

end Cert.KernelIdeal.Hand
end
-- ==== Proof.GateFinal.lean ====
/-
  From the blocks the gating region writes back to the whole array of gate weights, on the extended reals.

  The region visits eight points; point t reads rows 512 t .. 512 t + 511 of the feature matrix and writes the same
  rows of the [4096, 2] array of gate weights. The three weight matrices and the three bias rows are read whole at
  every point (their block is the array itself), and the two stored quantities kept from the first point on are the
  first weight matrix entry by entry and the row of its column sums. So row p of the block point t writes is the
  kernel's row function of row 512 t + p of the features; the eight blocks cover the 4096 rows (row r lies in the
  block of point r / 512), hence the array ends holding the row function of every row.
-/
import proofs.«138674_g11373073400015_week1_w4_273_26_alg».proof.Proof.Data0
import proofs.«138674_g11373073400015_week1_w4_273_26_alg».proof.Proof.GateVal
import proofs.«138674_g11373073400015_week1_w4_273_26_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-- The gate weights of every row as one function of the arrays the region is entered with. -/
def gateArr (c : Dev nD) : (⟨2, ![4096, 2]⟩ : Shape).Idx → EReal :=
  Cert.Spec.arr2 (fun r q => Cert.Spec.kernelRowC (Cert.Spec.co2 (V c main_arg0) r) (Cert.Spec.co2 (V c main_arg3)) (Cert.Spec.colSum (Cert.Spec.co2 (V c main_arg3)))
          (fun j => V c main_v5 (ix2 (0 : Fin 1) j)) (Cert.Spec.co2 (V c main_arg5)) (fun n => V c main_v6 (ix2 (0 : Fin 1) n))
          (Cert.Spec.co2 (V c main_v1)) (fun q => V c main_v7 (ix2 (0 : Fin 1) q)) q)

theorem gate_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Block t of the rows: row p of the block is row 512 t + p of the array. -/
theorem rows_block_apply (c : Dev nD) (t : Fin cfg0.N) (y : S512x4096.Idx) (i : S4096x4096.Idx)
    (h0 : (i 0).val = t.val * 512 + (y 0).val) (h1 : (i 1).val = (y 1).val) :
    (iblk0 V c 0 t : Vec Ideal S512x4096 .f32) y = (V c main_arg0 : S4096x4096.Idx → EReal) i := by
  obtain ⟨e0, e1, -⟩ := gate_idx_facts t
  unfold iblk0
  rw [View.read_apply]
  show V c main_arg0 (((cfg0.win 0).blk t).view.emb y) = V c main_arg0 i
  congr 1
  funext a; apply Fin.ext
  match a with
  | ⟨0, _⟩ => show win0_0.index t (0 : Fin 2) * 512 + 1 * (y 0).val = (i 0).val; omega
  | ⟨1, _⟩ => show win0_0.index t (1 : Fin 2) * 4096 + 1 * (y 1).val = (i 1).val; omega

/-- The first weight matrix's window holds the whole matrix at every point. -/
theorem w1_block_apply (c : Dev nD) (t : Fin cfg0.N) (y : S4096x1024.Idx) :
    (iblk0 V c 1 t : Vec Ideal S4096x1024 .f32) y = (V c main_arg3 : S4096x1024.Idx → EReal) y := by
  obtain ⟨-, -, e0, e1, -⟩ := gate_idx_facts t
  unfold iblk0
  rw [View.read_apply]
  show V c main_arg3 (((cfg0.win 1).blk t).view.emb y) = V c main_arg3 y
  congr 1
  funext a; apply Fin.ext
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The first bias's window holds the whole row at every point. -/
theorem b1_block_apply (c : Dev nD) (t : Fin cfg0.N) (y : S1x1024.Idx) :
    (iblk0 V c 2 t : Vec Ideal S1x1024 .f32) y = (V c main_v5 : S1x1024.Idx → EReal) y := by
  obtain ⟨-, -, -, -, e0, e1, -⟩ := gate_idx_facts t
  unfold iblk0
  rw [View.read_apply]
  show V c main_v5 (((cfg0.win 2).blk t).view.emb y) = V c main_v5 y
  congr 1
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The second weight matrix's window holds the whole matrix at every point. -/
theorem w2_block_apply (c : Dev nD) (t : Fin cfg0.N) (y : S1024x64.Idx) :
    (iblk0 V c 3 t : Vec Ideal S1024x64 .f32) y = (V c main_arg5 : S1024x64.Idx → EReal) y := by
  obtain ⟨-, -, -, -, -, -, e0, e1, -⟩ := gate_idx_facts t
  unfold iblk0
  rw [View.read_apply]
  show V c main_arg5 (((cfg0.win 3).blk t).view.emb y) = V c main_arg5 y
  congr 1
  funext a; apply Fin.ext
  match a with
  | ⟨0, _⟩ => show win0_3.index t (0 : Fin 2) * 1024 + 1 * (y 0).val = (y 0).val; omega
  | ⟨1, _⟩ => show win0_3.index t (1 : Fin 2) * 64 + 1 * (y 1).val = (y 1).val; omega

/-- The second bias's window holds the whole row at every point. -/
theorem b2_block_apply (c : Dev nD) (t : Fin cfg0.N) (y : S1x64.Idx) :
    (iblk0 V c 4 t : Vec Ideal S1x64 .f32) y = (V c main_v6 : S1x64.Idx → EReal) y := by
  obtain ⟨-, -, -, -, -, -, -, -, e0, e1, -⟩ := gate_idx_facts t
  unfold iblk0
  rw [View.read_apply]
  show V c main_v6 (((cfg0.win 4).blk t).view.emb y) = V c main_v6 y
  congr 1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The scaled last weight matrix's window holds the whole matrix at every point. -/
theorem w3_block_apply (c : Dev nD) (t : Fin cfg0.N) (y : S64x2.Idx) :
    (iblk0 V c 5 t : Vec Ideal S64x2 .f32) y = (V c main_v1 : S64x2.Idx → EReal) y := by
  obtain ⟨-, -, -, -, -, -, -, -, -, -, e0, e1, -⟩ := gate_idx_facts t
  unfold iblk0
  rw [View.read_apply]
  show V c main_v1 (((cfg0.win 5).blk t).view.emb y) = V c main_v1 y
  congr 1
  funext a; apply Fin.ext
  match a with
  | ⟨0, _⟩ => show win0_5.index t (0 : Fin 2) * 64 + 1 * (y 0).val = (y 0).val; omega
  | ⟨1, _⟩ => show win0_5.index t (1 : Fin 2) * 2 + 1 * (y 1).val = (y 1).val; omega

/-- The shifted last bias's window holds the whole row at every point. -/
theorem b3_block_apply (c : Dev nD) (t : Fin cfg0.N) (y : S1x2.Idx) :
    (iblk0 V c 6 t : Vec Ideal S1x2 .f32) y = (V c main_v7 : S1x2.Idx → EReal) y := by
  obtain ⟨-, -, -, -, -, -, -, -, -, -, -, -, e0, e1, -⟩ := gate_idx_facts t
  unfold iblk0
  rw [View.read_apply]
  show V c main_v7 (((cfg0.win 6).blk t).view.emb y) = V c main_v7 y
  congr 1
  funext a; apply Fin.ext
  match a with
  | ⟨0, _⟩ => show win0_6.index t (0 : Fin 2) * 1 + 1 * (y 0).val = (y 0).val; omega
  | ⟨1, _⟩ => show win0_6.index t (1 : Fin 2) * 2 + 1 * (y 1).val = (y 1).val; omega

/-- One row of one block: the stored copy of the first weight matrix is the matrix, the stored column sums are its
    column sums, and the row passes through the folded normalisation, the three layers and the softmax. -/
theorem gate_row_eq (z : FVec Ideal S512x4096 .f32) (w1 : FVec Ideal S4096x1024 .f32) (b1 : FVec Ideal S1x1024 .f32)
    (w2 : FVec Ideal S1024x64 .f32) (b2 : FVec Ideal S1x64 .f32) (w3s : FVec Ideal S64x2 .f32) (b3s : FVec Ideal S1x2 .f32)
    (p : Fin 512) (q : Fin 2) :
    gateOut (F := Ideal) z (k0_pay2 (F := Ideal) w1) (k0_pay3 (F := Ideal) w1) b1 w2 b2 w3s b3s (ix2 p q)
      = Cert.Spec.kernelRowC (Cert.Spec.co2 z p) (Cert.Spec.co2 w1) (Cert.Spec.colSum (Cert.Spec.co2 w1)) (fun j => b1 (ix2 (0 : Fin 1) j))
          (Cert.Spec.co2 w2) (fun n => b2 (ix2 (0 : Fin 1) n)) (Cert.Spec.co2 w3s) (fun q => b3s (ix2 (0 : Fin 1) q)) q := by
  unfold gateOut
  rw [gate_apply]
  have ea : Cert.Spec.co2 (k0_pay2 (F := Ideal) w1) = Cert.Spec.co2 w1 := funext fun k => funext fun j => pay2_apply w1 k j
  have es : (fun j => (k0_pay3 (F := Ideal) w1) (ix2 (0 : Fin 1) j)) = Cert.Spec.colSum (Cert.Spec.co2 w1) := funext fun j => pay3_apply w1 j
  rw [ea, es]

/-- What point t writes back is block t of the gate weights of every row. -/
theorem gate_flushed_eq (c : Dev nD) (t : Fin cfg0.N) :
    (dat0 (F := Ideal) V c).flushed 7 t = ((cfg0.win 7).blk t).view.read (Elt Ideal) (gateArr V c) := by
  show (cfg0.win 7).cut (grid0.coords t) ((dat0 (F := Ideal) V c).after 7 t) = _
  rw [after0_7]
  obtain ⟨-, -, -, -, -, -, -, -, -, -, -, -, -, -, e0, e1⟩ := gate_idx_facts t
  funext y
  obtain ⟨p, q, rfl⟩ : ∃ (p : Fin 512) (q : Fin 2), y = ix2 p q := ⟨y 0, y 1, eq_ix2 y⟩
  have hr : t.val * 512 + p.val < 4096 := by
    have ht : t.val < 8 := lt_of_lt_of_eq t.isLt N_0
    have hp := p.isLt
    omega
  have hemb : ((cfg0.win 7).blk t).view.emb (ix2 p q) = (ix2 (⟨t.val * 512 + p.val, hr⟩ : Fin 4096) q : S4096x2.Idx) := by
    funext a; apply Fin.ext
    match a with
    | ⟨0, _⟩ => show win0_7.index t (0 : Fin 2) * 512 + 1 * p.val = t.val * 512 + p.val; omega
    | ⟨1, _⟩ => show win0_7.index t (1 : Fin 2) * 2 + 1 * q.val = q.val; omega
  rw [View.read_apply]
  show gateOut (F := Ideal) (iblk0 V c 0 t) (k0_pay2 (F := Ideal) (w1blk V c)) (k0_pay3 (F := Ideal) (w1blk V c)) (iblk0 V c 2 t) (iblk0 V c 3 t) (iblk0 V c 4 t) (iblk0 V c 5 t) (iblk0 V c 6 t) (ix2 p q)
    = gateArr V c (((cfg0.win 7).blk t).view.emb (ix2 p q))
  rw [hemb]
  refine (gate_row_eq _ _ _ _ _ _ _ p q).trans ?_
  show _ = Cert.Spec.kernelRowC (Cert.Spec.co2 (V c main_arg0) (⟨t.val * 512 + p.val, hr⟩ : Fin 4096)) (Cert.Spec.co2 (V c main_arg3)) (Cert.Spec.colSum (Cert.Spec.co2 (V c main_arg3)))
          (fun j => V c main_v5 (ix2 (0 : Fin 1) j)) (Cert.Spec.co2 (V c main_arg5)) (fun n => V c main_v6 (ix2 (0 : Fin 1) n))
          (Cert.Spec.co2 (V c main_v1)) (fun q => V c main_v7 (ix2 (0 : Fin 1) q)) q
  have e_x : Cert.Spec.co2 (iblk0 V c 0 t : Vec Ideal S512x4096 .f32) p = Cert.Spec.co2 (V c main_arg0) (⟨t.val * 512 + p.val, hr⟩ : Fin 4096) :=
    funext fun k => rows_block_apply V c t (ix2 p k) (ix2 (⟨t.val * 512 + p.val, hr⟩ : Fin 4096) k) rfl rfl
  have e_w1 : Cert.Spec.co2 (w1blk V c : Vec Ideal S4096x1024 .f32) = Cert.Spec.co2 (V c main_arg3) :=
    funext fun k => funext fun j => w1_block_apply V c t0_0 (ix2 k j)
  have e_b1 : (fun j => (iblk0 V c 2 t : Vec Ideal S1x1024 .f32) (ix2 (0 : Fin 1) j)) = (fun j => V c main_v5 (ix2 (0 : Fin 1) j)) :=
    funext fun j => b1_block_apply V c t (ix2 (0 : Fin 1) j)
  have e_w2 : Cert.Spec.co2 (iblk0 V c 3 t : Vec Ideal S1024x64 .f32) = Cert.Spec.co2 (V c main_arg5) :=
    funext fun k => funext fun j => w2_block_apply V c t (ix2 k j)
  have e_b2 : (fun n => (iblk0 V c 4 t : Vec Ideal S1x64 .f32) (ix2 (0 : Fin 1) n)) = (fun n => V c main_v6 (ix2 (0 : Fin 1) n)) :=
    funext fun n => b2_block_apply V c t (ix2 (0 : Fin 1) n)
  have e_w3 : Cert.Spec.co2 (iblk0 V c 5 t : Vec Ideal S64x2 .f32) = Cert.Spec.co2 (V c main_v1) :=
    funext fun k => funext fun j => w3_block_apply V c t (ix2 k j)
  have e_b3 : (fun q => (iblk0 V c 6 t : Vec Ideal S1x2 .f32) (ix2 (0 : Fin 1) q)) = (fun q => V c main_v7 (ix2 (0 : Fin 1) q)) :=
    funext fun q => b3_block_apply V c t (ix2 (0 : Fin 1) q)
  rw [e_x, e_w1, e_b1, e_w2, e_b2, e_w3, e_b3]

/-- An index of the array is in point t's block iff each coordinate is in the block's range on its axis. -/
theorem gate_mem_blk (t : Fin cfg0.N) (i : S4096x2.Idx) :
    i ∈ ((cfg0.win 7).blk t).view.set ↔ ∀ a : Fin 2, win0_7.index t a * S512x2.size a ≤ (i a).val ∧ (i a).val < win0_7.index t a * S512x2.size a + S512x2.size a := by
  show i ∈ ((View.whole main_v8).slice (win0_7.rect t)).set ↔ _
  rw [View.set_slice_whole, Rect.mem_set_unit]
  exact Iff.rfl

/-- Every row is in the block of the point its number divided by 512 names. -/
theorem gate_cover (i : S4096x2.Idx) : ∃ t : Fin cfg0.N, (cfg0.win 7).flush t = true ∧ i ∈ ((cfg0.win 7).blk t).view.set := by
  have hi0 : (i 0).val < 4096 := (i 0).isLt
  have hi1 : (i 1).val < 2 := (i 1).isLt
  have hN : cfg0.N = 8 := N_0
  let t : Fin cfg0.N := ⟨(i 0).val / 512, by rw [hN]; omega⟩
  obtain ⟨-, -, -, -, -, -, -, -, -, -, -, -, -, -, e0, e1⟩ := gate_idx_facts t
  have ht : t.val = (i 0).val / 512 := rfl
  refine ⟨t, flush0_7 t, ?_⟩
  rw [gate_mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 2 ≤ (i 1).val ∧ (i 1).val < win0_7.index t (1 : Fin 2) * 2 + 2; omega

/-- The array of gate weights after the region: the kernel's row function of every row. -/
theorem gate_final (c : Dev nD) :
    (dat0 (F := Ideal) V c).arrAt 7 cfg0.N
      = Cert.Spec.arr2 (fun r q => Cert.Spec.kernelRowC (Cert.Spec.co2 (V c main_arg0) r) (Cert.Spec.co2 (V c main_arg3)) (Cert.Spec.colSum (Cert.Spec.co2 (V c main_arg3)))
          (fun j => V c main_v5 (ix2 (0 : Fin 1) j)) (Cert.Spec.co2 (V c main_arg5)) (fun n => V c main_v6 (ix2 (0 : Fin 1) n))
          (Cert.Spec.co2 (V c main_v1)) (fun q => V c main_v7 (ix2 (0 : Fin 1) q)) q) :=
  (dat0 (F := Ideal) V c).arrAt_eq_of_cover 7 (gateArr V c) (fun t _ => gate_flushed_eq V c t) gate_cover

end Cert.KernelIdeal.Hand

end
-- ==== Proof.FuseVal.lean ====
/-
  The second kernel's arithmetic read at an index, on the extended reals.

  One block of 256 rows of the two graphs: the gate weights of the block's rows are smoothed by the first graph
  (0.7 of the row's own weights and 0.3 of the product of the row of the first graph with all 4096 rows' weights),
  and every entry of the block of the fused graph is the first graph's entry times the row's first smoothed weight
  plus the second graph's entry times the row's second smoothed weight.
-/
import proofs.«138674_g11373073400015_week1_w4_273_26_alg».proof.Proof.Gen.KernelIdeal.Skeleton
import proofs.«138674_g11373073400015_week1_w4_273_26_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The product's operand indices, axis by axis -/

/-- The left operand's row is the result's row. -/
theorem lhs_fuse_0 (j : S256x2.Idx) (k : dot_S256x4096_S4096x2_S256x2_1_0_0_1_n_n.contr.Idx) :
    (dot_S256x4096_S4096x2_S256x2_1_0_0_1_n_n.lhsIdx j k 0).val = (j 0).val := rfl

/-- The left operand's column is the contracted coordinate. -/
theorem lhs_fuse_1 (j : S256x2.Idx) (k : dot_S256x4096_S4096x2_S256x2_1_0_0_1_n_n.contr.Idx) :
    (dot_S256x4096_S4096x2_S256x2_1_0_0_1_n_n.lhsIdx j k 1).val = (k ⟨0, by decide⟩).val :=
  DotDims.lhsIdx_val_of_single (d := dot_S256x4096_S4096x2_S256x2_1_0_0_1_n_n) (cl := 1) rfl j k

/-- The right operand's row is the contracted coordinate. -/
theorem rhs_fuse_0 (j : S256x2.Idx) (k : dot_S256x4096_S4096x2_S256x2_1_0_0_1_n_n.contr.Idx) :
    (dot_S256x4096_S4096x2_S256x2_1_0_0_1_n_n.rhsIdx j k 0).val = (k ⟨0, by decide⟩).val :=
  DotDims.rhsIdx_val_of_single (d := dot_S256x4096_S4096x2_S256x2_1_0_0_1_n_n) (cr := 0) rfl j k

/-- The right operand's column is the result's column. -/
theorem rhs_fuse_1 (j : S256x2.Idx) (k : dot_S256x4096_S4096x2_S256x2_1_0_0_1_n_n.contr.Idx) :
    (dot_S256x4096_S4096x2_S256x2_1_0_0_1_n_n.rhsIdx j k 1).val = (j 1).val := rfl

/-- The product of a 256 by 4096 block with a 4096 by 2 matrix into the zero block, read at (p, q): the sum over the
    contracted coordinate of the products of the entries. -/
theorem matmul_fuse_apply (A : FVec Ideal S256x4096 .f32) (B : FVec Ideal S4096x2 .f32) (p : Fin 256) (q : Fin 2) :
    matmul dot_S256x4096_S4096x2_S256x2_1_0_0_1_n_n none A B (constant (F := Ideal) S256x2 .f32 0x00000000#32) (ix2 p q)
      = ∑ k : Fin 4096, A (ix2 p k) * B (ix2 k q) := by
  show FloatOps.matmul _ none A B (constant (F := Ideal) S256x2 .f32 0x00000000#32) (ix2 p q) = _
  rw [Ideal.matmul_constant_zero_apply,
    ← Equiv.sum_comp (contrEquiv1 dot_S256x4096_S4096x2_S256x2_1_0_0_1_n_n 4096 rfl rfl).symm]
  refine Finset.sum_congr rfl fun c _ => ?_
  have hk := contrEquiv1_symm_val dot_S256x4096_S4096x2_S256x2_1_0_0_1_n_n 4096 rfl rfl c
  have hl : dot_S256x4096_S4096x2_S256x2_1_0_0_1_n_n.lhsIdx (ix2 p q)
      ((contrEquiv1 dot_S256x4096_S4096x2_S256x2_1_0_0_1_n_n 4096 rfl rfl).symm c) = ix2 p c := by
    funext ax; apply Fin.ext
    match ax with
    | ⟨0, _⟩ => exact lhs_fuse_0 _ _
    | ⟨1, _⟩ => exact (lhs_fuse_1 _ _).trans hk
  have hr : dot_S256x4096_S4096x2_S256x2_1_0_0_1_n_n.rhsIdx (ix2 p q)
      ((contrEquiv1 dot_S256x4096_S4096x2_S256x2_1_0_0_1_n_n 4096 rfl rfl).symm c) = ix2 c q := by
    funext ax; apply Fin.ext
    match ax with
    | ⟨0, _⟩ => exact (rhs_fuse_0 _ _).trans hk
    | ⟨1, _⟩ => exact rhs_fuse_1 _ _
  rw [hl, hr]

/-! ## The column slices and the column broadcast -/

/-- The first column of a 256 by 2 block, kept as a 256 by 1 block. -/
theorem col0_apply (X : FVec Ideal S256x2 .f32) (p : Fin 256) :
    extractStridedSlice S256x1 ![0, 0] X slices_S256x2_o0_0_S256x1 (ix2 p (0 : Fin 1)) = X (ix2 p (0 : Fin 2)) :=
  slice2_axis1_apply 0 X slices_S256x2_o0_0_S256x1 p (0 : Fin 1) (0 : Fin 2) rfl

/-- The second column of a 256 by 2 block, kept as a 256 by 1 block. -/
theorem col1_apply (X : FVec Ideal S256x2 .f32) (p : Fin 256) :
    extractStridedSlice S256x1 ![0, 1] X slices_S256x2_o0_1_S256x1 (ix2 p (0 : Fin 1)) = X (ix2 p (1 : Fin 2)) :=
  slice2_axis1_apply 1 X slices_S256x2_o0_1_S256x1 p (0 : Fin 1) (1 : Fin 2) rfl

/-- A 256 by 1 column broadcast over 4096 columns reads, at (p, col), the column's entry of row p. -/
theorem bcastCol_apply (v : FVec Ideal S256x1 .f32) (p : Fin 256) (col : Fin 4096) :
    broadcastTo S256x4096 v broadcasts_S256x1_S256x4096 (ix2 p col) = v (ix2 p (0 : Fin 1)) := by
  refine broadcastTo_apply v broadcasts_S256x1_S256x4096 (ix2 p col) (ix2 p (0 : Fin 1)) fun ax => ?_
  match ax with
  | ⟨0, _⟩ => rfl
  | ⟨1, _⟩ => rfl

/-! ## The two payloads at an index -/

/-- The smoothed gate weights of the block's row p: 0.7 of the row's own and 0.3 of the first graph's row times all
    rows' weights. -/
theorem fuse_gw_apply (g1 : FVec Ideal S256x4096 .f32) (g0all : FVec Ideal S4096x2 .f32) (g0row : FVec Ideal S256x2 .f32) (p : Fin 256) (q : Fin 2) :
    (k1_pay1 (F := Ideal) g1 g0all g0row) (ix2 p q)
      = Cert.Spec.c07 * g0row (ix2 p q) + Cert.Spec.c03 * ∑ k : Fin 4096, g1 (ix2 p k) * g0all (ix2 k q) := by
  unfold k1_pay1
  rw [addf_apply, mulf_apply, mulf_apply, broadcast_apply, broadcast_apply, shapeCast_self, shapeCast_self,
    matmul_fuse_apply]
  rfl

/-- The fused block at (p, col): the first graph's entry times the row's first smoothed weight plus the second
    graph's entry times the row's second smoothed weight. -/
theorem fuse_gf_apply (g1 : FVec Ideal S256x4096 .f32) (g0all : FVec Ideal S4096x2 .f32) (g0row : FVec Ideal S256x2 .f32) (g2 : FVec Ideal S256x4096 .f32) (p : Fin 256) (col : Fin 4096) :
    (k1_pay2 (F := Ideal) g1 g0all g0row g2) (ix2 p col)
      = g1 (ix2 p col) * (k1_pay1 (F := Ideal) g1 g0all g0row) (ix2 p (0 : Fin 2)) + g2 (ix2 p col) * (k1_pay1 (F := Ideal) g1 g0all g0row) (ix2 p (1 : Fin 2)) := by
  unfold k1_pay2
  rw [addf_apply, mulf_apply, mulf_apply, bcastCol_apply, bcastCol_apply, col0_apply, col1_apply]

end Cert.KernelIdeal.Hand

end
-- ==== Proof.FuseFinal.lean ====
/-
  From the stripes to the whole arrays, for the fusion of the two graphs.

  The 4096 rows are cut into 16 stripes of 256 rows. At stripe t the body reads rows 256 t to 256 t + 255 of the two
  graphs and of the gate weights, and all 4096 rows of the gate weights; it leaves the same rows of the smoothed gate
  weights and of the fused graph. Row r lies in stripe r / 256, so the sixteen stripes fill both result arrays, and
  each array ends as one function of the arrays the region is entered with: the smoothed gate weights
  0.7 g0 r q + 0.3 sum over k of G1 r k * g0 k q, and the fused graph G1 r col * gw r 0 + G2 r col * gw r 1.
-/
import proofs.«138674_g11373073400015_week1_w4_273_26_alg».proof.Proof.Data1
import proofs.«138674_g11373073400015_week1_w4_273_26_alg».proof.Proof.FuseVal
import proofs.«138674_g11373073400015_week1_w4_273_26_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

theorem fuse_zeros2 : (![0, 0] : Fin 2 → Nat) = fun _ => 0 := funext fun a => by fin_cases a <;> rfl

/-- The block index maps over the sixteen stripes: every striped window is at block (t, 0), the window of all the
    gate weights at block (0, 0). -/
theorem fuse_stripe_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- A stripe's row p is row 256 t + p of the array. -/
theorem fuse_row_lt (t : Fin cfg1.N) (p : Fin 256) : t.val * 256 + p.val < 4096 := by
  have ht : t.val < 16 := lt_of_lt_of_eq t.isLt N_1
  have hp : p.val < 256 := p.isLt
  omega

/-- The row of the array under row p of stripe t. -/
abbrev fuseRow (t : Fin cfg1.N) (p : Fin 256) : Fin 4096 := ⟨t.val * 256 + p.val, fuse_row_lt t p⟩

/-! ## The smoothing and the fusion of one stripe, over any blocks that are the stripe's rows -/

/-- The smoothed gate weights of a stripe's row p, when the blocks are the stripe's rows of the first graph and of the
    gate weights, and all the gate weights. -/
theorem smooth_stripe (G1 : S4096x4096.Idx → EReal) (g0 : S4096x2.Idx → EReal) (r : Fin 256 → Fin 4096)
    (x1 : FVec Ideal S256x4096 .f32) (x3 : FVec Ideal S4096x2 .f32) (x4 : FVec Ideal S256x2 .f32)
    (h1 : ∀ p k, x1 (ix2 p k) = G1 (ix2 (r p) k)) (h3 : ∀ k q, x3 (ix2 k q) = g0 (ix2 k q))
    (h4 : ∀ p q, x4 (ix2 p q) = g0 (ix2 (r p) q)) (p : Fin 256) (q : Fin 2) :
    (k1_pay1 (F := Ideal) x1 x3 x4) (ix2 p q) = Cert.Spec.smooth (Cert.Spec.co2 g0) (Cert.Spec.co2 G1) (r p) q := by
  rw [fuse_gw_apply, h4]
  unfold Cert.Spec.smooth Cert.Spec.co2
  simp only [h1, h3]

/-- The fused graph at a stripe's entry (p, col), when moreover the fourth block is the stripe's rows of the second
    graph. -/
theorem fuse_stripe (G1 G2 : S4096x4096.Idx → EReal) (g0 : S4096x2.Idx → EReal) (r : Fin 256 → Fin 4096)
    (x1 x2 : FVec Ideal S256x4096 .f32) (x3 : FVec Ideal S4096x2 .f32) (x4 : FVec Ideal S256x2 .f32)
    (h1 : ∀ p k, x1 (ix2 p k) = G1 (ix2 (r p) k)) (h2 : ∀ p k, x2 (ix2 p k) = G2 (ix2 (r p) k))
    (h3 : ∀ k q, x3 (ix2 k q) = g0 (ix2 k q)) (h4 : ∀ p q, x4 (ix2 p q) = g0 (ix2 (r p) q)) (p : Fin 256) (col : Fin 4096) :
    (k1_pay2 (F := Ideal) x1 x3 x4 x2) (ix2 p col)
      = Cert.Spec.fuse (Cert.Spec.co2 G1) (Cert.Spec.co2 G2) (Cert.Spec.smooth (Cert.Spec.co2 g0) (Cert.Spec.co2 G1)) (r p) col := by
  rw [fuse_gf_apply, smooth_stripe G1 g0 r x1 x3 x4 h1 h3 h4, smooth_stripe G1 g0 r x1 x3 x4 h1 h3 h4, h1, h2]
  rfl

/-! ## Each input block as rows of its array -/

/-- The first graph's block at stripe t is rows 256 t + p of the first graph. -/
theorem iblk1_0_apply (c : Dev nD) (t : Fin cfg1.N) (p : Fin 256) (k : Fin 4096) :
    (iblk1 (F := Ideal) V c 0 t : Vec Ideal S256x4096 .f32) (ix2 p k) = (V c main_arg1 : S4096x4096.Idx → EReal) (ix2 (fuseRow t p) k) := by
  obtain ⟨e00, e01, -⟩ := fuse_stripe_index t
  show (V c main_arg1 : S4096x4096.Idx → EReal) (((cfg1.win 0).blk t).view.emb (ix2 p k)) = _
  refine congrArg _ ?_
  funext a; apply Fin.ext
  match a with
  | ⟨0, _⟩ => show win1_0.index t (0 : Fin 2) * 256 + 1 * p.val = t.val * 256 + p.val; omega
  | ⟨1, _⟩ => show win1_0.index t (1 : Fin 2) * 4096 + 1 * k.val = k.val; omega

/-- The second graph's block at stripe t is rows 256 t + p of the second graph. -/
theorem iblk1_1_apply (c : Dev nD) (t : Fin cfg1.N) (p : Fin 256) (k : Fin 4096) :
    (iblk1 (F := Ideal) V c 1 t : Vec Ideal S256x4096 .f32) (ix2 p k) = (V c main_arg2 : S4096x4096.Idx → EReal) (ix2 (fuseRow t p) k) := by
  obtain ⟨-, -, e10, e11, -⟩ := fuse_stripe_index t
  show (V c main_arg2 : S4096x4096.Idx → EReal) (((cfg1.win 1).blk t).view.emb (ix2 p k)) = _
  refine congrArg _ ?_
  funext a; apply Fin.ext
  match a with
  | ⟨0, _⟩ => show win1_1.index t (0 : Fin 2) * 256 + 1 * p.val = t.val * 256 + p.val; omega
  | ⟨1, _⟩ => show win1_1.index t (1 : Fin 2) * 4096 + 1 * k.val = k.val; omega

/-- The block of all the gate weights is, at every stripe, all the gate weights. -/
theorem iblk1_2_apply (c : Dev nD) (t : Fin cfg1.N) (k : Fin 4096) (q : Fin 2) :
    (iblk1 (F := Ideal) V c 2 t : Vec Ideal S4096x2 .f32) (ix2 k q) = (V c main_v8 : S4096x2.Idx → EReal) (ix2 k q) := by
  obtain ⟨-, -, -, -, e20, e21, -⟩ := fuse_stripe_index t
  show (V c main_v8 : S4096x2.Idx → EReal) (((cfg1.win 2).blk t).view.emb (ix2 k q)) = _
  refine congrArg _ ?_
  funext a; apply Fin.ext
  match a with
  | ⟨0, _⟩ => show win1_2.index t (0 : Fin 2) * 4096 + 1 * k.val = k.val; omega
  | ⟨1, _⟩ => show win1_2.index t (1 : Fin 2) * 2 + 1 * q.val = q.val; omega

/-- The gate weights' block at stripe t is rows 256 t + p of the gate weights. -/
theorem iblk1_3_apply (c : Dev nD) (t : Fin cfg1.N) (p : Fin 256) (q : Fin 2) :
    (iblk1 (F := Ideal) V c 3 t : Vec Ideal S256x2 .f32) (ix2 p q) = (V c main_v8 : S4096x2.Idx → EReal) (ix2 (fuseRow t p) q) := by
  obtain ⟨-, -, -, -, -, -, e30, e31, -⟩ := fuse_stripe_index t
  show (V c main_v8 : S4096x2.Idx → EReal) (((cfg1.win 3).blk t).view.emb (ix2 p q)) = _
  refine congrArg _ ?_
  funext a; apply Fin.ext
  match a with
  | ⟨0, _⟩ => show win1_3.index t (0 : Fin 2) * 256 + 1 * p.val = t.val * 256 + p.val; omega
  | ⟨1, _⟩ => show win1_3.index t (1 : Fin 2) * 2 + 1 * q.val = q.val; omega

/-! ## The smoothed gate weights: what a stripe writes back, the cover, the array -/

/-- The smoothed gate weights of all 4096 rows, from the arrays the region is entered with. -/
abbrev gwAll (c : Dev nD) : S4096x2.Idx → EReal :=
  Cert.Spec.arr2 (Cert.Spec.smooth (Cert.Spec.co2 (V c main_v8)) (Cert.Spec.co2 (V c main_arg1)))

/-- The fused graph, from the arrays the region is entered with. -/
abbrev gfAll (c : Dev nD) : S4096x4096.Idx → EReal :=
  Cert.Spec.arr2 (Cert.Spec.fuse (Cert.Spec.co2 (V c main_arg1)) (Cert.Spec.co2 (V c main_arg2))
    (Cert.Spec.smooth (Cert.Spec.co2 (V c main_v8)) (Cert.Spec.co2 (V c main_arg1))))

/-- Stripe t writes back rows 256 t to 256 t + 255 of the smoothed gate weights. -/
theorem flushed_gw (c : Dev nD) (t : Fin cfg1.N) :
    (dat1 (F := Ideal) V c).flushed 5 t = ((cfg1.win 5).blk t).view.read (Elt Ideal) (gwAll V c) := by
  show (cfg1.win 5).cut (grid1.coords t) ((dat1 (F := Ideal) V c).after 5 t) = _
  rw [after1_5]
  unfold fuseGw
  rw [View.canon_unit_zero fuse_zeros2]
  simp only [View.ld_unit_zero (S := S256x4096) fuse_zeros2, View.ld_unit_zero (S := S4096x2) fuse_zeros2, View.ld_unit_zero (S := S256x2) fuse_zeros2]
  obtain ⟨-, -, -, -, -, -, -, -, -, -, e50, e51⟩ := fuse_stripe_index t
  funext j
  obtain ⟨p, q, rfl⟩ : ∃ (p : Fin 256) (q : Fin 2), j = ix2 p q := ⟨j 0, j 1, eq_ix2 j⟩
  show (k1_pay1 (F := Ideal) (iblk1 (F := Ideal) V c 0 t) (iblk1 (F := Ideal) V c 2 t) (iblk1 (F := Ideal) V c 3 t)) (ix2 p q)
    = gwAll V c (((cfg1.win 5).blk t).view.emb (ix2 p q))
  rw [smooth_stripe (V c main_arg1) (V c main_v8) (fuseRow t) _ _ _ (iblk1_0_apply V c t) (iblk1_2_apply V c t) (iblk1_3_apply V c t)]
  have hi : ((cfg1.win 5).blk t).view.emb (ix2 p q) = (ix2 (fuseRow t p) q : S4096x2.Idx) := by
    funext a; apply Fin.ext
    match a with
    | ⟨0, _⟩ => show win1_5.index t (0 : Fin 2) * 256 + 1 * p.val = t.val * 256 + p.val; omega
    | ⟨1, _⟩ => show win1_5.index t (1 : Fin 2) * 2 + 1 * q.val = q.val; omega
  rw [hi]
  rfl

/-- An index of the gate-weight array is in stripe t's block iff each coordinate is in the block's range on its axis. -/
theorem mem_stripe_gw (t : Fin cfg1.N) (i : S4096x2.Idx) :
    i ∈ ((cfg1.win 5).blk t).view.set ↔ ∀ a : Fin 2, win1_5.index t a * S256x2.size a ≤ (i a).val ∧ (i a).val < win1_5.index t a * S256x2.size a + S256x2.size a := by
  show i ∈ ((View.whole main_v9_1).slice (win1_5.rect t)).set ↔ _
  rw [View.set_slice_whole, Rect.mem_set_unit]
  exact Iff.rfl

/-- Row r of the smoothed gate weights is written by stripe r / 256. -/
theorem cover_gw (i : S4096x2.Idx) :
    ∃ t : Fin cfg1.N, (cfg1.win 5).flush t = true ∧ i ∈ ((cfg1.win 5).blk t).view.set := by
  have h0 : (i 0).val < 4096 := idx2_lt0 i
  have h1 : (i 1).val < 2 := idx2_lt1 i
  have ht : (i 0).val / 256 < cfg1.N := lt_of_lt_of_eq (by omega) N_1.symm
  obtain ⟨-, -, -, -, -, -, -, -, -, -, e50, e51⟩ := fuse_stripe_index ⟨(i 0).val / 256, ht⟩
  refine ⟨⟨(i 0).val / 256, ht⟩, flush1_5 _, ?_⟩
  rw [mem_stripe_gw]
  intro a
  match a with
  | ⟨0, _⟩ =>
    show win1_5.index ⟨(i 0).val / 256, ht⟩ (0 : Fin 2) * 256 ≤ (i 0).val ∧ (i 0).val < win1_5.index ⟨(i 0).val / 256, ht⟩ (0 : Fin 2) * 256 + 256
    rw [e50]; show (i 0).val / 256 * 256 ≤ (i 0).val ∧ (i 0).val < (i 0).val / 256 * 256 + 256; omega
  | ⟨1, _⟩ =>
    show win1_5.index ⟨(i 0).val / 256, ht⟩ (1 : Fin 2) * 2 ≤ (i 1).val ∧ (i 1).val < win1_5.index ⟨(i 0).val / 256, ht⟩ (1 : Fin 2) * 2 + 2
    rw [e51]; omega

/-- The gate-weight result array ends as the smoothed gate weights of all rows. -/
theorem gw_final (c : Dev nD) :
    (dat1 (F := Ideal) V c).arrAt 5 cfg1.N
      = Cert.Spec.arr2 (Cert.Spec.smooth (Cert.Spec.co2 (V c main_v8)) (Cert.Spec.co2 (V c main_arg1))) :=
  (dat1 (F := Ideal) V c).arrAt_eq_of_cover 5 (gwAll V c) (fun t _ => flushed_gw V c t) cover_gw

/-! ## The fused graph: what a stripe writes back, the cover, the array -/

/-- Stripe t writes back rows 256 t to 256 t + 255 of the fused graph. -/
theorem flushed_gf (c : Dev nD) (t : Fin cfg1.N) :
    (dat1 (F := Ideal) V c).flushed 4 t = ((cfg1.win 4).blk t).view.read (Elt Ideal) (gfAll V c) := by
  show (cfg1.win 4).cut (grid1.coords t) ((dat1 (F := Ideal) V c).after 4 t) = _
  rw [after1_4]
  unfold fuseGf
  rw [View.canon_unit_zero fuse_zeros2]
  simp only [View.ld_unit_zero (S := S256x4096) fuse_zeros2, View.ld_unit_zero (S := S4096x2) fuse_zeros2, View.ld_unit_zero (S := S256x2) fuse_zeros2]
  obtain ⟨-, -, -, -, -, -, -, -, e40, e41, -⟩ := fuse_stripe_index t
  funext j
  obtain ⟨p, col, rfl⟩ : ∃ (p : Fin 256) (col : Fin 4096), j = ix2 p col := ⟨j 0, j 1, eq_ix2 j⟩
  show (k1_pay2 (F := Ideal) (iblk1 (F := Ideal) V c 0 t) (iblk1 (F := Ideal) V c 2 t) (iblk1 (F := Ideal) V c 3 t) (iblk1 (F := Ideal) V c 1 t)) (ix2 p col)
    = gfAll V c (((cfg1.win 4).blk t).view.emb (ix2 p col))
  rw [fuse_stripe (V c main_arg1) (V c main_arg2) (V c main_v8) (fuseRow t) _ _ _ _ (iblk1_0_apply V c t) (iblk1_1_apply V c t)
    (iblk1_2_apply V c t) (iblk1_3_apply V c t)]
  have hi : ((cfg1.win 4).blk t).view.emb (ix2 p col) = (ix2 (fuseRow t p) col : S4096x4096.Idx) := by
    funext a; apply Fin.ext
    match a with
    | ⟨0, _⟩ => show win1_4.index t (0 : Fin 2) * 256 + 1 * p.val = t.val * 256 + p.val; omega
    | ⟨1, _⟩ => show win1_4.index t (1 : Fin 2) * 4096 + 1 * col.val = col.val; omega
  rw [hi]
  rfl

/-- An index of the fused-graph array is in stripe t's block iff each coordinate is in the block's range on its axis. -/
theorem mem_stripe_gf (t : Fin cfg1.N) (i : S4096x4096.Idx) :
    i ∈ ((cfg1.win 4).blk t).view.set ↔ ∀ a : Fin 2, win1_4.index t a * S256x4096.size a ≤ (i a).val ∧ (i a).val < win1_4.index t a * S256x4096.size a + S256x4096.size a := by
  show i ∈ ((View.whole main_v9_0).slice (win1_4.rect t)).set ↔ _
  rw [View.set_slice_whole, Rect.mem_set_unit]
  exact Iff.rfl

/-- Row r of the fused graph is written by stripe r / 256. -/
theorem cover_gf (i : S4096x4096.Idx) :
    ∃ t : Fin cfg1.N, (cfg1.win 4).flush t = true ∧ i ∈ ((cfg1.win 4).blk t).view.set := by
  have h0 : (i 0).val < 4096 := idx2_lt0 i
  have h1 : (i 1).val < 4096 := idx2_lt1 i
  have ht : (i 0).val / 256 < cfg1.N := lt_of_lt_of_eq (by omega) N_1.symm
  obtain ⟨-, -, -, -, -, -, -, -, e40, e41, -⟩ := fuse_stripe_index ⟨(i 0).val / 256, ht⟩
  refine ⟨⟨(i 0).val / 256, ht⟩, flush1_4 _, ?_⟩
  rw [mem_stripe_gf]
  intro a
  match a with
  | ⟨0, _⟩ =>
    show win1_4.index ⟨(i 0).val / 256, ht⟩ (0 : Fin 2) * 256 ≤ (i 0).val ∧ (i 0).val < win1_4.index ⟨(i 0).val / 256, ht⟩ (0 : Fin 2) * 256 + 256
    rw [e40]; show (i 0).val / 256 * 256 ≤ (i 0).val ∧ (i 0).val < (i 0).val / 256 * 256 + 256; omega
  | ⟨1, _⟩ =>
    show win1_4.index ⟨(i 0).val / 256, ht⟩ (1 : Fin 2) * 4096 ≤ (i 1).val ∧ (i 1).val < win1_4.index ⟨(i 0).val / 256, ht⟩ (1 : Fin 2) * 4096 + 4096
    rw [e41]; omega

/-- The fused-graph result array ends as the fusion of the two graphs by the smoothed gate weights. -/
theorem gf_final (c : Dev nD) :
    (dat1 (F := Ideal) V c).arrAt 4 cfg1.N
      = Cert.Spec.arr2 (Cert.Spec.fuse (Cert.Spec.co2 (V c main_arg1)) (Cert.Spec.co2 (V c main_arg2))
          (Cert.Spec.smooth (Cert.Spec.co2 (V c main_v8)) (Cert.Spec.co2 (V c main_arg1)))) :=
  (dat1 (F := Ideal) V c).arrAt_eq_of_cover 4 (gfAll V c) (fun t _ => flushed_gf V c t) cover_gf

end Cert.KernelIdeal.Hand

end
-- ==== Proof.HostPre.lean ====
/-
  The host stretch before the first kernel region, read at an index: two bias rows given a leading unit axis, the last
  weight matrix scaled by the temperature 8, and the last bias scaled by 8, shifted by the expert bias (5, 0) and given a
  leading unit axis.
-/
import proofs.«138674_g11373073400015_week1_w4_273_26_alg».proof.Proof.Gen.KernelIdeal.Regions
import proofs.«138674_g11373073400015_week1_w4_273_26_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)
/-- The first bias row under a leading unit axis: entry (0, j) is entry j of the first bias. -/
theorem pre_v5 (j : Fin 1024) : (Gen.V1 (F := Ideal) m c main_v5) (ix2 (0 : Fin 1) j) = m ((c : Thread nD τ).loc main_arg4) (ix1 j) := by
  have e : (Gen.V1 (F := Ideal) m c main_v5 : S1x1024.Idx → EReal)
      = shapeCast S1x1024 (m ((c : Thread nD τ).loc main_arg4) : S1024.Idx → EReal) shapeCasts_S1024_S1x1024 := by
    dsimp only [Gen.V1, Gen.hostOps0]; after_results; rfl
  rw [e]; exact shapeCast_a_1a_apply _ _ 0 j

/-- The second bias row under a leading unit axis: entry (0, n) is entry n of the second bias. -/
theorem pre_v6 (n : Fin 64) : (Gen.V1 (F := Ideal) m c main_v6) (ix2 (0 : Fin 1) n) = m ((c : Thread nD τ).loc main_arg6) (ix1 n) := by
  have e : (Gen.V1 (F := Ideal) m c main_v6 : S1x64.Idx → EReal)
      = shapeCast S1x64 (m ((c : Thread nD τ).loc main_arg6) : S64.Idx → EReal) shapeCasts_S64_S1x64 := by
    dsimp only [Gen.V1, Gen.hostOps0]; after_results; rfl
  rw [e]; exact shapeCast_a_1a_apply _ _ 0 n

/-- The last weight matrix times the temperature: entry (n, q) is the weight's entry times 8. -/
theorem pre_v1 (n : Fin 64) (q : Fin 2) : (Gen.V1 (F := Ideal) m c main_v1) (ix2 n q) = Cert.Spec.co2 (m ((c : Thread nD τ).loc main_arg7)) n q * Cert.Spec.c8 := by
  have e : (Gen.V1 (F := Ideal) m c main_v1 : S64x2.Idx → EReal)
      = mulf (m ((c : Thread nD τ).loc main_arg7) : S64x2.Idx → EReal)
          (broadcastInDim S64x2 ![] bcast_S_S64x2 (constant (F := Ideal) S_ .f32 0x41000000#32)) := by
    dsimp only [Gen.V1, Gen.hostOps0]; after_results
  rw [e, mulf_apply, broadcastInDim_apply ![] bcast_S_S64x2 _ (ix2 n q) ix0 (fun a => a.elim0), constant_apply]
  rfl

/-- The last bias times the temperature plus the expert bias, under a leading unit axis: entry (0, q) is the bias's
    entry q times 8 plus 5 for q = 0 and plus 0 for q = 1. -/
theorem pre_v7 (q : Fin 2) : (Gen.V1 (F := Ideal) m c main_v7) (ix2 (0 : Fin 1) q) = Cert.Spec.co1 (m ((c : Thread nD τ).loc main_arg8)) q * Cert.Spec.c8 + Cert.Spec.bias q := by
  have e : (Gen.V1 (F := Ideal) m c main_v7 : S1x2.Idx → EReal)
      = shapeCast S1x2 (addf (mulf (m ((c : Thread nD τ).loc main_arg8) : S2.Idx → EReal)
          (broadcastInDim S2 ![] bcast_S_S2 (constant (F := Ideal) S_ .f32 0x41000000#32)))
          (fun i => FloatOps.ofBits (F := Ideal) .f32 (lit0 (S2.rowMajor i))) : S2.Idx → EReal) shapeCasts_S2_S1x2 := by
    dsimp only [Gen.V1, Gen.hostOps0]; after_results; rfl
  rw [e, shapeCast_a_1a_apply _ _ 0 q, addf_apply, mulf_apply, broadcastInDim_apply ![] bcast_S_S2 _ (ix1 q) ix0 (fun a => a.elim0), constant_apply]
  unfold Cert.Spec.co1
  congr 1
  match q with
  | ⟨0, _⟩ => rfl
  | ⟨1, _⟩ => rfl

end Cert.KernelIdeal.Hand

end
-- ==== Proof.Finite.lean ====
/-
  The precondition read back. It says, for each of the nine argument arrays x, that the conjunction over every index i of
  |x i| < +inf is 1, and that the conjunction of the nine is 1. On the extended reals |x| is the larger of x and -x, and the
  f32 word 0x7F800000 is the top element; an extended real whose absolute value is strictly below the top is neither infinity,
  so it is a real number. Hence every entry of every argument array is a real number.
-/
import proofs.«138674_g11373073400015_week1_w4_273_26_alg».proof.Defs
import proofs.«138674_g11373073400015_week1_w4_273_26_alg».proof.Proof.Gen.Pre_finite_inputs
import Idealize.ShloMosaic.Lib.ReduceAll
import Idealize.ShloMosaic.Lib.ValueIdx

noncomputable section

namespace Cert.Hand

open Idealize.ShloMosaic Idealize.SL.Sem

namespace Finite

/-- The f32 word of plus infinity denotes the top of the extended reals. -/
theorem inf_word : Ideal.ofBits .f32 0x7F800000#32 = (⊤ : EReal) := by simp [Ideal.ofBits, Ideal.ieee]

/-- An extended real whose absolute value, the larger of x and -x, lies strictly below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 only when the truth value is true. -/
theorem ofBool_one : ∀ b : Bool, BitVec.ofBool b = 1#1 → b = true := by decide

/-- For an array x of any shape: if the conjunction over all indices of (|x i| < +inf) is 1, every entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) :
    ∃ r : ℝ, x i = (r : EReal) := by
  -- the rank-0 shape has one index
  haveI : Subsingleton Cert.Pre_finite_inputs.S_.Idx := ⟨fun a b => funext fun d => d.elim0⟩
  have h1 := Host.reduce_andi_all _ _ hr hu _ e i
  have h2 : BitVec.ofBool (decide (max (x i) (-(x i)) < Ideal.ofBits .f32 0x7F800000#32)) = 1#1 := h1
  rw [inf_word] at h2
  exact real_of_abs_lt_top _ (of_decide_eq_true (ofBool_one _ h2))

end Finite

open Finite in
/-- The precondition read back: on every device, every entry of each of the nine argument arrays is a real number. -/
theorem finite_of_pre [hP : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
  ∧ (∀ i, ∃ r : ℝ, m ((c.tc : Thread Cert.KernelIdeal.nD Cert.KernelIdeal.τ).loc Cert.KernelIdeal.main_arg1) i = (r : EReal))
  ∧ (∀ i, ∃ r : ℝ, m ((c.tc : Thread Cert.KernelIdeal.nD Cert.KernelIdeal.τ).loc Cert.KernelIdeal.main_arg2) i = (r : EReal))
  ∧ (∀ i, ∃ r : ℝ, m ((c.tc : Thread Cert.KernelIdeal.nD Cert.KernelIdeal.τ).loc Cert.KernelIdeal.main_arg3) i = (r : EReal))
  ∧ (∀ i, ∃ r : ℝ, m ((c.tc : Thread Cert.KernelIdeal.nD Cert.KernelIdeal.τ).loc Cert.KernelIdeal.main_arg4) i = (r : EReal))
  ∧ (∀ i, ∃ r : ℝ, m ((c.tc : Thread Cert.KernelIdeal.nD Cert.KernelIdeal.τ).loc Cert.KernelIdeal.main_arg5) i = (r : EReal))
  ∧ (∀ i, ∃ r : ℝ, m ((c.tc : Thread Cert.KernelIdeal.nD Cert.KernelIdeal.τ).loc Cert.KernelIdeal.main_arg6) i = (r : EReal))
  ∧ (∀ i, ∃ r : ℝ, m ((c.tc : Thread Cert.KernelIdeal.nD Cert.KernelIdeal.τ).loc Cert.KernelIdeal.main_arg7) i = (r : EReal))
  ∧ (∀ i, ∃ r : ℝ, m ((c.tc : Thread Cert.KernelIdeal.nD Cert.KernelIdeal.τ).loc Cert.KernelIdeal.main_arg8) i = (r : EReal)) := by
  have h := congrFun (hpre c) ValueIdx.ix0
  dsimp only [Cert.Pre_finite_inputs.fn, Cert.Pre_finite_inputs.fn_part1, Cert.Pre_finite_inputs.fn_part2] at h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨all_real _ _ _ _ h0, all_real _ _ _ _ h1, all_real _ _ _ _ h2, all_real _ _ _ _ h3, all_real _ _ _ _ h4,
    all_real _ _ _ _ h5, all_real _ _ _ _ h6, all_real _ _ _ _ h7, all_real _ _ _ _ h8⟩

end Cert.Hand

end
-- ==== Proof.Algebra.lean ====
/-
  The algebra of one row of the gating network on the extended reals: the kernel's row, with the normalisation
  folded into the first product's epilogue and the temperature and expert bias folded into the last layer's
  parameters, is the reference's row.

  For a real row x and a real first weight matrix w, with mu the mean, ms the mean square and var the mean of
  the squared deviations, var = ms - mu * mu and var + eps > 0, so the inverse deviation is the real
  (sqrt (var + eps))⁻¹ on both sides and
    (sum_k x_k w_kj) * c - (mu * c) * (sum_k 1 * w_kj) = sum_k ((x_k - mu) * c) * w_kj .
  The two leaky rectifiers differ only at zero, where both return zero. The temperature is a non-negative real,
  and a non-negative real distributes over every sum of extended reals, so the pre-scaled last layer plus the
  shifted bias is the scaled and shifted logit. The softmax is applied to equal logit functions.
-/
import proofs.«138674_g11373073400015_week1_w4_273_26_alg».proof.Proof.Spec
import Idealize.ShloMosaic.PureOps.Ideal
import Mathlib.Data.EReal.Basic
import Mathlib.Data.EReal.Operations
import Mathlib.Algebra.BigOperators.Ring.Finset
import Mathlib.Algebra.Order.BigOperators.Group.Finset
import Mathlib.Analysis.SpecialFunctions.Sqrt

noncomputable section

open scoped BigOperators

namespace Cert.Spec

open Idealize.ShloMosaic

/-! ### The words whose values the algebra needs -/

/-- The row length denotes the real 4096. -/
theorem cN_eq : cN = ((4096 : ℝ) : EReal) := by
  show Ideal.ofBits .f32 0x45800000#32 = _
  simp [Ideal.ofBits, Ideal.ieee, -EReal.coe_mul]; norm_num

/-- The word of one denotes 1. -/
theorem cOne_eq : cOne = 1 := by
  show Ideal.ofBits .f32 0x3F800000#32 = _
  simp [Ideal.ofBits, Ideal.ieee, -EReal.coe_mul]; norm_num

/-- The word of zero denotes 0. -/
theorem cZero_eq : cZero = 0 := by
  show Ideal.ofBits .f32 0x00000000#32 = _
  simp [Ideal.ofBits, Ideal.ieee]

/-- The temperature denotes the real 8. -/
theorem c8_eq : c8 = ((8 : ℝ) : EReal) := by
  show Ideal.ofBits .f32 0x41000000#32 = _
  simp [Ideal.ofBits, Ideal.ieee, -EReal.coe_mul]; norm_num

/-- The variance's guard denotes a positive real. -/
theorem cEps_pos : ∃ e : ℝ, 0 < e ∧ cEps = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul]

/-! ### Finite sums of reals among the extended reals -/

/-- A finite sum of reals, summed among the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A non-negative real distributes over a sum of two extended reals. -/
theorem add_mul_coe_nonneg {c : ℝ} (hc : 0 ≤ c) (a b : EReal) : (a + b) * (c : EReal) = a * c + b * c :=
  EReal.right_distrib_of_nonneg_of_ne_top (EReal.coe_nonneg.mpr hc) (EReal.coe_ne_top c) a b

/-- ... and over every finite sum of extended reals. -/
theorem sum_mul_coe_nonneg {ι : Type} {c : ℝ} (hc : 0 ≤ c) (s : Finset ι) (f : ι → EReal) :
    (∑ i ∈ s, f i) * (c : EReal) = ∑ i ∈ s, f i * c := by
  classical
  induction s using Finset.induction_on with
  | empty => simp
  | insert a s ha ih => rw [Finset.sum_insert ha, Finset.sum_insert ha, add_mul_coe_nonneg hc, ih]

/-! ### The normalisation, on the reals -/

/-- The sum of the squared deviations from any m. -/
theorem sum_sq_dev (x : Fin 4096 → ℝ) (m : ℝ) :
    ∑ k, (x k - m) * (x k - m) = (∑ k, x k * x k) - 2 * m * (∑ k, x k) + 4096 * (m * m) := by
  have h : ∀ k, (x k - m) * (x k - m) = x k * x k - 2 * m * x k + m * m := fun k => by ring
  simp only [h, Finset.sum_add_distrib, Finset.sum_sub_distrib, ← Finset.mul_sum, Finset.sum_const,
    Finset.card_univ, Fintype.card_fin, nsmul_eq_mul]
  push_cast; ring

/-- The mean of the squared deviations from the mean is the mean square less the squared mean. -/
theorem var_eq (x : Fin 4096 → ℝ) :
    (∑ k, (x k - (∑ k, x k) * (1 / 4096)) * (x k - (∑ k, x k) * (1 / 4096))) * (1 / 4096)
      = (∑ k, x k * x k) * (1 / 4096) - ((∑ k, x k) * (1 / 4096)) * ((∑ k, x k) * (1 / 4096)) := by
  rw [sum_sq_dev]; ring

/-- It is not negative. -/
theorem var_nonneg (x : Fin 4096 → ℝ) (m : ℝ) : 0 ≤ (∑ k, (x k - m) * (x k - m)) * (1 / 4096) :=
  mul_nonneg (Finset.sum_nonneg fun k _ => mul_self_nonneg _) (by norm_num)

/-- The folded epilogue: the product of the raw row scaled by c, less the mean scaled by c times the column sum,
    is the product of the centred and scaled row. -/
theorem fold_real (x w : Fin 4096 → ℝ) (m s : ℝ) :
    (∑ k, x k * w k) * s⁻¹ - (m * s⁻¹) * (∑ k, w k) = ∑ k, ((x k - m) * (1 / s)) * w k := by
  rw [Finset.sum_mul, Finset.mul_sum, ← Finset.sum_sub_distrib]
  exact Finset.sum_congr rfl fun k _ => by rw [one_div]; ring

/-! ### The first layer -/

section First
variable (xr : Fin 4096 → ℝ)

theorem kMu_coe : kMu (fun k => (xr k : EReal)) = (((∑ k, xr k) * (1 / 4096) : ℝ) : EReal) := by
  unfold kMu
  rw [cN_eq, Ideal.div_coe (by norm_num), coe_sum, ← EReal.coe_mul]

theorem kMs_coe : kMs (fun k => (xr k : EReal)) = (((∑ k, xr k * xr k) * (1 / 4096) : ℝ) : EReal) := by
  unfold kMs
  simp only [← EReal.coe_mul]
  rw [cN_eq, Ideal.div_coe (by norm_num), coe_sum, ← EReal.coe_mul]

theorem rVar_coe : rVar (fun k => (xr k : EReal))
    = (((∑ k, (xr k - (∑ k, xr k) * (1 / 4096)) * (xr k - (∑ k, xr k) * (1 / 4096))) * (1 / 4096) : ℝ) : EReal) := by
  unfold rVar
  rw [show rMu (fun k => (xr k : EReal)) = _ from kMu_coe xr]
  simp only [← EReal.coe_sub, ← EReal.coe_mul]
  rw [cN_eq, Ideal.div_coe (by norm_num), coe_sum, ← EReal.coe_mul]

/-- The first layer's pre-activation less its bias: the kernel's folded epilogue is the reference's product
    with the normalised row, for a real row and a real weight matrix. -/
theorem first_pre (wr : Fin 4096 → Fin 1024 → ℝ) (j : Fin 1024) :
    (∑ k, (xr k : EReal) * (wr k j : EReal)) * kInv (fun k => (xr k : EReal))
        - (kMu (fun k => (xr k : EReal)) * kInv (fun k => (xr k : EReal))) * colSum (fun k j => (wr k j : EReal)) j
      = ∑ k, rZ (fun k => (xr k : EReal)) k * (wr k j : EReal) := by
  obtain ⟨e, he, hce⟩ := cEps_pos
  have hv : 0 < (∑ k, xr k * xr k) * (1 / 4096) - ((∑ k, xr k) * (1 / 4096)) * ((∑ k, xr k) * (1 / 4096)) + e := by
    rw [← var_eq]; exact add_pos_of_nonneg_of_pos (var_nonneg xr _) he
  have hs : Real.sqrt ((∑ k, xr k * xr k) * (1 / 4096) - ((∑ k, xr k) * (1 / 4096)) * ((∑ k, xr k) * (1 / 4096)) + e) ≠ 0 :=
    (Real.sqrt_pos.mpr hv).ne'
  have hinv : kInv (fun k => (xr k : EReal))
      = (((Real.sqrt ((∑ k, xr k * xr k) * (1 / 4096) - ((∑ k, xr k) * (1 / 4096)) * ((∑ k, xr k) * (1 / 4096)) + e))⁻¹ : ℝ) : EReal) := by
    unfold kInv
    rw [kMs_coe, kMu_coe, hce, ← EReal.coe_mul, ← EReal.coe_sub, ← EReal.coe_add, Ideal.rsqrt_coe,
      if_neg (not_lt.mpr hv.le), if_neg hv.ne']
  have hsq : Ideal.sqrt (rVar (fun k => (xr k : EReal)) + cEps)
      = ((Real.sqrt ((∑ k, xr k * xr k) * (1 / 4096) - ((∑ k, xr k) * (1 / 4096)) * ((∑ k, xr k) * (1 / 4096)) + e) : ℝ) : EReal) := by
    rw [rVar_coe, hce, ← EReal.coe_add, Ideal.sqrt_coe, var_eq, if_neg (not_lt.mpr hv.le)]
  have hz : ∀ k, rZ (fun k => (xr k : EReal)) k
      = (((xr k - (∑ k, xr k) * (1 / 4096))
          * (1 / Real.sqrt ((∑ k, xr k * xr k) * (1 / 4096) - ((∑ k, xr k) * (1 / 4096)) * ((∑ k, xr k) * (1 / 4096)) + e)) : ℝ) : EReal) := by
    intro k
    unfold rZ
    rw [hsq, Ideal.div_coe hs, show rMu (fun k => (xr k : EReal)) = _ from kMu_coe xr, ← EReal.coe_sub, ← EReal.coe_mul]
  have hcs : colSum (fun k j => (wr k j : EReal)) j = ((∑ k, wr k j : ℝ) : EReal) := by
    unfold colSum
    rw [cOne_eq]
    simp only [one_mul]
    rw [coe_sum]
  rw [hinv, kMu_coe, hcs]
  simp only [hz, ← EReal.coe_mul]
  rw [coe_sum, coe_sum, ← EReal.coe_mul, ← EReal.coe_sub, fold_real]

end First

/-- The first layers agree, as functions of the column, for a real row and a real weight matrix. -/
theorem kH1_eq_rH1 (x : Fin 4096 → EReal) (w1 : Fin 4096 → Fin 1024 → EReal) (b1 : Fin 1024 → EReal)
    (hx : ∀ k, ∃ r : ℝ, x k = (r : EReal)) (hw1 : ∀ k j, ∃ r : ℝ, w1 k j = (r : EReal)) :
    kH1 x w1 (colSum w1) b1 = rH1 x w1 b1 := by
  choose xr hxr using hx
  choose wr hwr using hw1
  obtain rfl : x = fun k => (xr k : EReal) := funext hxr
  obtain rfl : w1 = fun k j => (wr k j : EReal) := funext fun k => funext fun j => hwr k j
  funext j
  unfold kH1 rH1
  rw [first_pre xr wr j]

/-! ### The leaky rectifier -/

/-- The two selections differ only at zero, where both give zero. -/
theorem lreluK_eq_lreluR (a : EReal) : lreluK a = lreluR a := by
  unfold lreluK lreluR
  rw [cZero_eq]
  simp only [Scalar.select, Ideal.cmp]
  rcases lt_trichotomy a 0 with h | h | h
  · simp [not_lt.mpr h.le, not_le.mpr h]
  · subst h; simp
  · simp [h, h.le]

/-- The second layers agree once the first do. -/
theorem kH2_eq_rH2 (x : Fin 4096 → EReal) (w1 : Fin 4096 → Fin 1024 → EReal) (b1 : Fin 1024 → EReal)
    (w2 : Fin 1024 → Fin 64 → EReal) (b2 : Fin 64 → EReal)
    (h1 : kH1 x w1 (colSum w1) b1 = rH1 x w1 b1) :
    kH2 x w1 (colSum w1) b1 w2 b2 = rH2 x w1 b1 w2 b2 := by
  funext n
  unfold kH2 rH2
  rw [h1, lreluK_eq_lreluR]

/-! ### The temperature and the expert bias -/

/-- The pre-scaled last layer with the shifted bias is the scaled and shifted logit. -/
theorem temp_fold (h : Fin 64 → EReal) (w3 : Fin 64 → Fin 2 → EReal) (b3 : Fin 2 → EReal) (q : Fin 2) :
    (∑ n, h n * (w3 n q * c8)) + (b3 q * c8 + bias q) = ((∑ n, h n * w3 n q) + b3 q) * c8 + bias q := by
  rw [c8_eq]
  have h8 : (0 : ℝ) ≤ 8 := by norm_num
  rw [add_mul_coe_nonneg h8, sum_mul_coe_nonneg h8, ← add_assoc]
  simp only [mul_assoc]

/-- The logits agree once the second layers do. -/
theorem kLogit_eq_rLogit (x : Fin 4096 → EReal) (w1 : Fin 4096 → Fin 1024 → EReal) (b1 : Fin 1024 → EReal)
    (w2 : Fin 1024 → Fin 64 → EReal) (b2 : Fin 64 → EReal) (w3 : Fin 64 → Fin 2 → EReal) (b3 : Fin 2 → EReal)
    (h2 : kH2 x w1 (colSum w1) b1 w2 b2 = rH2 x w1 b1 w2 b2) :
    kLogit x w1 (colSum w1) b1 w2 b2 (fun n q => w3 n q * c8) (fun q => b3 q * c8 + bias q) = rLogit x w1 b1 w2 b2 w3 b3 := by
  funext q
  unfold kLogit rLogit
  rw [h2]
  exact temp_fold _ w3 b3 q

/-! ### The row -/

theorem kernelRow_eq_refRow (x : Fin 4096 → EReal) (w1 : Fin 4096 → Fin 1024 → EReal) (b1 : Fin 1024 → EReal)
    (w2 : Fin 1024 → Fin 64 → EReal) (b2 : Fin 64 → EReal) (w3 : Fin 64 → Fin 2 → EReal) (b3 : Fin 2 → EReal)
    (hx : ∀ k, ∃ r : ℝ, x k = (r : EReal)) (hw1 : ∀ k j, ∃ r : ℝ, w1 k j = (r : EReal)) (hb1 : ∀ j, ∃ r : ℝ, b1 j = (r : EReal))
    (hw2 : ∀ j n, ∃ r : ℝ, w2 j n = (r : EReal)) (hb2 : ∀ n, ∃ r : ℝ, b2 n = (r : EReal))
    (hw3 : ∀ n q, ∃ r : ℝ, w3 n q = (r : EReal)) (hb3 : ∀ q, ∃ r : ℝ, b3 q = (r : EReal)) (q : Fin 2) :
    kernelRow x w1 b1 w2 b2 (fun n q => w3 n q * c8) (fun q => b3 q * c8 + bias q) q = refRow x w1 b1 w2 b2 w3 b3 q := by
  unfold kernelRow kernelRowC refRow
  rw [kLogit_eq_rLogit x w1 b1 w2 b2 w3 b3 (kH2_eq_rH2 x w1 b1 w2 b2 (kH1_eq_rH1 x w1 b1 hx hw1))]

end Cert.Spec

end
-- ==== Proof.Bridge.lean ====
/-
  The kernel program's two results as the specification spells them: the gate weights the first region leaves are,
  row by row, the kernel's folded spelling over the argument arrays and the pre-scaled last layer the host lines
  computed, which on finite arguments is the reference's spelling; the second region smooths and fuses them.
-/
import proofs.«138674_g11373073400015_week1_w4_273_26_alg».proof.Defs
import proofs.«138674_g11373073400015_week1_w4_273_26_alg».proof.Proof.Run
import proofs.«138674_g11373073400015_week1_w4_273_26_alg».proof.Proof.GateFinal
import proofs.«138674_g11373073400015_week1_w4_273_26_alg».proof.Proof.FuseFinal
import proofs.«138674_g11373073400015_week1_w4_273_26_alg».proof.Proof.HostPre
import proofs.«138674_g11373073400015_week1_w4_273_26_alg».proof.Proof.Finite
import proofs.«138674_g11373073400015_week1_w4_273_26_alg».proof.Proof.Algebra

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- Every entry of every argument array is a real number. -/
abbrev AllReal : Prop :=
    (∀ i, ∃ r : ℝ, m ((c.tc : Thread nD τ).loc main_arg0) i = (r : EReal))
  ∧ (∀ i, ∃ r : ℝ, m ((c.tc : Thread nD τ).loc main_arg1) i = (r : EReal))
  ∧ (∀ i, ∃ r : ℝ, m ((c.tc : Thread nD τ).loc main_arg2) i = (r : EReal))
  ∧ (∀ i, ∃ r : ℝ, m ((c.tc : Thread nD τ).loc main_arg3) i = (r : EReal))
  ∧ (∀ i, ∃ r : ℝ, m ((c.tc : Thread nD τ).loc main_arg4) i = (r : EReal))
  ∧ (∀ i, ∃ r : ℝ, m ((c.tc : Thread nD τ).loc main_arg5) i = (r : EReal))
  ∧ (∀ i, ∃ r : ℝ, m ((c.tc : Thread nD τ).loc main_arg6) i = (r : EReal))
  ∧ (∀ i, ∃ r : ℝ, m ((c.tc : Thread nD τ).loc main_arg7) i = (r : EReal))
  ∧ (∀ i, ∃ r : ℝ, m ((c.tc : Thread nD τ).loc main_arg8) i = (r : EReal))

/-- One row of the first region's result: the folded spelling over what the region was entered with is the
    reference's spelling over the arguments. -/
theorem gate_row (hfin : AllReal m c) (r : Fin 4096) (q : Fin 2) :
    Cert.Spec.kernelRowC (Cert.Spec.co2 (E1 m c main_arg0) r) (Cert.Spec.co2 (E1 m c main_arg3)) (Cert.Spec.colSum (Cert.Spec.co2 (E1 m c main_arg3)))
        (fun j => E1 m c main_v5 (ix2 (0 : Fin 1) j)) (Cert.Spec.co2 (E1 m c main_arg5)) (fun n => E1 m c main_v6 (ix2 (0 : Fin 1) n))
        (Cert.Spec.co2 (E1 m c main_v1)) (fun q => E1 m c main_v7 (ix2 (0 : Fin 1) q)) q
      = Cert.Spec.gateR (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) r q := by
  obtain ⟨h0, -, -, h3, h4, h5, h6, h7, h8⟩ := hfin
  rw [E1_arg0 m c, E1_arg3 m c, E1_arg5 m c]
  have e5 : (fun j => E1 m c main_v5 (ix2 (0 : Fin 1) j)) = Cert.Spec.co1 (m ((c.tc : Thread nD τ).loc main_arg4)) := funext fun j => pre_v5 m c j
  have e6 : (fun n => E1 m c main_v6 (ix2 (0 : Fin 1) n)) = Cert.Spec.co1 (m ((c.tc : Thread nD τ).loc main_arg6)) := funext fun n => pre_v6 m c n
  have e1 : Cert.Spec.co2 (E1 m c main_v1) = fun n q => Cert.Spec.co2 (m ((c.tc : Thread nD τ).loc main_arg7)) n q * Cert.Spec.c8 :=
    funext fun n => funext fun q => pre_v1 m c n q
  have e7 : (fun q => E1 m c main_v7 (ix2 (0 : Fin 1) q)) = fun q => Cert.Spec.co1 (m ((c.tc : Thread nD τ).loc main_arg8)) q * Cert.Spec.c8 + Cert.Spec.bias q :=
    funext fun q => pre_v7 m c q
  rw [e5, e6, e1, e7]
  exact Cert.Spec.kernelRow_eq_refRow _ _ _ _ _ _ _ (fun k => h0 _) (fun k j => h3 _) (fun j => h4 _) (fun j n => h5 _) (fun n => h6 _)
    (fun n q => h7 _) (fun q => h8 _) q

/-- The first region's result, by coordinates, is the reference's gate weights. -/
theorem gate_arr (hfin : AllReal m c) :
    Cert.Spec.co2 (n0 := 4096) (n1 := 2) ((dat0 (F := Ideal) (E1 m) c).arrAt 7 cfg0.N) = Cert.Spec.gateR (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [gate_final (E1 m) c]
  funext r q
  exact gate_row m c hfin r q

/-- The smoothed gate weights as the specification spells them, from the launch memory. -/
def resGw : Buf (Elt Ideal) ((c.tc : Thread nD τ).loc main_v9_1) :=
  Cert.Spec.arr2 (Cert.Spec.smooth (Cert.Spec.gateR (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Spec.co2 (m ((c.tc : Thread nD τ).loc main_arg1))))
/-- The fused graph as the specification spells it, from the launch memory. -/
def resGf : Buf (Elt Ideal) ((c.tc : Thread nD τ).loc main_v9_0) :=
  Cert.Spec.arr2 (Cert.Spec.fuse (Cert.Spec.co2 (m ((c.tc : Thread nD τ).loc main_arg1))) (Cert.Spec.co2 (m ((c.tc : Thread nD τ).loc main_arg2))) (Cert.Spec.smooth (Cert.Spec.gateR (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (Cert.Spec.co2 (m ((c.tc : Thread nD τ).loc main_arg1)))))

/-- The second result: the smoothed gate weights. -/
theorem kernel_gw (hfin : AllReal m c) :
    (dat1 (F := Ideal) (E2 m) c).arrAt 5 cfg1.N = resGw m c := by
  rw [gw_final (E2 m) c, E2_v8 m c, gate_arr m c hfin, E2_arg1 m c]; rfl

/-- The first result: the fused graph. -/
theorem kernel_gf (hfin : AllReal m c) :
    (dat1 (F := Ideal) (E2 m) c).arrAt 4 cfg1.N = resGf m c := by
  rw [gf_final (E2 m) c, E2_v8 m c, gate_arr m c hfin, E2_arg1 m c, E2_arg2 m c]; rfl

end Cert.KernelIdeal.Hand

end
-- ==== Proof.RefTerm.lean ====
/-
  The reference program as three pure terms. Each binding is one operation of the program, in program order, with the
  functions it calls written out where they are called: the gate weights of every row (normalise the row by its mean
  and deviation, three dense layers, a two-way softmax at temperature 8 with the expert bias), their smoothing by the
  first graph, and the fusion of the two graphs with the smoothed weights.
-/
import proofs.«138674_g11373073400015_week1_w4_273_26_alg».proof.ReferenceIdeal
import Idealize.ShloMosaic.PureOps.Ideal

noncomputable section

namespace Cert.ReferenceIdeal.RefTerm

open Idealize.ShloMosaic Cert.ReferenceIdeal

variable [Facts₀]
open Facts₀

/-- The softmax's quotient: the gate weights of every row, from the features and the three layers' parameters. -/
noncomputable def gate (a0 : FVec Ideal S4096x4096 .f32) (a3 : FVec Ideal S4096x1024 .f32) (a4 : FVec Ideal S1024 .f32) (a5 : FVec Ideal S1024x64 .f32) (a6 : FVec Ideal S64 .f32) (a7 : FVec Ideal S64x2 .f32) (a8 : FVec Ideal S2 .f32) : FVec Ideal S4096x2 .f32 :=
  -- the expert bias and the row means
  have cst : FVec Ideal S2 .f32 := fun i => FloatOps.ofBits .f32 (lit0 (S2.rowMajor i))
  have cst_0 : FVec Ideal S_ .f32 := constant S_ .f32 0x00000000#32
  have v0 : FVec Ideal S4096 .f32 := Host.reduceAdd a0 cst_0 reducesTo_S4096x4096_S4096_d1 h_S_
  have v1 : FVec Ideal S4096x1 .f32 := broadcastInDim S4096x1 ![0] bcast_S4096_S4096x1_0 v0
  have cst_1 : FVec Ideal S_ .f32 := constant S_ .f32 0x45800000#32
  have v2 : FVec Ideal S4096x1 .f32 := broadcastInDim S4096x1 ![] bcast_S_S4096x1 cst_1
  have v3 : FVec Ideal S4096x1 .f32 := Host.divf v1 v2
  have c : IVec S_ 32 := constantI S_ 32 0#32
  -- the row variances: the mean of the squared deviations, with the divisor's guard
  have var_cst : FVec Ideal S_ .f32 := constant S_ .f32 0x00000000#32
  have var_v0 : FVec Ideal S4096 .f32 := Host.reduceAdd a0 var_cst reducesTo_S4096x4096_S4096_d1 h_S_
  have var_v1 : FVec Ideal S4096x1 .f32 := broadcastInDim S4096x1 ![0] bcast_S4096_S4096x1_0 var_v0
  have var_cst_0 : FVec Ideal S_ .f32 := constant S_ .f32 0x45800000#32
  have var_v2 : FVec Ideal S4096x1 .f32 := broadcastInDim S4096x1 ![] bcast_S_S4096x1 var_cst_0
  have var_v3 : FVec Ideal S4096x1 .f32 := Host.divf var_v1 var_v2
  have var_v4 : FVec Ideal S4096x4096 .f32 := broadcastInDim S4096x4096 ![0, 1] bcast_S4096x1_S4096x4096_0_1 var_v3
  have var_v5 : FVec Ideal S4096x4096 .f32 := subf a0 var_v4
  have var_v6 : FVec Ideal S4096x4096 .f32 := mulf var_v5 var_v5
  have var_v7 : FVec Ideal S_ .f32 := sitofp .f32 c
  have var_cst_1 : FVec Ideal S_ .f32 := constant S_ .f32 0x45800000#32
  have var_v8 : FVec Ideal S_ .f32 := subf var_cst_1 var_v7
  have var_cst_2 : FVec Ideal S_ .f32 := constant S_ .f32 0x00000000#32
  have var_v9 : FVec Ideal S4096 .f32 := Host.reduceAdd var_v6 var_cst_2 reducesTo_S4096x4096_S4096_d1 h_S_
  have var_v10 : FVec Ideal S4096x1 .f32 := broadcastInDim S4096x1 ![0] bcast_S4096_S4096x1_0 var_v9
  have var_v11 : FVec Ideal S4096x1 .f32 := broadcastInDim S4096x1 ![] bcast_S_S4096x1 var_v8
  have var_v12 : FVec Ideal S4096x1 .f32 := Host.divf var_v10 var_v11
  have var_cst_3 : FVec Ideal S_ .f32 := constant S_ .f32 0x00000000#32
  have var_v13 : IVec S_ 1 := cmpf .ogt var_v8 var_cst_3
  have var_cst_4 : FVec Ideal S_ .f32 := constant S_ .f32 0x7FC00000#32
  have wh_v0 : FVec Ideal S_ .f32 := id var_cst_4
  have wh_v1 : FVec Ideal S4096x1 .f32 := broadcastInDim S4096x1 ![] bcast_S_S4096x1 wh_v0
  have v4 : FVec Ideal S4096x1 .f32 := (fun p a b => select (broadcastInDim S4096x1 ![] bcast_S_S4096x1 p) a b) var_v13 var_v12 wh_v1
  -- the normalised rows
  have v5 : FVec Ideal S4096x4096 .f32 := broadcastInDim S4096x4096 ![0, 1] bcast_S4096x1_S4096x4096_0_1 v3
  have v6 : FVec Ideal S4096x4096 .f32 := subf a0 v5
  have cst_2 : FVec Ideal S_ .f32 := constant S_ .f32 0x3727C5AC#32
  have v7 : FVec Ideal S4096x1 .f32 := broadcastInDim S4096x1 ![] bcast_S_S4096x1 cst_2
  have v8 : FVec Ideal S4096x1 .f32 := addf v4 v7
  have v9 : FVec Ideal S4096x1 .f32 := Host.sqrt v8
  have v10 : FVec Ideal S4096x4096 .f32 := broadcastInDim S4096x4096 ![0, 1] bcast_S4096x1_S4096x4096_0_1 v9
  have v11 : FVec Ideal S4096x4096 .f32 := Host.divf v6 v10
  -- the first layer and its rectifier
  have v12 : FVec Ideal S4096x1024 .f32 := (fun l r => Host.dotGeneral dot_S4096x4096_S4096x1024_S4096x1024_1_0_0_1_n_n none l r) v11 a3
  have v13 : FVec Ideal S1x1024 .f32 := broadcastInDim S1x1024 ![1] bcast_S1024_S1x1024_1 a4
  have v14 : FVec Ideal S4096x1024 .f32 := broadcastInDim S4096x1024 ![0, 1] bcast_S1x1024_S4096x1024_0_1 v13
  have v15 : FVec Ideal S4096x1024 .f32 := addf v12 v14
  have relu_cst : FVec Ideal S_ .f32 := constant S_ .f32 0x00000000#32
  have relu_v0 : FVec Ideal S4096x1024 .f32 := broadcastInDim S4096x1024 ![] bcast_S_S4096x1024 relu_cst
  have v16 : FVec Ideal S4096x1024 .f32 := maximumf v15 relu_v0
  -- the second layer and its leaky rectifier
  have v17 : FVec Ideal S4096x64 .f32 := (fun l r => Host.dotGeneral dot_S4096x1024_S1024x64_S4096x64_1_0_0_1_n_n none l r) v16 a5
  have v18 : FVec Ideal S1x64 .f32 := broadcastInDim S1x64 ![1] bcast_S64_S1x64_1 a6
  have v19 : FVec Ideal S4096x64 .f32 := broadcastInDim S4096x64 ![0, 1] bcast_S1x64_S4096x64_0_1 v18
  have v20 : FVec Ideal S4096x64 .f32 := addf v17 v19
  have cst_3 : FVec Ideal S_ .f32 := constant S_ .f32 0x3C23D70A#32
  have lr_cst : FVec Ideal S_ .f32 := constant S_ .f32 0x00000000#32
  have lr_v0 : FVec Ideal S4096x64 .f32 := broadcastInDim S4096x64 ![] bcast_S_S4096x64 lr_cst
  have lr_v1 : IVec S4096x64 1 := cmpf .oge v20 lr_v0
  have lr_v2 : FVec Ideal S_ .f32 := id cst_3
  have lr_v3 : FVec Ideal S4096x64 .f32 := broadcastInDim S4096x64 ![] bcast_S_S4096x64 lr_v2
  have lr_v4 : FVec Ideal S4096x64 .f32 := mulf lr_v3 v20
  have v21 : FVec Ideal S4096x64 .f32 := select lr_v1 v20 lr_v4
  -- the logits, scaled by the temperature and shifted by the expert bias
  have v22 : FVec Ideal S4096x2 .f32 := (fun l r => Host.dotGeneral dot_S4096x64_S64x2_S4096x2_1_0_0_1_n_n none l r) v21 a7
  have v23 : FVec Ideal S1x2 .f32 := broadcastInDim S1x2 ![1] bcast_S2_S1x2_1 a8
  have v24 : FVec Ideal S4096x2 .f32 := broadcastInDim S4096x2 ![0, 1] bcast_S1x2_S4096x2_0_1 v23
  have v25 : FVec Ideal S4096x2 .f32 := addf v22 v24
  have cst_4 : FVec Ideal S_ .f32 := constant S_ .f32 0x41000000#32
  have v26 : FVec Ideal S4096x2 .f32 := broadcastInDim S4096x2 ![] bcast_S_S4096x2 cst_4
  have v27 : FVec Ideal S4096x2 .f32 := mulf v25 v26
  have v28 : FVec Ideal S1x2 .f32 := broadcastInDim S1x2 ![1] bcast_S2_S1x2_1 cst
  have v29 : FVec Ideal S4096x2 .f32 := broadcastInDim S4096x2 ![0, 1] bcast_S1x2_S4096x2_0_1 v28
  have v30 : FVec Ideal S4096x2 .f32 := addf v27 v29
  -- the softmax: shift by the row maximum, exponentiate, divide by the row sum
  have cst_5 : FVec Ideal S_ .f32 := constant S_ .f32 0xFF800000#32
  have v31 : FVec Ideal S4096 .f32 := Host.reduce FloatOps.maximumf v30 cst_5 reducesTo_S4096x2_S4096_d1 h_S_
  have cst_6 : FVec Ideal S_ .f32 := constant S_ .f32 0xFF800000#32
  have v32 : FVec Ideal S4096 .f32 := broadcastInDim S4096 ![] bcast_S_S4096 cst_6
  have v33 : FVec Ideal S4096 .f32 := maximumf v32 v31
  have v34 : FVec Ideal S4096x1 .f32 := broadcastInDim S4096x1 ![0] bcast_S4096_S4096x1_0 v33
  have v35 : FVec Ideal S4096x2 .f32 := broadcastInDim S4096x2 ![0, 1] bcast_S4096x1_S4096x2_0_1 v34
  have v36 : FVec Ideal S4096x2 .f32 := subf v30 v35
  have v37 : FVec Ideal S4096x2 .f32 := Host.exp v36
  have cst_7 : FVec Ideal S_ .f32 := constant S_ .f32 0x00000000#32
  have v38 : FVec Ideal S4096 .f32 := Host.reduceAdd v37 cst_7 reducesTo_S4096x2_S4096_d1 h_S_
  have v39 : FVec Ideal S4096x1 .f32 := broadcastInDim S4096x1 ![0] bcast_S4096_S4096x1_0 v38
  have v40 : FVec Ideal S4096x2 .f32 := broadcastInDim S4096x2 ![0, 1] bcast_S4096x1_S4096x2_0_1 v39
  have v41 : FVec Ideal S4096x2 .f32 := Host.divf v37 v40
  v41

/-- The gate weights smoothed by the first graph: 0.7 of a row's own and 0.3 of the graph's product with all rows'. -/
noncomputable def gw (a1 : FVec Ideal S4096x4096 .f32) (g : FVec Ideal S4096x2 .f32) : FVec Ideal S4096x2 .f32 :=
  have cst_8 : FVec Ideal S_ .f32 := constant S_ .f32 0x3F333333#32
  have v42 : FVec Ideal S4096x2 .f32 := broadcastInDim S4096x2 ![] bcast_S_S4096x2 cst_8
  have v43 : FVec Ideal S4096x2 .f32 := mulf v42 g
  have v44 : FVec Ideal S4096x2 .f32 := (fun l r => Host.dotGeneral dot_S4096x4096_S4096x2_S4096x2_1_0_0_1_n_n none l r) a1 g
  have cst_9 : FVec Ideal S_ .f32 := constant S_ .f32 0x3E99999A#32
  have v45 : FVec Ideal S4096x2 .f32 := broadcastInDim S4096x2 ![] bcast_S_S4096x2 cst_9
  have v46 : FVec Ideal S4096x2 .f32 := mulf v45 v44
  have v47 : FVec Ideal S4096x2 .f32 := addf v43 v46
  v47

/-- The two graphs fused entry by entry: stacked along a last axis of length two, weighted by the row's two smoothed
    gate weights, and summed over that axis. -/
noncomputable def gf (a1 a2 : FVec Ideal S4096x4096 .f32) (w : FVec Ideal S4096x2 .f32) : FVec Ideal S4096x4096 .f32 :=
  have v48 : FVec Ideal S4096x4096x1 .f32 := broadcastInDim S4096x4096x1 ![0, 1] bcast_S4096x4096_S4096x4096x1_0_1 a1
  have v49 : FVec Ideal S4096x4096x1 .f32 := broadcastInDim S4096x4096x1 ![0, 1] bcast_S4096x4096_S4096x4096x1_0_1 a2
  have v50 : FVec Ideal S4096x4096x2 .f32 := (fun a b => concatenate S4096x4096x2 2 [⟨S4096x4096x1, a⟩, ⟨S4096x4096x1, b⟩] concatenates_S4096x4096x1_S4096x4096x1_S4096x4096x2_d2) v48 v49
  have v51 : FVec Ideal S4096x1x2 .f32 := broadcastInDim S4096x1x2 ![0, 2] bcast_S4096x2_S4096x1x2_0_2 w
  have v52 : FVec Ideal S4096x4096x2 .f32 := broadcastInDim S4096x4096x2 ![0, 1, 2] bcast_S4096x1x2_S4096x4096x2_0_1_2 v51
  have v53 : FVec Ideal S4096x4096x2 .f32 := mulf v50 v52
  have cst_10 : FVec Ideal S_ .f32 := constant S_ .f32 0x00000000#32
  have v54 : FVec Ideal S4096x4096 .f32 := Host.reduceAdd v53 cst_10 reducesTo_S4096x4096x2_S4096x4096_d2 h_S_
  v54

end Cert.ReferenceIdeal.RefTerm

end
-- ==== Proof.RefRun.lean ====
/-
  The run of the reference program. Its statements, the outlined functions' written where they are called, are one
  straight line of tensor operations: the line that computes the gate weights of every row, the line that smooths
  them by the first graph, and the line that fuses the two graphs. Every weakly fair execution ends with each
  result buffer at the composed term of the arguments' launch contents, and the arguments unchanged.
-/
import proofs.«138674_g11373073400015_week1_w4_273_26_alg».proof.ReferenceIdeal
import proofs.«138674_g11373073400015_week1_w4_273_26_alg».proof.Proof.Gen.ReferenceIdeal
import Idealize.ShloMosaic.Lib.StableHlo.Run
import proofs.«138674_g11373073400015_week1_w4_273_26_alg».proof.Proof.RefTerm

noncomputable section

namespace Cert.ReferenceIdeal.RefRun

open Idealize.ShloMosaic Idealize.ShloMosaic.TcCoe Idealize.SL.Sem Cert.ReferenceIdeal

variable {F : FTy → Type} [FloatOps F] [hR : Facts]
open Facts₀ Facts
/-- The operations that compute the gate weights, in order: the row means, the row variances with the divisor's guard, the normalised rows, the three dense layers with their rectifiers, the two-way softmax. -/
abbrev opsG : List (HloOp τ sig (Elt F)) :=
  [ StableHlo.nullary main_cst (fun i => FloatOps.ofBits .f32 (lit0 (S2.rowMajor i))),
    StableHlo.nullary main_cst_0 (constant S_ .f32 0x00000000#32),
    StableHlo.binary main_arg0 main_cst_0 main_v0 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v0 main_v1 (broadcastInDim S4096x1 ![0] bcast_S4096_S4096x1_0 : (⟨S4096, .f32⟩ : BufTy).Contents (Elt F) → (⟨S4096x1, .f32⟩ : BufTy).Contents (Elt F)),
    StableHlo.nullary main_cst_1 (constant S_ .f32 0x45800000#32),
    StableHlo.unary main_cst_1 main_v2 (broadcastInDim S4096x1 ![] bcast_S_S4096x1 : (⟨S_, .f32⟩ : BufTy).Contents (Elt F) → (⟨S4096x1, .f32⟩ : BufTy).Contents (Elt F)),
    StableHlo.binary main_v1 main_v2 main_v3 (Host.divf : (⟨S4096x1, .f32⟩ : BufTy).Contents (Elt F) → (⟨S4096x1, .f32⟩ : BufTy).Contents (Elt F) → (⟨S4096x1, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S4096x4096, .f32⟩) main_call0.cst main_call0.v0 (fun x v => Host.reduceAdd x v reducesTo_S4096x4096_S4096_d1 h_S_),
    StableHlo.TRef.unary main_call0.v0 main_call0.v1 (broadcastInDim S4096x1 ![0] bcast_S4096_S4096x1_0),
    StableHlo.TRef.nullary main_call0.cst_0 (constant S_ .f32 0x45800000#32),
    StableHlo.TRef.unary main_call0.cst_0 main_call0.v2 (broadcastInDim S4096x1 ![] bcast_S_S4096x1),
    StableHlo.TRef.binary main_call0.v1 main_call0.v2 main_call0.v3 Host.divf,
    StableHlo.TRef.unary main_call0.v3 main_call0.v4 (broadcastInDim S4096x4096 ![0, 1] bcast_S4096x1_S4096x4096_0_1),
    StableHlo.TRef.binary (.of main_arg0 : StableHlo.TRef sig ⟨S4096x4096, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4096x4096_S4096_d1 h_S_),
    StableHlo.TRef.unary main_call0.v9 main_call0.v10 (broadcastInDim S4096x1 ![0] bcast_S4096_S4096x1_0),
    StableHlo.TRef.unary main_call0.v8 main_call0.v11 (broadcastInDim S4096x1 ![] bcast_S_S4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4096x1 ![] bcast_S_S4096x1),
    StableHlo.TRef.ternary main_call0.v13 main_call0.v12 main_call0.call0.v1 main_call0.call0.v2 (fun p a b => select (broadcastInDim S4096x1 ![] bcast_S_S4096x1 p) a b),
    StableHlo.unary main_v3 main_v5 (broadcastInDim S4096x4096 ![0, 1] bcast_S4096x1_S4096x4096_0_1 : (⟨S4096x1, .f32⟩ : BufTy).Contents (Elt F) → (⟨S4096x4096, .f32⟩ : BufTy).Contents (Elt F)),
    StableHlo.binary main_arg0 main_v5 main_v6 (subf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x3727C5AC#32),
    StableHlo.unary main_cst_2 main_v7 (broadcastInDim S4096x1 ![] bcast_S_S4096x1 : (⟨S_, .f32⟩ : BufTy).Contents (Elt F) → (⟨S4096x1, .f32⟩ : BufTy).Contents (Elt F)),
    StableHlo.binary main_v4 main_v7 main_v8 (addf : (⟨S4096x1, .f32⟩ : BufTy).Contents (Elt F) → (⟨S4096x1, .f32⟩ : BufTy).Contents (Elt F) → (⟨S4096x1, .f32⟩ : BufTy).Contents (Elt F)),
    StableHlo.unary main_v8 main_v9 (Host.sqrt : (⟨S4096x1, .f32⟩ : BufTy).Contents (Elt F) → (⟨S4096x1, .f32⟩ : BufTy).Contents (Elt F)),
    StableHlo.unary main_v9 main_v10 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v6 main_v10 main_v11 (Host.divf : (⟨S4096x4096, .f32⟩ : BufTy).Contents (Elt F) → (⟨S4096x4096, .f32⟩ : BufTy).Contents (Elt F) → (⟨S4096x4096, .f32⟩ : BufTy).Contents (Elt F)),
    StableHlo.binary main_v11 main_arg3 main_v12 ((fun l r => Host.dotGeneral dot_S4096x4096_S4096x1024_S4096x1024_1_0_0_1_n_n none l r) : (⟨S4096x4096, .f32⟩ : BufTy).Contents (Elt F) → (⟨S4096x1024, .f32⟩ : BufTy).Contents (Elt F) → (⟨S4096x1024, .f32⟩ : BufTy).Contents (Elt F)),
    StableHlo.unary main_arg4 main_v13 (broadcastInDim S1x1024 ![1] bcast_S1024_S1x1024_1 : (⟨S1024, .f32⟩ : BufTy).Contents (Elt F) → (⟨S1x1024, .f32⟩ : BufTy).Contents (Elt F)),
    StableHlo.unary main_v13 main_v14 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v12 main_v14 main_v15 (addf : (⟨S4096x1024, .f32⟩ : BufTy).Contents (Elt F) → (⟨S4096x1024, .f32⟩ : BufTy).Contents (Elt F) → (⟨S4096x1024, .f32⟩ : BufTy).Contents (Elt F)),
    StableHlo.TRef.nullary main_call1.cst (constant S_ .f32 0x00000000#32),
    StableHlo.TRef.unary main_call1.cst main_call1.v0 (broadcastInDim S4096x1024 ![] bcast_S_S4096x1024),
    StableHlo.TRef.binary (.of main_v15 : StableHlo.TRef sig ⟨S4096x1024, .f32⟩) main_call1.v0 main_call1.v1 maximumf,
    StableHlo.binary main_v16 main_arg5 main_v17 ((fun l r => Host.dotGeneral dot_S4096x1024_S1024x64_S4096x64_1_0_0_1_n_n none l r) : (⟨S4096x1024, .f32⟩ : BufTy).Contents (Elt F) → (⟨S1024x64, .f32⟩ : BufTy).Contents (Elt F) → (⟨S4096x64, .f32⟩ : BufTy).Contents (Elt F)),
    StableHlo.unary main_arg6 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S4096x64 ![0, 1] bcast_S1x64_S4096x64_0_1 : (⟨S1x64, .f32⟩ : BufTy).Contents (Elt F) → (⟨S4096x64, .f32⟩ : BufTy).Contents (Elt F)),
    StableHlo.binary main_v17 main_v19 main_v20 (addf : (⟨S4096x64, .f32⟩ : BufTy).Contents (Elt F) → (⟨S4096x64, .f32⟩ : BufTy).Contents (Elt F) → (⟨S4096x64, .f32⟩ : BufTy).Contents (Elt F)),
    StableHlo.nullary main_cst_3 (constant S_ .f32 0x3C23D70A#32),
    StableHlo.TRef.nullary main_call2.cst (constant S_ .f32 0x00000000#32),
    StableHlo.TRef.unary main_call2.cst main_call2.v0 (broadcastInDim S4096x64 ![] bcast_S_S4096x64),
    StableHlo.TRef.binary (.of main_v20 : StableHlo.TRef sig ⟨S4096x64, .f32⟩) main_call2.v0 main_call2.v1 (cmpf .oge),
    StableHlo.TRef.unary (.of main_cst_3 : StableHlo.TRef sig ⟨S_, .f32⟩) main_call2.v2 id,
    StableHlo.TRef.unary main_call2.v2 main_call2.v3 (broadcastInDim S4096x64 ![] bcast_S_S4096x64),
    StableHlo.TRef.binary main_call2.v3 (.of main_v20 : StableHlo.TRef sig ⟨S4096x64, .f32⟩) main_call2.v4 mulf,
    StableHlo.TRef.ternary main_call2.v1 (.of main_v20 : StableHlo.TRef sig ⟨S4096x64, .f32⟩) main_call2.v4 main_call2.call0.v0 select,
    StableHlo.binary main_v21 main_arg7 main_v22 ((fun l r => Host.dotGeneral dot_S4096x64_S64x2_S4096x2_1_0_0_1_n_n none l r) : (⟨S4096x64, .f32⟩ : BufTy).Contents (Elt F) → (⟨S64x2, .f32⟩ : BufTy).Contents (Elt F) → (⟨S4096x2, .f32⟩ : BufTy).Contents (Elt F)),
    StableHlo.unary main_arg8 main_v23 (broadcastInDim S1x2 ![1] bcast_S2_S1x2_1 : (⟨S2, .f32⟩ : BufTy).Contents (Elt F) → (⟨S1x2, .f32⟩ : BufTy).Contents (Elt F)),
    StableHlo.unary main_v23 main_v24 (broadcastInDim S4096x2 ![0, 1] bcast_S1x2_S4096x2_0_1 : (⟨S1x2, .f32⟩ : BufTy).Contents (Elt F) → (⟨S4096x2, .f32⟩ : BufTy).Contents (Elt F)),
    StableHlo.binary main_v22 main_v24 main_v25 (addf : (⟨S4096x2, .f32⟩ : BufTy).Contents (Elt F) → (⟨S4096x2, .f32⟩ : BufTy).Contents (Elt F) → (⟨S4096x2, .f32⟩ : BufTy).Contents (Elt F)),
    StableHlo.nullary main_cst_4 (constant S_ .f32 0x41000000#32),
    StableHlo.unary main_cst_4 main_v26 (broadcastInDim S4096x2 ![] bcast_S_S4096x2 : (⟨S_, .f32⟩ : BufTy).Contents (Elt F) → (⟨S4096x2, .f32⟩ : BufTy).Contents (Elt F)),
    StableHlo.binary main_v25 main_v26 main_v27 (mulf : (⟨S4096x2, .f32⟩ : BufTy).Contents (Elt F) → (⟨S4096x2, .f32⟩ : BufTy).Contents (Elt F) → (⟨S4096x2, .f32⟩ : BufTy).Contents (Elt F)),
    StableHlo.unary main_cst main_v28 (broadcastInDim S1x2 ![1] bcast_S2_S1x2_1 : (⟨S2, .f32⟩ : BufTy).Contents (Elt F) → (⟨S1x2, .f32⟩ : BufTy).Contents (Elt F)),
    StableHlo.unary main_v28 main_v29 (broadcastInDim S4096x2 ![0, 1] bcast_S1x2_S4096x2_0_1 : (⟨S1x2, .f32⟩ : BufTy).Contents (Elt F) → (⟨S4096x2, .f32⟩ : BufTy).Contents (Elt F)),
    StableHlo.binary main_v27 main_v29 main_v30 (addf : (⟨S4096x2, .f32⟩ : BufTy).Contents (Elt F) → (⟨S4096x2, .f32⟩ : BufTy).Contents (Elt F) → (⟨S4096x2, .f32⟩ : BufTy).Contents (Elt F)),
    StableHlo.nullary main_cst_5 (constant S_ .f32 0xFF800000#32),
    StableHlo.binary main_v30 main_cst_5 main_v31 ((fun x v => Host.reduce FloatOps.maximumf x v reducesTo_S4096x2_S4096_d1 h_S_) : (⟨S4096x2, .f32⟩ : BufTy).Contents (Elt F) → (⟨S_, .f32⟩ : BufTy).Contents (Elt F) → (⟨S4096, .f32⟩ : BufTy).Contents (Elt F)),
    StableHlo.nullary main_cst_6 (constant S_ .f32 0xFF800000#32),
    StableHlo.unary main_cst_6 main_v32 (broadcastInDim S4096 ![] bcast_S_S4096 : (⟨S_, .f32⟩ : BufTy).Contents (Elt F) → (⟨S4096, .f32⟩ : BufTy).Contents (Elt F)),
    StableHlo.binary main_v32 main_v31 main_v33 (maximumf : (⟨S4096, .f32⟩ : BufTy).Contents (Elt F) → (⟨S4096, .f32⟩ : BufTy).Contents (Elt F) → (⟨S4096, .f32⟩ : BufTy).Contents (Elt F)),
    StableHlo.unary main_v33 main_v34 (broadcastInDim S4096x1 ![0] bcast_S4096_S4096x1_0 : (⟨S4096, .f32⟩ : BufTy).Contents (Elt F) → (⟨S4096x1, .f32⟩ : BufTy).Contents (Elt F)),
    StableHlo.unary main_v34 main_v35 (broadcastInDim S4096x2 ![0, 1] bcast_S4096x1_S4096x2_0_1 : (⟨S4096x1, .f32⟩ : BufTy).Contents (Elt F) → (⟨S4096x2, .f32⟩ : BufTy).Contents (Elt F)),
    StableHlo.binary main_v30 main_v35 main_v36 (subf : (⟨S4096x2, .f32⟩ : BufTy).Contents (Elt F) → (⟨S4096x2, .f32⟩ : BufTy).Contents (Elt F) → (⟨S4096x2, .f32⟩ : BufTy).Contents (Elt F)),
    StableHlo.unary main_v36 main_v37 (Host.exp : (⟨S4096x2, .f32⟩ : BufTy).Contents (Elt F) → (⟨S4096x2, .f32⟩ : BufTy).Contents (Elt F)),
    StableHlo.nullary main_cst_7 (constant S_ .f32 0x00000000#32),
    StableHlo.binary main_v37 main_cst_7 main_v38 ((fun x v => Host.reduceAdd x v reducesTo_S4096x2_S4096_d1 h_S_) : (⟨S4096x2, .f32⟩ : BufTy).Contents (Elt F) → (⟨S_, .f32⟩ : BufTy).Contents (Elt F) → (⟨S4096, .f32⟩ : BufTy).Contents (Elt F)),
    StableHlo.unary main_v38 main_v39 (broadcastInDim S4096x1 ![0] bcast_S4096_S4096x1_0 : (⟨S4096, .f32⟩ : BufTy).Contents (Elt F) → (⟨S4096x1, .f32⟩ : BufTy).Contents (Elt F)),
    StableHlo.unary main_v39 main_v40 (broadcastInDim S4096x2 ![0, 1] bcast_S4096x1_S4096x2_0_1 : (⟨S4096x1, .f32⟩ : BufTy).Contents (Elt F) → (⟨S4096x2, .f32⟩ : BufTy).Contents (Elt F)),
    StableHlo.binary main_v37 main_v40 main_v41 (Host.divf : (⟨S4096x2, .f32⟩ : BufTy).Contents (Elt F) → (⟨S4096x2, .f32⟩ : BufTy).Contents (Elt F) → (⟨S4096x2, .f32⟩ : BufTy).Contents (Elt F)) ]

/-- The operations that smooth the gate weights by the first graph. -/
abbrev opsW : List (HloOp τ sig (Elt F)) :=
  [ StableHlo.nullary main_cst_8 (constant S_ .f32 0x3F333333#32),
    StableHlo.unary main_cst_8 main_v42 (broadcastInDim S4096x2 ![] bcast_S_S4096x2 : (⟨S_, .f32⟩ : BufTy).Contents (Elt F) → (⟨S4096x2, .f32⟩ : BufTy).Contents (Elt F)),
    StableHlo.binary main_v42 main_v41 main_v43 (mulf : (⟨S4096x2, .f32⟩ : BufTy).Contents (Elt F) → (⟨S4096x2, .f32⟩ : BufTy).Contents (Elt F) → (⟨S4096x2, .f32⟩ : BufTy).Contents (Elt F)),
    StableHlo.binary main_arg1 main_v41 main_v44 ((fun l r => Host.dotGeneral dot_S4096x4096_S4096x2_S4096x2_1_0_0_1_n_n none l r) : (⟨S4096x4096, .f32⟩ : BufTy).Contents (Elt F) → (⟨S4096x2, .f32⟩ : BufTy).Contents (Elt F) → (⟨S4096x2, .f32⟩ : BufTy).Contents (Elt F)),
    StableHlo.nullary main_cst_9 (constant S_ .f32 0x3E99999A#32),
    StableHlo.unary main_cst_9 main_v45 (broadcastInDim S4096x2 ![] bcast_S_S4096x2 : (⟨S_, .f32⟩ : BufTy).Contents (Elt F) → (⟨S4096x2, .f32⟩ : BufTy).Contents (Elt F)),
    StableHlo.binary main_v45 main_v44 main_v46 (mulf : (⟨S4096x2, .f32⟩ : BufTy).Contents (Elt F) → (⟨S4096x2, .f32⟩ : BufTy).Contents (Elt F) → (⟨S4096x2, .f32⟩ : BufTy).Contents (Elt F)),
    StableHlo.binary main_v43 main_v46 main_v47 (addf : (⟨S4096x2, .f32⟩ : BufTy).Contents (Elt F) → (⟨S4096x2, .f32⟩ : BufTy).Contents (Elt F) → (⟨S4096x2, .f32⟩ : BufTy).Contents (Elt F)) ]

/-- The operations that fuse the two graphs with the smoothed weights. -/
abbrev opsF : List (HloOp τ sig (Elt F)) :=
  [ StableHlo.unary main_arg1 main_v48 (broadcastInDim S4096x4096x1 ![0, 1] bcast_S4096x4096_S4096x4096x1_0_1 : (⟨S4096x4096, .f32⟩ : BufTy).Contents (Elt F) → (⟨S4096x4096x1, .f32⟩ : BufTy).Contents (Elt F)),
    StableHlo.unary main_arg2 main_v49 (broadcastInDim S4096x4096x1 ![0, 1] bcast_S4096x4096_S4096x4096x1_0_1 : (⟨S4096x4096, .f32⟩ : BufTy).Contents (Elt F) → (⟨S4096x4096x1, .f32⟩ : BufTy).Contents (Elt F)),
    StableHlo.binary main_v48 main_v49 main_v50 ((fun a b => concatenate S4096x4096x2 2 [⟨S4096x4096x1, a⟩, ⟨S4096x4096x1, b⟩] concatenates_S4096x4096x1_S4096x4096x1_S4096x4096x2_d2) : (⟨S4096x4096x1, .f32⟩ : BufTy).Contents (Elt F) → (⟨S4096x4096x1, .f32⟩ : BufTy).Contents (Elt F) → (⟨S4096x4096x2, .f32⟩ : BufTy).Contents (Elt F)),
    StableHlo.unary main_v47 main_v51 (broadcastInDim S4096x1x2 ![0, 2] bcast_S4096x2_S4096x1x2_0_2 : (⟨S4096x2, .f32⟩ : BufTy).Contents (Elt F) → (⟨S4096x1x2, .f32⟩ : BufTy).Contents (Elt F)),
    StableHlo.unary main_v51 main_v52 (broadcastInDim S4096x4096x2 ![0, 1, 2] bcast_S4096x1x2_S4096x4096x2_0_1_2 : (⟨S4096x1x2, .f32⟩ : BufTy).Contents (Elt F) → (⟨S4096x4096x2, .f32⟩ : BufTy).Contents (Elt F)),
    StableHlo.binary main_v50 main_v52 main_v53 (mulf : (⟨S4096x4096x2, .f32⟩ : BufTy).Contents (Elt F) → (⟨S4096x4096x2, .f32⟩ : BufTy).Contents (Elt F) → (⟨S4096x4096x2, .f32⟩ : BufTy).Contents (Elt F)),
    StableHlo.nullary main_cst_10 (constant S_ .f32 0x00000000#32),
    StableHlo.binary main_v53 main_cst_10 main_v54 ((fun x v => Host.reduceAdd x v reducesTo_S4096x4096x2_S4096x4096_d2 h_S_) : (⟨S4096x4096x2, .f32⟩ : BufTy).Contents (Elt F) → (⟨S_, .f32⟩ : BufTy).Contents (Elt F) → (⟨S4096x4096, .f32⟩ : BufTy).Contents (Elt F)) ]

/-- All the operations, in order. -/
abbrev ops : List (HloOp τ sig (Elt F)) := (opsG ++ opsW) ++ opsF

-- ninety binds re-associated: the rewriting under the chain recurses once per statement
set_option maxRecDepth 4096 in
set_option maxHeartbeats 4000000 in
/-- The first window is the first two lines: the functions' definitions unfolded at their calls, both sides are one chain of steps once sequencing is reassociated. -/
theorem main_part0_eq (c : Dev nD) : main_part0 (F := F) c = StableHlo.seq (opsG ++ opsW) := by
  simp only [main_part0, fn_var.body, fn_where.body, fn_relu.body, fn_leaky_relu.body, fn_where_0.body, StableHlo.seq_append, StableHlo.seq, bind_assoc, pure_bind]
  rfl

theorem main_part1_eq (c : Dev nD) : main_part1 (F := F) c = StableHlo.seq opsF := rfl

theorem main_eq (c : Dev nD) : main (F := F) c = StableHlo.seq ops := by
  rw [StableHlo.seq_append, ← main_part0_eq c, ← main_part1_eq c]; rfl
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem opsG_sub : (opsG : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
theorem opsW_sub : (opsW : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
theorem opsF_sub : (opsF : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub ..⟩
theorem ops_sub : (ops : List (HloOp τ sig (Elt F))).Forall fun op => op.bufs ⊆ StableHlo.tcRefs τ sig :=
  List.forall_append.2 ⟨List.forall_append.2 ⟨opsG_sub, opsW_sub⟩, opsF_sub⟩

/-- Every operation determines its results. -/
theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsW_fresh : (opsW : List (HloOp τ sig (Elt F))).Forall fun op => op.fresh = ∅ :=
  ⟨rfl, rfl, rfl, rfl, rfl, rfl, rfl, rfl⟩
theorem opsF_fresh : (opsF : List (HloOp τ sig (Elt F))).Forall fun op => op.fresh = ∅ :=
  ⟨rfl, rfl, rfl, rfl, rfl, rfl, rfl, rfl⟩
theorem ops_fresh : ∀ op ∈ (ops : List (HloOp τ sig (Elt F))), op.fresh = ∅ :=
  List.forall_iff_forall_mem.1 (List.forall_append.2 ⟨List.forall_append.2 ⟨opsG_fresh, opsW_fresh⟩, opsF_fresh⟩)

/-- The contents after two lines run one after the other. -/
theorem after_append' : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_append' l₁ l₂]
/-! The three lines' results, and what they leave unchanged. -/

set_option maxRecDepth 8192 in
set_option maxHeartbeats 4000000 in
/-- After the first line the softmax's buffer holds the gate weights of the arguments. -/
theorem gate_eq (V : Valuation τ sig (Elt Ideal)) :
    StableHlo.after (opsG (F := Ideal)) V (main_v41 : DevRef τ sig)
      = RefTerm.gate (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  after_results_simp
  rfl

/-- After the second line the smoothed weights' buffer holds the smoothing of what the softmax's buffer held. -/
theorem gw_eq (V : Valuation τ sig (Elt Ideal)) :
    StableHlo.after (opsW (F := Ideal)) V (main_v47 : DevRef τ sig)
      = RefTerm.gw (V (main_arg1 : DevRef τ sig)) (V (main_v41 : DevRef τ sig)) := by
  after_results_simp
  rfl

/-- After the third line the result buffer holds the fusion of the two graphs with what the smoothed weights' buffer held. -/
theorem gf_eq (V : Valuation τ sig (Elt Ideal)) :
    StableHlo.after (opsF (F := Ideal)) V (main_v54 : DevRef τ sig)
      = RefTerm.gf (V (main_arg1 : DevRef τ sig)) (V (main_arg2 : DevRef τ sig)) (V (main_v47 : DevRef τ sig)) := by
  after_results
  rfl

theorem opsG_main_arg0 (V : Valuation τ sig (Elt F)) : StableHlo.after opsG V (main_arg0 : DevRef τ sig) = V (main_arg0 : DevRef τ sig) := by
  after_results_simp

theorem opsG_main_arg1 (V : Valuation τ sig (Elt F)) : StableHlo.after opsG V (main_arg1 : DevRef τ sig) = V (main_arg1 : DevRef τ sig) := by
  after_results_simp

theorem opsG_main_arg2 (V : Valuation τ sig (Elt F)) : StableHlo.after opsG V (main_arg2 : DevRef τ sig) = V (main_arg2 : DevRef τ sig) := by
  after_results_simp

theorem opsG_main_arg3 (V : Valuation τ sig (Elt F)) : StableHlo.after opsG V (main_arg3 : DevRef τ sig) = V (main_arg3 : DevRef τ sig) := by
  after_results_simp

theorem opsG_main_arg4 (V : Valuation τ sig (Elt F)) : StableHlo.after opsG V (main_arg4 : DevRef τ sig) = V (main_arg4 : DevRef τ sig) := by
  after_results_simp

theorem opsG_main_arg5 (V : Valuation τ sig (Elt F)) : StableHlo.after opsG V (main_arg5 : DevRef τ sig) = V (main_arg5 : DevRef τ sig) := by
  after_results_simp

theorem opsG_main_arg6 (V : Valuation τ sig (Elt F)) : StableHlo.after opsG V (main_arg6 : DevRef τ sig) = V (main_arg6 : DevRef τ sig) := by
  after_results_simp

theorem opsG_main_arg7 (V : Valuation τ sig (Elt F)) : StableHlo.after opsG V (main_arg7 : DevRef τ sig) = V (main_arg7 : DevRef τ sig) := by
  after_results_simp

theorem opsG_main_arg8 (V : Valuation τ sig (Elt F)) : StableHlo.after opsG V (main_arg8 : DevRef τ sig) = V (main_arg8 : DevRef τ sig) := by
  after_results_simp

theorem opsW_main_arg0 (V : Valuation τ sig (Elt F)) : StableHlo.after opsW V (main_arg0 : DevRef τ sig) = V (main_arg0 : DevRef τ sig) := by
  after_results_simp

theorem opsW_main_arg1 (V : Valuation τ sig (Elt F)) : StableHlo.after opsW V (main_arg1 : DevRef τ sig) = V (main_arg1 : DevRef τ sig) := by
  after_results_simp

theorem opsW_main_arg2 (V : Valuation τ sig (Elt F)) : StableHlo.after opsW V (main_arg2 : DevRef τ sig) = V (main_arg2 : DevRef τ sig) := by
  after_results_simp

theorem opsW_main_arg3 (V : Valuation τ sig (Elt F)) : StableHlo.after opsW V (main_arg3 : DevRef τ sig) = V (main_arg3 : DevRef τ sig) := by
  after_results_simp

theorem opsW_main_arg4 (V : Valuation τ sig (Elt F)) : StableHlo.after opsW V (main_arg4 : DevRef τ sig) = V (main_arg4 : DevRef τ sig) := by
  after_results_simp

theorem opsW_main_arg5 (V : Valuation τ sig (Elt F)) : StableHlo.after opsW V (main_arg5 : DevRef τ sig) = V (main_arg5 : DevRef τ sig) := by
  after_results_simp

theorem opsW_main_arg6 (V : Valuation τ sig (Elt F)) : StableHlo.after opsW V (main_arg6 : DevRef τ sig) = V (main_arg6 : DevRef τ sig) := by
  after_results_simp

theorem opsW_main_arg7 (V : Valuation τ sig (Elt F)) : StableHlo.after opsW V (main_arg7 : DevRef τ sig) = V (main_arg7 : DevRef τ sig) := by
  after_results_simp

theorem opsW_main_arg8 (V : Valuation τ sig (Elt F)) : StableHlo.after opsW V (main_arg8 : DevRef τ sig) = V (main_arg8 : DevRef τ sig) := by
  after_results_simp

theorem opsF_main_arg0 (V : Valuation τ sig (Elt F)) : StableHlo.after opsF V (main_arg0 : DevRef τ sig) = V (main_arg0 : DevRef τ sig) := by
  after_results_simp

theorem opsF_main_arg1 (V : Valuation τ sig (Elt F)) : StableHlo.after opsF V (main_arg1 : DevRef τ sig) = V (main_arg1 : DevRef τ sig) := by
  after_results_simp

theorem opsF_main_arg2 (V : Valuation τ sig (Elt F)) : StableHlo.after opsF V (main_arg2 : DevRef τ sig) = V (main_arg2 : DevRef τ sig) := by
  after_results_simp

theorem opsF_main_arg3 (V : Valuation τ sig (Elt F)) : StableHlo.after opsF V (main_arg3 : DevRef τ sig) = V (main_arg3 : DevRef τ sig) := by
  after_results_simp

theorem opsF_main_arg4 (V : Valuation τ sig (Elt F)) : StableHlo.after opsF V (main_arg4 : DevRef τ sig) = V (main_arg4 : DevRef τ sig) := by
  after_results_simp

theorem opsF_main_arg5 (V : Valuation τ sig (Elt F)) : StableHlo.after opsF V (main_arg5 : DevRef τ sig) = V (main_arg5 : DevRef τ sig) := by
  after_results_simp

theorem opsF_main_arg6 (V : Valuation τ sig (Elt F)) : StableHlo.after opsF V (main_arg6 : DevRef τ sig) = V (main_arg6 : DevRef τ sig) := by
  after_results_simp

theorem opsF_main_arg7 (V : Valuation τ sig (Elt F)) : StableHlo.after opsF V (main_arg7 : DevRef τ sig) = V (main_arg7 : DevRef τ sig) := by
  after_results_simp

theorem opsF_main_arg8 (V : Valuation τ sig (Elt F)) : StableHlo.after opsF V (main_arg8 : DevRef τ sig) = V (main_arg8 : DevRef τ sig) := by
  after_results_simp

theorem opsF_main_v47 (V : Valuation τ sig (Elt F)) : StableHlo.after opsF V (main_v47 : DevRef τ sig) = V (main_v47 : DevRef τ sig) := by
  after_results_simp
/-! All the operations' results: the three lines one after the other. -/

/-- After all the operations the result buffer holds the fusion with the smoothed gate weights of the arguments. -/
theorem out_v54 (V : Valuation τ sig (Elt Ideal)) :
    StableHlo.after (ops (F := Ideal)) V (main_v54 : DevRef τ sig)
      = RefTerm.gf (V (main_arg1 : DevRef τ sig)) (V (main_arg2 : DevRef τ sig)) (RefTerm.gw (V (main_arg1 : DevRef τ sig)) (RefTerm.gate (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)))) := by
  rw [after_append', after_append', gf_eq, opsW_main_arg1, opsW_main_arg2, gw_eq, opsG_main_arg1, opsG_main_arg2, gate_eq]

/-- After all the operations the second result buffer holds the smoothed gate weights of the arguments. -/
theorem out_v47 (V : Valuation τ sig (Elt Ideal)) :
    StableHlo.after (ops (F := Ideal)) V (main_v47 : DevRef τ sig)
      = RefTerm.gw (V (main_arg1 : DevRef τ sig)) (RefTerm.gate (V (main_arg0 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))) := by
  rw [after_append', after_append', opsF_main_v47, gw_eq, opsG_main_arg1, gate_eq]

theorem out_arg0 (V : Valuation τ sig (Elt F)) : StableHlo.after ops V (main_arg0 : DevRef τ sig) = V (main_arg0 : DevRef τ sig) := by
  rw [after_append', after_append', opsF_main_arg0, opsW_main_arg0, opsG_main_arg0]

theorem out_arg1 (V : Valuation τ sig (Elt F)) : StableHlo.after ops V (main_arg1 : DevRef τ sig) = V (main_arg1 : DevRef τ sig) := by
  rw [after_append', after_append', opsF_main_arg1, opsW_main_arg1, opsG_main_arg1]

theorem out_arg2 (V : Valuation τ sig (Elt F)) : StableHlo.after ops V (main_arg2 : DevRef τ sig) = V (main_arg2 : DevRef τ sig) := by
  rw [after_append', after_append', opsF_main_arg2, opsW_main_arg2, opsG_main_arg2]

theorem out_arg3 (V : Valuation τ sig (Elt F)) : StableHlo.after ops V (main_arg3 : DevRef τ sig) = V (main_arg3 : DevRef τ sig) := by
  rw [after_append', after_append', opsF_main_arg3, opsW_main_arg3, opsG_main_arg3]

theorem out_arg4 (V : Valuation τ sig (Elt F)) : StableHlo.after ops V (main_arg4 : DevRef τ sig) = V (main_arg4 : DevRef τ sig) := by
  rw [after_append', after_append', opsF_main_arg4, opsW_main_arg4, opsG_main_arg4]

theorem out_arg5 (V : Valuation τ sig (Elt F)) : StableHlo.after ops V (main_arg5 : DevRef τ sig) = V (main_arg5 : DevRef τ sig) := by
  rw [after_append', after_append', opsF_main_arg5, opsW_main_arg5, opsG_main_arg5]

theorem out_arg6 (V : Valuation τ sig (Elt F)) : StableHlo.after ops V (main_arg6 : DevRef τ sig) = V (main_arg6 : DevRef τ sig) := by
  rw [after_append', after_append', opsF_main_arg6, opsW_main_arg6, opsG_main_arg6]

theorem out_arg7 (V : Valuation τ sig (Elt F)) : StableHlo.after ops V (main_arg7 : DevRef τ sig) = V (main_arg7 : DevRef τ sig) := by
  rw [after_append', after_append', opsF_main_arg7, opsW_main_arg7, opsG_main_arg7]

theorem out_arg8 (V : Valuation τ sig (Elt F)) : StableHlo.after ops V (main_arg8 : DevRef τ sig) = V (main_arg8 : DevRef τ sig) := by
  rw [after_append', after_append', opsF_main_arg8, opsW_main_arg8, opsG_main_arg8]

/-- On every device, from any memory with zero counters: every weakly fair execution of the reference program
    terminates with the first result at the fusion of the two graphs with the smoothed gate weights, the second at the
    smoothed gate weights, each as the composed term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54) = RefTerm.gf (m ((c.tc : Thread nD τ).loc main_arg1)) (m ((c.tc : Thread nD τ).loc main_arg2)) (RefTerm.gw (m ((c.tc : Thread nD τ).loc main_arg1)) (RefTerm.gate (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))
      ∧ r.2.mem ((c.tc : Thread nD τ).loc main_v47) = RefTerm.gw (m ((c.tc : Thread nD τ).loc main_arg1)) (RefTerm.gate (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v54).trans (out_v54 _), (h c main_v47).trans (out_v47 _),
      (h c main_arg0).trans (out_arg0 _), (h c main_arg1).trans (out_arg1 _), (h c main_arg2).trans (out_arg2 _), (h c main_arg3).trans (out_arg3 _), (h c main_arg4).trans (out_arg4 _), (h c main_arg5).trans (out_arg5 _), (h c main_arg6).trans (out_arg6 _), (h c main_arg7).trans (out_arg7 _), (h c main_arg8).trans (out_arg8 _)⟩)
    (StableHlo.run_seq scopedRefs_eq scopedSems_eq defs main (fun _ => ops) main_eq (fun _ => ops_sub) m ρ (fun _ => ops_fresh))

end Cert.ReferenceIdeal.RefRun

end
-- ==== Proof.RefRead.lean ====
/-
  The reference's three terms read at an index.

  The gate weights of row r are the two-way softmax of the row's logits: the row is normalised by its mean and by the
  root of its variance plus the guard (the variance's divisor, 4096 less a zero, is positive, so its guard always keeps
  the quotient), then sent through the three dense layers (a rectifier, a leaky rectifier), scaled by the temperature
  and shifted by the expert bias; the row maximum the softmax subtracts is the larger of minus infinity and the fold of
  the maximum, that is the fold itself. The smoothed weights are 0.7 of a row's own and 0.3 of the first graph's product
  with all rows'. The fused graph at (r, col) is the sum over the stacking axis of length two of the stacked graphs'
  entries times the row's smoothed weights, that is the first graph's entry times the first weight plus the second's
  times the second.

  First each kind of operation is read at an index (broadcasts of a scalar, of a column, of a row, along a new unit
  axis; sums and maxima over the last axis; a plain matrix product; a stack of two arrays); then the gate network is cut
  into five stages, each read at an index over arbitrary inputs; then the stages are composed.
-/
import proofs.«138674_g11373073400015_week1_w4_273_26_alg».proof.Proof.RefTerm
import proofs.«138674_g11373073400015_week1_w4_273_26_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Idealize.ShloMosaic Idealize.ShloMosaic.ValueIdx Cert.ReferenceIdeal

/-! ## Layout operations read at an index -/

section Layout
variable {α : Type}

/-- A scalar broadcast to any shape reads the scalar everywhere. -/
theorem bcast0_apply {n : Nat} {d : Fin n → Nat} (h : (⟨0, ![]⟩ : Shape).BroadcastsInDim ⟨n, d⟩ (![] : Fin 0 → Fin n))
    (x : (⟨0, ![]⟩ : Shape).Idx → α) (j : (⟨n, d⟩ : Shape).Idx) :
    broadcastInDim ⟨n, d⟩ (![] : Fin 0 → Fin n) h x j = x ix0 := by
  unfold broadcastInDim; exact congrArg x (funext fun a => a.elim0)

/-- A vector as a column: [m] to [m, 1]. -/
theorem bcast_col_apply {m : Nat} (h : (⟨1, ![m]⟩ : Shape).BroadcastsInDim ⟨2, ![m, 1]⟩ (![0] : Fin 1 → Fin 2)) (x : (⟨1, ![m]⟩ : Shape).Idx → α)
    (r : Fin m) (z : Fin 1) : broadcastInDim ⟨2, ![m, 1]⟩ (![0] : Fin 1 → Fin 2) h x (ix2 r z) = x (ix1 r) := by
  refine broadcastInDim_apply _ h x _ (ix1 r) (fun a => ?_)
  match a with
  | ⟨0, _⟩ =>
    show r.val = if m = 1 then 0 else r.val
    split
    · next h1 => have := r.isLt; omega
    · rfl

/-- A column along the rows: [m, 1] to [m, n]. -/
theorem bcast_colwide_apply {m n : Nat} (h : (⟨2, ![m, 1]⟩ : Shape).BroadcastsInDim ⟨2, ![m, n]⟩ (![0, 1] : Fin 2 → Fin 2))
    (x : (⟨2, ![m, 1]⟩ : Shape).Idx → α) (r : Fin m) (c : Fin n) :
    broadcastInDim ⟨2, ![m, n]⟩ (![0, 1] : Fin 2 → Fin 2) h x (ix2 r c) = x (ix2 r 0) := by
  refine broadcastInDim_apply _ h x _ (ix2 r 0) (fun a => ?_)
  match a with
  | ⟨0, _⟩ =>
    show r.val = if m = 1 then 0 else r.val
    split
    · next h1 => have := r.isLt; omega
    · rfl
  | ⟨1, _⟩ => rfl

/-- A vector as a row: [n] to [1, n]. -/
theorem bcast_row_apply {n : Nat} (h : (⟨1, ![n]⟩ : Shape).BroadcastsInDim ⟨2, ![1, n]⟩ (![1] : Fin 1 → Fin 2)) (x : (⟨1, ![n]⟩ : Shape).Idx → α)
    (z : Fin 1) (c : Fin n) : broadcastInDim ⟨2, ![1, n]⟩ (![1] : Fin 1 → Fin 2) h x (ix2 z c) = x (ix1 c) := by
  refine broadcastInDim_apply _ h x _ (ix1 c) (fun a => ?_)
  match a with
  | ⟨0, _⟩ =>
    show c.val = if n = 1 then 0 else c.val
    split
    · next h1 => have := c.isLt; omega
    · rfl

/-- A row down the columns: [1, n] to [m, n]. -/
theorem bcast_rowtall_apply {m n : Nat} (h : (⟨2, ![1, n]⟩ : Shape).BroadcastsInDim ⟨2, ![m, n]⟩ (![0, 1] : Fin 2 → Fin 2))
    (x : (⟨2, ![1, n]⟩ : Shape).Idx → α) (r : Fin m) (c : Fin n) :
    broadcastInDim ⟨2, ![m, n]⟩ (![0, 1] : Fin 2 → Fin 2) h x (ix2 r c) = x (ix2 0 c) := by
  refine broadcastInDim_apply _ h x _ (ix2 0 c) (fun a => ?_)
  match a with
  | ⟨0, _⟩ => rfl
  | ⟨1, _⟩ =>
    show c.val = if n = 1 then 0 else c.val
    split
    · next h1 => have := c.isLt; omega
    · rfl

/-- A matrix with a trailing unit axis: [m, n] to [m, n, 1]. -/
theorem bcast_trail_apply {m n : Nat} (h : (⟨2, ![m, n]⟩ : Shape).BroadcastsInDim ⟨3, ![m, n, 1]⟩ (![0, 1] : Fin 2 → Fin 3))
    (x : (⟨2, ![m, n]⟩ : Shape).Idx → α) (r : Fin m) (c : Fin n) (z : Fin 1) :
    broadcastInDim ⟨3, ![m, n, 1]⟩ (![0, 1] : Fin 2 → Fin 3) h x (ix3 r c z) = x (ix2 r c) := by
  refine broadcastInDim_apply _ h x _ (ix2 r c) (fun a => ?_)
  match a with
  | ⟨0, _⟩ =>
    show r.val = if m = 1 then 0 else r.val
    split
    · next h1 => have := r.isLt; omega
    · rfl
  | ⟨1, _⟩ =>
    show c.val = if n = 1 then 0 else c.val
    split
    · next h1 => have := c.isLt; omega
    · rfl

/-- A matrix with a middle unit axis: [m, q] to [m, 1, q]. -/
theorem bcast_mid_apply {m q : Nat} (h : (⟨2, ![m, q]⟩ : Shape).BroadcastsInDim ⟨3, ![m, 1, q]⟩ (![0, 2] : Fin 2 → Fin 3))
    (x : (⟨2, ![m, q]⟩ : Shape).Idx → α) (r : Fin m) (z : Fin 1) (k : Fin q) :
    broadcastInDim ⟨3, ![m, 1, q]⟩ (![0, 2] : Fin 2 → Fin 3) h x (ix3 r z k) = x (ix2 r k) := by
  refine broadcastInDim_apply _ h x _ (ix2 r k) (fun a => ?_)
  match a with
  | ⟨0, _⟩ =>
    show r.val = if m = 1 then 0 else r.val
    split
    · next h1 => have := r.isLt; omega
    · rfl
  | ⟨1, _⟩ =>
    show k.val = if q = 1 then 0 else k.val
    split
    · next h1 => have := k.isLt; omega
    · rfl

/-- The middle unit axis repeated: [m, 1, q] to [m, n, q]. -/
theorem bcast_midwide_apply {m n q : Nat} (h : (⟨3, ![m, 1, q]⟩ : Shape).BroadcastsInDim ⟨3, ![m, n, q]⟩ (![0, 1, 2] : Fin 3 → Fin 3))
    (x : (⟨3, ![m, 1, q]⟩ : Shape).Idx → α) (r : Fin m) (c : Fin n) (k : Fin q) :
    broadcastInDim ⟨3, ![m, n, q]⟩ (![0, 1, 2] : Fin 3 → Fin 3) h x (ix3 r c k) = x (ix3 r 0 k) := by
  refine broadcastInDim_apply _ h x _ (ix3 r 0 k) (fun a => ?_)
  match a with
  | ⟨0, _⟩ =>
    show r.val = if m = 1 then 0 else r.val
    split
    · next h1 => have := r.isLt; omega
    · rfl
  | ⟨1, _⟩ => rfl
  | ⟨2, _⟩ =>
    show k.val = if q = 1 then 0 else k.val
    split
    · next h1 => have := k.isLt; omega
    · rfl

end Layout

/-! ## Reductions and products read at an index -/

section Contract

/-- A row sum: the sum over the second axis of [m, n], from the initial value. -/
theorem reduceAdd_rows_apply {m n : Nat} {u : Shape} (h' : (⟨2, ![m, n]⟩ : Shape).ReducesTo [1] ⟨1, ![m]⟩) (hu : 0 < u.numel)
    (x : FVec Ideal ⟨2, ![m, n]⟩ .f32) (init : u.Idx → Ideal .f32) (r : Fin m) :
    Host.reduceAdd (F := Ideal) x init h' hu (ix1 r) = init (Shape.Idx.first hu) + ∑ k : Fin n, x (ix2 r k) := by
  have h : (⟨2, ![m, n]⟩ : Shape).Reduces [1] ⟨1, ![m]⟩ := ⟨h'.1, Nat.one_pos, h'.2⟩
  show Ideal.hostReduceAdd h' x (init (Shape.Idx.first hu)) (ix1 r) = _
  rw [Ideal.hostReduceAdd_single h' h]
  refine congrArg (init (Shape.Idx.first hu) + ·) ?_
  refine Finset.sum_congr rfl fun k _ => congrArg x ?_
  funext a
  apply Fin.ext
  match a with
  | ⟨0, _⟩ => rfl
  | ⟨1, _⟩ => rfl

/-- The sum over the last axis of [m, n, q], from the initial value. -/
theorem reduceAdd_last_apply {m n q : Nat} {u : Shape} (h' : (⟨3, ![m, n, q]⟩ : Shape).ReducesTo [2] ⟨2, ![m, n]⟩) (hu : 0 < u.numel)
    (x : FVec Ideal ⟨3, ![m, n, q]⟩ .f32) (init : u.Idx → Ideal .f32) (r : Fin m) (c : Fin n) :
    Host.reduceAdd (F := Ideal) x init h' hu (ix2 r c) = init (Shape.Idx.first hu) + ∑ k : Fin q, x (ix3 r c k) := by
  have h : (⟨3, ![m, n, q]⟩ : Shape).Reduces [2] ⟨2, ![m, n]⟩ := ⟨h'.1, Nat.two_pos, h'.2⟩
  show Ideal.hostReduceAdd h' x (init (Shape.Idx.first hu)) (ix2 r c) = _
  rw [Ideal.hostReduceAdd_single h' h]
  refine congrArg (init (Shape.Idx.first hu) + ·) ?_
  refine Finset.sum_congr rfl fun k _ => congrArg x ?_
  funext a
  apply Fin.ext
  match a with
  | ⟨0, _⟩ => rfl
  | ⟨1, _⟩ => rfl
  | ⟨2, _⟩ => rfl

/-- A row maximum: the fold of the maximum over the second axis of [m, n], from the initial value. -/
theorem reduceMax_rows_apply {m n : Nat} {u : Shape} (h' : (⟨2, ![m, n]⟩ : Shape).ReducesTo [1] ⟨1, ![m]⟩) (hu : 0 < u.numel)
    (x : FVec Ideal ⟨2, ![m, n]⟩ .f32) (init : u.Idx → Ideal .f32) (r : Fin m) :
    Host.reduce (FloatOps.maximumf (F := Ideal) (φ := .f32)) x init h' hu (ix1 r)
      = (Finset.univ : Finset (Fin n)).fold max (init (Shape.Idx.first hu)) (fun k => x (ix2 r k)) := by
  have h : (⟨2, ![m, n]⟩ : Shape).Reduces [1] ⟨1, ![m]⟩ := ⟨h'.1, Nat.one_pos, h'.2⟩
  rw [Host.reduce_eq_fold_single _ x init h' h hu]
  show (Finset.univ : Finset (Fin n)).fold max (init (Shape.Idx.first hu)) (x ∘ h.lift (ix1 r)) = _
  refine congrArg (fun f => (Finset.univ : Finset (Fin n)).fold max (init (Shape.Idx.first hu)) f) ?_
  funext k
  refine congrArg x ?_
  funext a
  apply Fin.ext
  match a with
  | ⟨0, _⟩ => rfl
  | ⟨1, _⟩ => rfl

/-- A plain matrix product: rows of [m, k] against columns of [k, n]. -/
theorem dot_apply {m k n : Nat} (D : DotDims ⟨2, ![m, k]⟩ ⟨2, ![k, n]⟩ ⟨2, ![m, n]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (lhs : FVec Ideal ⟨2, ![m, k]⟩ .f32) (rhs : FVec Ideal ⟨2, ![k, n]⟩ .f32) (r : Fin m) (c : Fin n) :
    Host.dotGeneral (F := Ideal) D prec lhs rhs (ix2 r c) = ∑ q : Fin k, lhs (ix2 r q) * rhs (ix2 q c) := by
  show FloatOps.dotGeneral D prec .single lhs rhs (ix2 r c) = _
  rw [Ideal.dotGeneral_apply]
  have hr : D.contr.rank = 1 := by rw [D.rank_contr, hlc]; rfl
  have hs : D.contr.size ⟨0, by omega⟩ = k := by
    rw [D.size_contr 0 (by rw [hlc]; exact Nat.one_pos)]
    simp only [hlc]
    rfl
  rw [← Equiv.sum_comp (contrEquiv1 D k hr hs).symm]
  refine Finset.sum_congr rfl fun q _ => ?_
  have hq : (((contrEquiv1 D k hr hs).symm q) ⟨0, by omega⟩ : ℕ) = q.val := contrEquiv1_symm_val D k hr hs q
  have e1 : D.lhsIdx (ix2 r c) ((contrEquiv1 D k hr hs).symm q) = ix2 r q := by
    funext a
    apply Fin.ext
    match a with
    | ⟨0, _⟩ =>
      unfold DotDims.lhsIdx
      rw [dif_neg (by rw [hlb]; exact List.not_mem_nil), dif_pos (by rw [hln]; exact List.mem_singleton.mpr rfl)]
      simp only [Fin.val_cast]
      have key : ∀ (p p' : Nat) (hp : p < 2) (hp' : p' < 2), p = p' → ((ix2 r c : (⟨2, ![m, n]⟩ : Shape).Idx) ⟨p, hp⟩).val = ((ix2 r c : (⟨2, ![m, n]⟩ : Shape).Idx) ⟨p', hp'⟩).val :=
        fun p p' hp hp' e => by subst e; rfl
      exact (key _ 0 _ (by decide) (by simp [hlb, hln])).trans rfl
    | ⟨1, _⟩ => exact (D.lhsIdx_val_of_single hlc _ _).trans hq
  have e2 : D.rhsIdx (ix2 r c) ((contrEquiv1 D k hr hs).symm q) = ix2 q c := by
    funext a
    apply Fin.ext
    match a with
    | ⟨0, _⟩ => exact (D.rhsIdx_val_of_single hrc _ _).trans hq
    | ⟨1, _⟩ =>
      unfold DotDims.rhsIdx
      rw [dif_neg (by rw [hrb]; exact List.not_mem_nil), dif_pos (by rw [hrn]; exact List.mem_singleton.mpr rfl)]
      simp only [Fin.val_cast]
      have key : ∀ (p p' : Nat) (hp : p < 2) (hp' : p' < 2), p = p' → ((ix2 r c : (⟨2, ![m, n]⟩ : Shape).Idx) ⟨p, hp⟩).val = ((ix2 r c : (⟨2, ![m, n]⟩ : Shape).Idx) ⟨p', hp'⟩).val :=
        fun p p' hp hp' e => by subst e; rfl
      exact (key _ 1 _ (by decide) (by simp [hlb, hln, hrn])).trans rfl
  rw [e1, e2]

end Contract

/-! ## Pointwise host operations, and the literal words that are compared or vanish -/

section Pointwise
variable {s : Shape}

theorem hdivf_apply (a b : FVec Ideal s .f32) (i : s.Idx) : Host.divf a b i = Ideal.div (a i) (b i) := rfl
theorem hsqrt_apply (a : FVec Ideal s .f32) (i : s.Idx) : Host.sqrt a i = Ideal.sqrt (a i) := rfl
theorem hexp_apply (a : FVec Ideal s .f32) (i : s.Idx) : Host.exp a i = Ideal.exp (a i) := rfl

end Pointwise

/-- The word 0x45800000 is the real 4096. -/
theorem cN_real : Ideal.ofBits .f32 0x45800000#32 = ((4096 : ℝ) : EReal) := by
  simp [Ideal.ofBits, Ideal.ieee, -EReal.coe_mul]; norm_num

/-- The word 0xFF800000 is minus infinity. -/
theorem negInf_bot : Ideal.ofBits .f32 0xFF800000#32 = ⊥ := by simp [Ideal.ofBits, Ideal.ieee]

/-- The integer zero converts to zero. -/
theorem sitofp_zero : FloatOps.sitofp (F := Ideal) .f32 (0#32 : BitVec 32) = 0 := by
  show (((0#32 : BitVec 32).toInt : ℝ) : EReal) = 0
  simp

/-- The variance's divisor, 4096 less zero, is positive: its guard always keeps the quotient. -/
theorem guard_pos : Ideal.cmp .ogt (Ideal.ofBits .f32 0x45800000#32) 0 = 1#1 := by
  have h : (0 : EReal) < Ideal.ofBits .f32 0x45800000#32 := by
    rw [cN_real]; exact EReal.coe_pos.mpr (by norm_num)
  simp [Ideal.cmp, h]

/-- The larger of minus infinity and x is x. -/
theorem max_negInf (x : EReal) : max (Ideal.ofBits .f32 0xFF800000#32) x = x := by
  rw [negInf_bot]; exact max_bot_left x

/-- The expert bias, read off the literal table. -/
theorem bias_apply (q : Fin 2) : Ideal.ofBits .f32 (lit0 ((⟨1, ![2]⟩ : Shape).rowMajor (ix1 q))) = Cert.Spec.bias q := by
  match q with
  | ⟨0, _⟩ => rfl
  | ⟨1, _⟩ => rfl

/-! ## Two arrays stacked along a last axis of length two -/

section Concat
variable {α : Type}

theorem concat_last_zero {m n : Nat} (h : Shape.Concatenates [(⟨3, ![m, n, 1]⟩ : Shape), ⟨3, ![m, n, 1]⟩] ⟨3, ![m, n, 2]⟩ (2 : Fin 3))
    (x₁ x₂ : (⟨3, ![m, n, 1]⟩ : Shape).Idx → α) (r : Fin m) (c : Fin n) :
    concatenate ⟨3, ![m, n, 2]⟩ (2 : Fin 3) [⟨⟨3, ![m, n, 1]⟩, x₁⟩, ⟨⟨3, ![m, n, 1]⟩, x₂⟩] h (ix3 r c 0) = x₁ (ix3 r c 0) := by
  refine concatenate_pair_apply_left (t := ⟨3, ![m, n, 2]⟩) (2 : Fin 3) x₁ x₂ h (ix3 r c 0) rfl (ix3 r c 0) (fun b => ?_)
  match b with
  | ⟨0, _⟩ => rfl
  | ⟨1, _⟩ => rfl
  | ⟨2, _⟩ => rfl

theorem concat_last_one {m n : Nat} (h : Shape.Concatenates [(⟨3, ![m, n, 1]⟩ : Shape), ⟨3, ![m, n, 1]⟩] ⟨3, ![m, n, 2]⟩ (2 : Fin 3))
    (x₁ x₂ : (⟨3, ![m, n, 1]⟩ : Shape).Idx → α) (r : Fin m) (c : Fin n) :
    concatenate ⟨3, ![m, n, 2]⟩ (2 : Fin 3) [⟨⟨3, ![m, n, 1]⟩, x₁⟩, ⟨⟨3, ![m, n, 1]⟩, x₂⟩] h (ix3 r c 1) = x₂ (ix3 r c 0) := by
  refine concatenate_pair_apply_right (t := ⟨3, ![m, n, 2]⟩) (2 : Fin 3) x₁ x₂ h (ix3 r c 1) rfl rfl (ix3 r c 0) (fun b hb => ?_) (by rfl)
  match b with
  | ⟨0, _⟩ => rfl
  | ⟨1, _⟩ => rfl
  | ⟨2, _⟩ => exact absurd rfl hb

end Concat

/-! ## The gate network in stages -/

section Stages
variable [Facts₀]
open Facts₀

/-- The rows normalised by their mean and deviation. -/
def normRows (a0 : FVec Ideal S4096x4096 .f32) : FVec Ideal S4096x4096 .f32 :=
  have cst_0 : FVec Ideal S_ .f32 := constant S_ .f32 0x00000000#32
  have v0 : FVec Ideal S4096 .f32 := Host.reduceAdd a0 cst_0 reducesTo_S4096x4096_S4096_d1 h_S_
  have v1 : FVec Ideal S4096x1 .f32 := broadcastInDim S4096x1 ![0] bcast_S4096_S4096x1_0 v0
  have cst_1 : FVec Ideal S_ .f32 := constant S_ .f32 0x45800000#32
  have v2 : FVec Ideal S4096x1 .f32 := broadcastInDim S4096x1 ![] bcast_S_S4096x1 cst_1
  have v3 : FVec Ideal S4096x1 .f32 := Host.divf v1 v2
  have c : IVec S_ 32 := constantI S_ 32 0#32
  have var_cst : FVec Ideal S_ .f32 := constant S_ .f32 0x00000000#32
  have var_v0 : FVec Ideal S4096 .f32 := Host.reduceAdd a0 var_cst reducesTo_S4096x4096_S4096_d1 h_S_
  have var_v1 : FVec Ideal S4096x1 .f32 := broadcastInDim S4096x1 ![0] bcast_S4096_S4096x1_0 var_v0
  have var_cst_0 : FVec Ideal S_ .f32 := constant S_ .f32 0x45800000#32
  have var_v2 : FVec Ideal S4096x1 .f32 := broadcastInDim S4096x1 ![] bcast_S_S4096x1 var_cst_0
  have var_v3 : FVec Ideal S4096x1 .f32 := Host.divf var_v1 var_v2
  have var_v4 : FVec Ideal S4096x4096 .f32 := broadcastInDim S4096x4096 ![0, 1] bcast_S4096x1_S4096x4096_0_1 var_v3
  have var_v5 : FVec Ideal S4096x4096 .f32 := subf a0 var_v4
  have var_v6 : FVec Ideal S4096x4096 .f32 := mulf var_v5 var_v5
  have var_v7 : FVec Ideal S_ .f32 := sitofp .f32 c
  have var_cst_1 : FVec Ideal S_ .f32 := constant S_ .f32 0x45800000#32
  have var_v8 : FVec Ideal S_ .f32 := subf var_cst_1 var_v7
  have var_cst_2 : FVec Ideal S_ .f32 := constant S_ .f32 0x00000000#32
  have var_v9 : FVec Ideal S4096 .f32 := Host.reduceAdd var_v6 var_cst_2 reducesTo_S4096x4096_S4096_d1 h_S_
  have var_v10 : FVec Ideal S4096x1 .f32 := broadcastInDim S4096x1 ![0] bcast_S4096_S4096x1_0 var_v9
  have var_v11 : FVec Ideal S4096x1 .f32 := broadcastInDim S4096x1 ![] bcast_S_S4096x1 var_v8
  have var_v12 : FVec Ideal S4096x1 .f32 := Host.divf var_v10 var_v11
  have var_cst_3 : FVec Ideal S_ .f32 := constant S_ .f32 0x00000000#32
  have var_v13 : IVec S_ 1 := cmpf .ogt var_v8 var_cst_3
  have var_cst_4 : FVec Ideal S_ .f32 := constant S_ .f32 0x7FC00000#32
  have wh_v0 : FVec Ideal S_ .f32 := id var_cst_4
  have wh_v1 : FVec Ideal S4096x1 .f32 := broadcastInDim S4096x1 ![] bcast_S_S4096x1 wh_v0
  have v4 : FVec Ideal S4096x1 .f32 := (fun p a b => select (broadcastInDim S4096x1 ![] bcast_S_S4096x1 p) a b) var_v13 var_v12 wh_v1
  have v5 : FVec Ideal S4096x4096 .f32 := broadcastInDim S4096x4096 ![0, 1] bcast_S4096x1_S4096x4096_0_1 v3
  have v6 : FVec Ideal S4096x4096 .f32 := subf a0 v5
  have cst_2 : FVec Ideal S_ .f32 := constant S_ .f32 0x3727C5AC#32
  have v7 : FVec Ideal S4096x1 .f32 := broadcastInDim S4096x1 ![] bcast_S_S4096x1 cst_2
  have v8 : FVec Ideal S4096x1 .f32 := addf v4 v7
  have v9 : FVec Ideal S4096x1 .f32 := Host.sqrt v8
  have v10 : FVec Ideal S4096x4096 .f32 := broadcastInDim S4096x4096 ![0, 1] bcast_S4096x1_S4096x4096_0_1 v9
  have v11 : FVec Ideal S4096x4096 .f32 := Host.divf v6 v10
  v11

/-- The first layer with its rectifier. -/
def layer1 (z : FVec Ideal S4096x4096 .f32) (a3 : FVec Ideal S4096x1024 .f32) (a4 : FVec Ideal S1024 .f32) : FVec Ideal S4096x1024 .f32 :=
  have v12 : FVec Ideal S4096x1024 .f32 := (fun l r => Host.dotGeneral dot_S4096x4096_S4096x1024_S4096x1024_1_0_0_1_n_n none l r) z a3
  have v13 : FVec Ideal S1x1024 .f32 := broadcastInDim S1x1024 ![1] bcast_S1024_S1x1024_1 a4
  have v14 : FVec Ideal S4096x1024 .f32 := broadcastInDim S4096x1024 ![0, 1] bcast_S1x1024_S4096x1024_0_1 v13
  have v15 : FVec Ideal S4096x1024 .f32 := addf v12 v14
  have relu_cst : FVec Ideal S_ .f32 := constant S_ .f32 0x00000000#32
  have relu_v0 : FVec Ideal S4096x1024 .f32 := broadcastInDim S4096x1024 ![] bcast_S_S4096x1024 relu_cst
  have v16 : FVec Ideal S4096x1024 .f32 := maximumf v15 relu_v0
  v16

/-- The second layer with its leaky rectifier. -/
def layer2 (h : FVec Ideal S4096x1024 .f32) (a5 : FVec Ideal S1024x64 .f32) (a6 : FVec Ideal S64 .f32) : FVec Ideal S4096x64 .f32 :=
  have v17 : FVec Ideal S4096x64 .f32 := (fun l r => Host.dotGeneral dot_S4096x1024_S1024x64_S4096x64_1_0_0_1_n_n none l r) h a5
  have v18 : FVec Ideal S1x64 .f32 := broadcastInDim S1x64 ![1] bcast_S64_S1x64_1 a6
  have v19 : FVec Ideal S4096x64 .f32 := broadcastInDim S4096x64 ![0, 1] bcast_S1x64_S4096x64_0_1 v18
  have v20 : FVec Ideal S4096x64 .f32 := addf v17 v19
  have cst_3 : FVec Ideal S_ .f32 := constant S_ .f32 0x3C23D70A#32
  have lr_cst : FVec Ideal S_ .f32 := constant S_ .f32 0x00000000#32
  have lr_v0 : FVec Ideal S4096x64 .f32 := broadcastInDim S4096x64 ![] bcast_S_S4096x64 lr_cst
  have lr_v1 : IVec S4096x64 1 := cmpf .oge v20 lr_v0
  have lr_v2 : FVec Ideal S_ .f32 := id cst_3
  have lr_v3 : FVec Ideal S4096x64 .f32 := broadcastInDim S4096x64 ![] bcast_S_S4096x64 lr_v2
  have lr_v4 : FVec Ideal S4096x64 .f32 := mulf lr_v3 v20
  have v21 : FVec Ideal S4096x64 .f32 := select lr_v1 v20 lr_v4
  v21

/-- The logits, scaled by the temperature and shifted by the expert bias. -/
def logits (h : FVec Ideal S4096x64 .f32) (a7 : FVec Ideal S64x2 .f32) (a8 : FVec Ideal S2 .f32) : FVec Ideal S4096x2 .f32 :=
  have cst : FVec Ideal S2 .f32 := fun i => FloatOps.ofBits .f32 (lit0 (S2.rowMajor i))
  have v22 : FVec Ideal S4096x2 .f32 := (fun l r => Host.dotGeneral dot_S4096x64_S64x2_S4096x2_1_0_0_1_n_n none l r) h a7
  have v23 : FVec Ideal S1x2 .f32 := broadcastInDim S1x2 ![1] bcast_S2_S1x2_1 a8
  have v24 : FVec Ideal S4096x2 .f32 := broadcastInDim S4096x2 ![0, 1] bcast_S1x2_S4096x2_0_1 v23
  have v25 : FVec Ideal S4096x2 .f32 := addf v22 v24
  have cst_4 : FVec Ideal S_ .f32 := constant S_ .f32 0x41000000#32
  have v26 : FVec Ideal S4096x2 .f32 := broadcastInDim S4096x2 ![] bcast_S_S4096x2 cst_4
  have v27 : FVec Ideal S4096x2 .f32 := mulf v25 v26
  have v28 : FVec Ideal S1x2 .f32 := broadcastInDim S1x2 ![1] bcast_S2_S1x2_1 cst
  have v29 : FVec Ideal S4096x2 .f32 := broadcastInDim S4096x2 ![0, 1] bcast_S1x2_S4096x2_0_1 v28
  have v30 : FVec Ideal S4096x2 .f32 := addf v27 v29
  v30

/-- The two-way softmax of every row. -/
def softmaxRows (l : FVec Ideal S4096x2 .f32) : FVec Ideal S4096x2 .f32 :=
  have cst_5 : FVec Ideal S_ .f32 := constant S_ .f32 0xFF800000#32
  have v31 : FVec Ideal S4096 .f32 := Host.reduce FloatOps.maximumf l cst_5 reducesTo_S4096x2_S4096_d1 h_S_
  have cst_6 : FVec Ideal S_ .f32 := constant S_ .f32 0xFF800000#32
  have v32 : FVec Ideal S4096 .f32 := broadcastInDim S4096 ![] bcast_S_S4096 cst_6
  have v33 : FVec Ideal S4096 .f32 := maximumf v32 v31
  have v34 : FVec Ideal S4096x1 .f32 := broadcastInDim S4096x1 ![0] bcast_S4096_S4096x1_0 v33
  have v35 : FVec Ideal S4096x2 .f32 := broadcastInDim S4096x2 ![0, 1] bcast_S4096x1_S4096x2_0_1 v34
  have v36 : FVec Ideal S4096x2 .f32 := subf l v35
  have v37 : FVec Ideal S4096x2 .f32 := Host.exp v36
  have cst_7 : FVec Ideal S_ .f32 := constant S_ .f32 0x00000000#32
  have v38 : FVec Ideal S4096 .f32 := Host.reduceAdd v37 cst_7 reducesTo_S4096x2_S4096_d1 h_S_
  have v39 : FVec Ideal S4096x1 .f32 := broadcastInDim S4096x1 ![0] bcast_S4096_S4096x1_0 v38
  have v40 : FVec Ideal S4096x2 .f32 := broadcastInDim S4096x2 ![0, 1] bcast_S4096x1_S4096x2_0_1 v39
  have v41 : FVec Ideal S4096x2 .f32 := Host.divf v37 v40
  v41

/-- The gate weights are the five stages in order. -/
theorem gate_eq (a0 : FVec Ideal S4096x4096 .f32) (a3 : FVec Ideal S4096x1024 .f32) (a4 : FVec Ideal S1024 .f32) (a5 : FVec Ideal S1024x64 .f32) (a6 : FVec Ideal S64 .f32) (a7 : FVec Ideal S64x2 .f32) (a8 : FVec Ideal S2 .f32) :
    RefTerm.gate a0 a3 a4 a5 a6 a7 a8 = softmaxRows (logits (layer2 (layer1 (normRows a0) a3 a4) a5 a6) a7 a8) := rfl

end Stages

/-! ## Each stage read at an index -/

section Reads
variable [Facts₀]
open Facts₀

/-- A normalised row is the row less its mean over the root of its variance and the guard. -/
theorem normRows_apply (a0 : FVec Ideal S4096x4096 .f32) (r k : Fin 4096) :
    normRows a0 (ix2 r k) = Cert.Spec.rZ (Cert.Spec.co2 a0 r) k := by
  unfold normRows
  simp only [hdivf_apply, hsqrt_apply, subf_apply, addf_apply, mulf_apply, select_apply, cmpf_apply, sitofp_apply,
    constantI_apply, constant_apply, bcast_colwide_apply, bcast_col_apply, bcast0_apply, reduceAdd_rows_apply, id_eq,
    sitofp_zero, sub_zero, Ideal.ofBits_zero_f32, zero_add, Ideal.cmpf_def, guard_pos, select_one,
    Ideal.hostDivf_def, Ideal.hostUnary_sqrt_def]
  rfl

/-- The first layer of a row. -/
theorem layer1_apply (z : FVec Ideal S4096x4096 .f32) (a3 : FVec Ideal S4096x1024 .f32) (a4 : FVec Ideal S1024 .f32) (r : Fin 4096) (j : Fin 1024) :
    layer1 z a3 a4 (ix2 r j) = Cert.Spec.relu ((∑ k : Fin 4096, z (ix2 r k) * a3 (ix2 k j)) + a4 (ix1 j)) := by
  unfold layer1
  simp only [maximumf_apply, addf_apply, constant_apply, bcast_rowtall_apply, bcast_row_apply, bcast0_apply,
    dot_apply dot_S4096x4096_S4096x1024_S4096x1024_1_0_0_1_n_n rfl rfl rfl rfl rfl rfl]
  rfl

/-- The second layer of a row. -/
theorem layer2_apply (h : FVec Ideal S4096x1024 .f32) (a5 : FVec Ideal S1024x64 .f32) (a6 : FVec Ideal S64 .f32) (r : Fin 4096) (n : Fin 64) :
    layer2 h a5 a6 (ix2 r n) = Cert.Spec.lreluR ((∑ j : Fin 1024, h (ix2 r j) * a5 (ix2 j n)) + a6 (ix1 n)) := by
  unfold layer2
  simp only [select_apply, cmpf_apply, mulf_apply, addf_apply, constant_apply, id_eq, bcast_rowtall_apply, bcast_row_apply, bcast0_apply,
    dot_apply dot_S4096x1024_S1024x64_S4096x64_1_0_0_1_n_n rfl rfl rfl rfl rfl rfl]
  rfl

/-- The logits of a row. -/
theorem logits_apply (h : FVec Ideal S4096x64 .f32) (a7 : FVec Ideal S64x2 .f32) (a8 : FVec Ideal S2 .f32) (r : Fin 4096) (q : Fin 2) :
    logits h a7 a8 (ix2 r q)
      = ((∑ n : Fin 64, h (ix2 r n) * a7 (ix2 n q)) + a8 (ix1 q)) * Cert.Spec.c8 + Cert.Spec.bias q := by
  unfold logits
  simp only [mulf_apply, addf_apply, constant_apply, bcast_rowtall_apply, bcast_row_apply, bcast0_apply,
    dot_apply dot_S4096x64_S64x2_S4096x2_1_0_0_1_n_n rfl rfl rfl rfl rfl rfl, Ideal.ofBits_def, bias_apply]

/-- The softmax of a row. -/
theorem softmaxRows_apply (l : FVec Ideal S4096x2 .f32) (r : Fin 4096) (q : Fin 2) :
    softmaxRows l (ix2 r q) = Cert.Spec.softmax2 (Cert.Spec.co2 l r) q := by
  unfold softmaxRows
  simp only [hdivf_apply, hexp_apply, subf_apply, maximumf_apply, constant_apply, bcast_colwide_apply, bcast_col_apply, bcast0_apply,
    reduceAdd_rows_apply, reduceMax_rows_apply, max_negInf, Ideal.ofBits_zero_f32, zero_add, Ideal.hostDivf_def, Ideal.hostUnary_exp_def]
  rfl

end Reads

/-! ## The three terms read at an index -/

section Main
variable [Facts₀]
open Facts₀

theorem gate_apply (a0 : FVec Ideal S4096x4096 .f32) (a3 : FVec Ideal S4096x1024 .f32) (a4 : FVec Ideal S1024 .f32) (a5 : FVec Ideal S1024x64 .f32) (a6 : FVec Ideal S64 .f32) (a7 : FVec Ideal S64x2 .f32) (a8 : FVec Ideal S2 .f32) (r : Fin 4096) (q : Fin 2) :
    RefTerm.gate a0 a3 a4 a5 a6 a7 a8 (ix2 r q) = Cert.Spec.gateR a0 a3 a4 a5 a6 a7 a8 r q := by
  rw [gate_eq, softmaxRows_apply]
  have h1 : ∀ j : Fin 1024, layer1 (normRows a0) a3 a4 (ix2 r j)
      = Cert.Spec.rH1 (Cert.Spec.co2 a0 r) (Cert.Spec.co2 a3) (Cert.Spec.co1 a4) j := fun j => by
    rw [layer1_apply]
    simp only [normRows_apply]
    rfl
  have h2 : ∀ n : Fin 64, layer2 (layer1 (normRows a0) a3 a4) a5 a6 (ix2 r n)
      = Cert.Spec.rH2 (Cert.Spec.co2 a0 r) (Cert.Spec.co2 a3) (Cert.Spec.co1 a4) (Cert.Spec.co2 a5) (Cert.Spec.co1 a6) n := fun n => by
    rw [layer2_apply]
    simp only [h1]
    rfl
  have h3 : Cert.Spec.co2 (logits (layer2 (layer1 (normRows a0) a3 a4) a5 a6) a7 a8) r
      = Cert.Spec.rLogit (Cert.Spec.co2 a0 r) (Cert.Spec.co2 a3) (Cert.Spec.co1 a4) (Cert.Spec.co2 a5) (Cert.Spec.co1 a6) (Cert.Spec.co2 a7) (Cert.Spec.co1 a8) := by
    funext k
    show logits (layer2 (layer1 (normRows a0) a3 a4) a5 a6) a7 a8 (ix2 r k) = _
    rw [logits_apply]
    simp only [h2]
    rfl
  rw [h3]
  rfl

theorem gw_apply (a1 : FVec Ideal S4096x4096 .f32) (g : FVec Ideal S4096x2 .f32) (r : Fin 4096) (q : Fin 2) :
    RefTerm.gw a1 g (ix2 r q) = Cert.Spec.smooth (Cert.Spec.co2 g) (Cert.Spec.co2 a1) r q := by
  unfold RefTerm.gw
  simp only [addf_apply, mulf_apply, constant_apply, bcast0_apply,
    dot_apply dot_S4096x4096_S4096x2_S4096x2_1_0_0_1_n_n rfl rfl rfl rfl rfl rfl]
  rfl

theorem gf_apply (a1 a2 : FVec Ideal S4096x4096 .f32) (w : FVec Ideal S4096x2 .f32) (r col : Fin 4096) :
    RefTerm.gf a1 a2 w (ix2 r col) = Cert.Spec.fuse (Cert.Spec.co2 a1) (Cert.Spec.co2 a2) (Cert.Spec.co2 w) r col := by
  unfold RefTerm.gf
  simp only [reduceAdd_last_apply, constant_apply, Ideal.ofBits_zero_f32, zero_add, Fin.sum_univ_two, mulf_apply,
    concat_last_zero, concat_last_one, bcast_trail_apply, bcast_midwide_apply, bcast_mid_apply]
  rfl

end Main

end Cert.ReferenceIdeal.RefRead

end
-- ==== Proof.RefBridge.lean ====
/-
  The reference program's two results as the specification spells them, over any argument arrays: its composed
  operations read index by index are the row-wise gating network, the smoothing by the first graph and the fusion.
-/
import proofs.«138674_g11373073400015_week1_w4_273_26_alg».proof.Proof.RefRead

noncomputable section

namespace Cert.ReferenceIdeal.RefBridge

open Idealize.ShloMosaic Idealize.ShloMosaic.ValueIdx Cert.ReferenceIdeal

variable [Facts₀]
variable (a0 a1 a2 : FVec Ideal S4096x4096 .f32) (a3 : FVec Ideal S4096x1024 .f32) (a4 : FVec Ideal S1024 .f32) (a5 : FVec Ideal S1024x64 .f32)
  (a6 : FVec Ideal S64 .f32) (a7 : FVec Ideal S64x2 .f32) (a8 : FVec Ideal S2 .f32)

/-- The softmax's output, by coordinates, is the row-wise gating network. -/
theorem gate_co : Cert.Spec.co2 (RefTerm.gate a0 a3 a4 a5 a6 a7 a8) = Cert.Spec.gateR a0 a3 a4 a5 a6 a7 a8 :=
  funext fun r => funext fun q => RefRead.gate_apply a0 a3 a4 a5 a6 a7 a8 r q

/-- The second result: the smoothed gate weights. -/
theorem ref_gw : RefTerm.gw a1 (RefTerm.gate a0 a3 a4 a5 a6 a7 a8)
    = Cert.Spec.arr2 (Cert.Spec.smooth (Cert.Spec.gateR a0 a3 a4 a5 a6 a7 a8) (Cert.Spec.co2 a1)) := by
  funext i
  obtain ⟨r, q, rfl⟩ : ∃ (r : Fin 4096) (q : Fin 2), i = ix2 r q := ⟨i 0, i 1, eq_ix2 i⟩
  rw [RefRead.gw_apply, gate_co]
  rfl

/-- Its coordinates. -/
theorem gw_co : Cert.Spec.co2 (RefTerm.gw a1 (RefTerm.gate a0 a3 a4 a5 a6 a7 a8))
    = Cert.Spec.smooth (Cert.Spec.gateR a0 a3 a4 a5 a6 a7 a8) (Cert.Spec.co2 a1) := by
  rw [ref_gw]; rfl

/-- The first result: the fused graph. -/
theorem ref_gf : RefTerm.gf a1 a2 (RefTerm.gw a1 (RefTerm.gate a0 a3 a4 a5 a6 a7 a8))
    = Cert.Spec.arr2 (Cert.Spec.fuse (Cert.Spec.co2 a1) (Cert.Spec.co2 a2) (Cert.Spec.smooth (Cert.Spec.gateR a0 a3 a4 a5 a6 a7 a8) (Cert.Spec.co2 a1))) := by
  funext i
  obtain ⟨r, col, rfl⟩ : ∃ (r col : Fin 4096), i = ix2 r col := ⟨i 0, i 1, eq_ix2 i⟩
  rw [RefRead.gf_apply, gw_co]
  rfl

end Cert.ReferenceIdeal.RefBridge

end
-- ==== Proof.lean ====
/-
  The certificate's five claims. The kernel program runs a stretch of host lines and two pipelined regions: a gating
  network over blocks of 512 rows (three dense layers and a two-way softmax, the row normalisation folded into the
  first product's epilogue, the first weight matrix narrowed and its column sums kept in two scratch buffers from the
  first grid point on) and a fusion over stripes of 256 rows (the gate weights smoothed by the first graph, the two
  graphs mixed by them). Its frame at both instances is the run of those segments; the reference's is its host run.
  On finite arguments the extended reals the two programs end with are equal: the variance is the mean square less the
  squared mean, the normalisation distributes over the first product, the leaky rectifier's two comparisons agree, and
  the softmax temperature and bias commute with the last layer; the smoothing and the fusion are the same sums.
-/
import proofs.«138674_g11373073400015_week1_w4_273_26_alg».proof.Defs
import proofs.«138674_g11373073400015_week1_w4_273_26_alg».proof.Proof.Gen.Kernel
import proofs.«138674_g11373073400015_week1_w4_273_26_alg».proof.Proof.Gen.KernelIdeal
import proofs.«138674_g11373073400015_week1_w4_273_26_alg».proof.Proof.Gen.ReferenceIdeal
import proofs.«138674_g11373073400015_week1_w4_273_26_alg».proof.Proof.Gen.Pre_finite_inputs
import proofs.«138674_g11373073400015_week1_w4_273_26_alg».proof.Proof.KRun
import proofs.«138674_g11373073400015_week1_w4_273_26_alg».proof.Proof.Bridge
import proofs.«138674_g11373073400015_week1_w4_273_26_alg».proof.Proof.RefRun
import proofs.«138674_g11373073400015_week1_w4_273_26_alg».proof.Proof.RefBridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame (F := Bits) m ρ

/-- The idealized kernel program runs and keeps its arguments. -/
theorem frame_ki : Cert.frame_KernelIdeal := fun m ρ _ => Cert.KernelIdeal.Hand.frame (F := Ideal) m ρ

/-- The idealized reference runs and keeps its arguments. -/
theorem frame_ri : Cert.frame_ReferenceIdeal := fun m ρ _ =>
  (θ_run (Cert.ReferenceIdeal.defs (F := Ideal)) _ _).mono (fun _ h c => (h c).2.2) (Cert.ReferenceIdeal.RefRun.run m ρ)

/-- From memories agreeing on finite arguments both idealized programs end with the same two arrays: the fused graph
    and the smoothed gate weights of the specification. -/
theorem algebraic : Cert.algebraic_KernelIdeal_ReferenceIdeal := by
  intro m ρ m' ρ' hpre hagree
  have hfin : ∀ c, Cert.KernelIdeal.Hand.AllReal m c := fun c => Cert.Hand.finite_of_pre m hpre c
  refine ⟨fun c => Cert.KernelIdeal.Hand.resGf m c, fun c => Cert.KernelIdeal.Hand.resGw m c, ?_, ?_⟩
  · exact (θ_run (Cert.KernelIdeal.defs (F := Ideal)) _ _).mono
      (fun _ h c => ⟨(h c).1.trans (Cert.KernelIdeal.Hand.kernel_gf m c (hfin c)), (h c).2.1.trans (Cert.KernelIdeal.Hand.kernel_gw m c (hfin c)), (h c).2.2⟩)
      (Cert.KernelIdeal.Hand.run_values (F := Ideal) m ρ)
  · refine (θ_run (Cert.ReferenceIdeal.defs (F := Ideal)) _ _).mono (fun _ h c => ⟨(h c).1.trans ?_, (h c).2.1.trans ?_, (h c).2.2⟩)
      (Cert.ReferenceIdeal.RefRun.run m' ρ')
    · obtain ⟨e0, e1, e2, e3, e4, e5, e6, e7, e8⟩ := hagree c
      rw [e0, e1, e2, e3, e4, e5, e6, e7, e8]
      exact Cert.ReferenceIdeal.RefBridge.ref_gf _ _ _ _ _ _ _ _ _
    · obtain ⟨e0, e1, e2, e3, e4, e5, e6, e7, e8⟩ := hagree c
      rw [e0, e1, e3, e4, e5, e6, e7, e8]
      exact Cert.ReferenceIdeal.RefBridge.ref_gw _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
